-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  IdealRules.truncf_extf.Statement Cert.KernelIdeal.S4x256x512 .f32 .bf16

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x1024 : Shape := ⟨3, ![4, 4096, 1024]⟩
abbrev S1024x64 : Shape := ⟨2, ![1024, 64]⟩
abbrev S64 : Shape := ⟨1, ![64]⟩
abbrev S_ : Shape := ⟨0, ![]⟩

class Facts : Prop where
  bcast_S_S4x4096x1024 : S_.BroadcastsInDim S4x4096x1024 (![] : Fin 0 → Fin S4x4096x1024.rank)
  reducesTo_S4x4096x1024_S_d0_1_2 : S4x4096x1024.ReducesTo [0, 1, 2] S_
  h_S_ : 0 < S_.numel
  bcast_S_S1024x64 : S_.BroadcastsInDim S1024x64 (![] : Fin 0 → Fin S1024x64.rank)
  reducesTo_S1024x64_S_d0_1 : S1024x64.ReducesTo [0, 1] S_
  bcast_S_S64 : S_.BroadcastsInDim S64 (![] : Fin 0 → Fin S64.rank)
  reducesTo_S64_S_d0 : S64.ReducesTo [0] S_

variable [Facts]

def fn_part2 {F : FTy → Type} [FloatOps F] (main_arg7 : FVec F S1024x64 .f32) (main_arg8 : FVec F S64 .f32) (main_v33 : IVec S_ 1) : IVec S_ 1 :=
  let main_v34 : FVec F S1024x64 .f32 := Host.absf main_arg7
  let main_cst_12 : FVec F S_ .f32 := constant S_ .f32 0x7F800000#32
  let main_v35 : FVec F S1024x64 .f32 := broadcastInDim S1024x64 ![] bcast_S_S1024x64 main_cst_12
  let main_v36 : IVec S1024x64 1 := cmpf .olt main_v34 main_v35
  let main_c_13 : IVec S_ 1 := constantI S_ 1 1#1
  let main_v37 : IVec S_ 1 := (fun x v => Host.reduce IntOp.andi x v reducesTo_S1024x64_S_d0_1 h_S_) main_v36 main_c_13
  let main_v38 : IVec S_ 1 := andi main_v33 main_v37
  let main_v39 : FVec F S64 .f32 := Host.absf main_arg8
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  main_v43

def fn_part1 {F : FTy → Type} [FloatOps F] (main_arg4 : FVec F S64 .f32) (main_arg5 : FVec F S1024x64 .f32) (main_arg6 : FVec F S64 .f32) (main_arg7 : FVec F S1024x64 .f32) (main_arg8 : FVec F S64 .f32) (main_v13 : IVec S_ 1) (main_v16 : IVec S1024x64 1) : IVec S_ 1 :=
  let main_c_5 : IVec S_ 1 := constantI S_ 1 1#1
  let main_v17 : IVec S_ 1 := (fun x v => Host.reduce IntOp.andi x v reducesTo_S1024x64_S_d0_1 h_S_) main_v16 main_c_5
  let main_v18 : IVec S_ 1 := andi main_v13 main_v17
  let main_v19 : FVec F S64 .f32 := Host.absf main_arg4
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S1024x64 .f32 := Host.absf main_arg5
  let main_cst_8 : FVec F S_ .f32 := constant S_ .f32 0x7F800000#32
  let main_v25 : FVec F S1024x64 .f32 := broadcastInDim S1024x64 ![] bcast_S_S1024x64 main_cst_8
  let main_v26 : IVec S1024x64 1 := cmpf .olt main_v24 main_v25
  let main_c_9 : IVec S_ 1 := constantI S_ 1 1#1
  let main_v27 : IVec S_ 1 := (fun x v => Host.reduce IntOp.andi x v reducesTo_S1024x64_S_d0_1 h_S_) main_v26 main_c_9
  let main_v28 : IVec S_ 1 := andi main_v23 main_v27
  let main_v29 : FVec F S64 .f32 := Host.absf main_arg6
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg7 main_arg8 main_v33

def fn {F : FTy → Type} [FloatOps F] (main_arg0 : FVec F S4x4096x1024 .f32) (main_arg1 : FVec F S4x4096x1024 .f32) (main_arg2 : FVec F S4x4096x1024 .f32) (main_arg3 : FVec F S1024x64 .f32) (main_arg4 : FVec F S64 .f32) (main_arg5 : FVec F S1024x64 .f32) (main_arg6 : FVec F S64 .f32) (main_arg7 : FVec F S1024x64 .f32) (main_arg8 : FVec F S64 .f32) : IVec S_ 1 :=
  let main_v0 : FVec F S4x4096x1024 .f32 := Host.absf main_arg0
  let main_cst : FVec F S_ .f32 := constant S_ .f32 0x7F800000#32
  let main_v1 : FVec F S4x4096x1024 .f32 := broadcastInDim S4x4096x1024 ![] bcast_S_S4x4096x1024 main_cst
  let main_v2 : IVec S4x4096x1024 1 := cmpf .olt main_v0 main_v1
  let main_c : IVec S_ 1 := constantI S_ 1 1#1
  let main_v3 : IVec S_ 1 := (fun x v => Host.reduce IntOp.andi x v reducesTo_S4x4096x1024_S_d0_1_2 h_S_) main_v2 main_c
  let main_v4 : FVec F S4x4096x1024 .f32 := Host.absf main_arg1
  let main_cst_0 : FVec F S_ .f32 := constant S_ .f32 0x7F800000#32
  let main_v5 : FVec F S4x4096x1024 .f32 := broadcastInDim S4x4096x1024 ![] bcast_S_S4x4096x1024 main_cst_0
  let main_v6 : IVec S4x4096x1024 1 := cmpf .olt main_v4 main_v5
  let main_c_1 : IVec S_ 1 := constantI S_ 1 1#1
  let main_v7 : IVec S_ 1 := (fun x v => Host.reduce IntOp.andi x v reducesTo_S4x4096x1024_S_d0_1_2 h_S_) main_v6 main_c_1
  let main_v8 : IVec S_ 1 := andi main_v3 main_v7
  let main_v9 : FVec F S4x4096x1024 .f32 := Host.absf main_arg2
  let main_cst_2 : FVec F S_ .f32 := constant S_ .f32 0x7F800000#32
  let main_v10 : FVec F S4x4096x1024 .f32 := broadcastInDim S4x4096x1024 ![] bcast_S_S4x4096x1024 main_cst_2
  let main_v11 : IVec S4x4096x1024 1 := cmpf .olt main_v9 main_v10
  let main_c_3 : IVec S_ 1 := constantI S_ 1 1#1
  let main_v12 : IVec S_ 1 := (fun x v => Host.reduce IntOp.andi x v reducesTo_S4x4096x1024_S_d0_1_2 h_S_) main_v11 main_c_3
  let main_v13 : IVec S_ 1 := andi main_v8 main_v12
  let main_v14 : FVec F S1024x64 .f32 := Host.absf main_arg3
  let main_cst_4 : FVec F S_ .f32 := constant S_ .f32 0x7F800000#32
  let main_v15 : FVec F S1024x64 .f32 := broadcastInDim S1024x64 ![] bcast_S_S1024x64 main_cst_4
  let main_v16 : IVec S1024x64 1 := cmpf .olt main_v14 main_v15
  fn_part1 (F := F) main_arg4 main_arg5 main_arg6 main_arg7 main_arg8 main_v13 main_v16
-- ==== Kernel.lean ====
abbrev S4x4096x1024 : Shape := ⟨3, ![4, 4096, 1024]⟩
abbrev S1024x64 : Shape := ⟨2, ![1024, 64]⟩
abbrev S64 : Shape := ⟨1, ![64]⟩
abbrev S4x4096x64 : Shape := ⟨3, ![4, 4096, 64]⟩
abbrev S1x1024x1024 : Shape := ⟨3, ![1, 1024, 1024]⟩
abbrev S1x1024x64 : Shape := ⟨3, ![1, 1024, 64]⟩
abbrev S1024x1024 : Shape := ⟨2, ![1024, 1024]⟩
abbrev S1x64 : Shape := ⟨2, ![1, 64]⟩
abbrev S4x256x1024 : Shape := ⟨3, ![4, 256, 1024]⟩
abbrev S4x256x64 : Shape := ⟨3, ![4, 256, 64]⟩
abbrev S4x256x1 : Shape := ⟨3, ![4, 256, 1]⟩
abbrev S4x1024x64 : Shape := ⟨3, ![4, 1024, 64]⟩
abbrev S1x1x64 : Shape := ⟨3, ![1, 1, 64]⟩
abbrev S4x512x64 : Shape := ⟨3, ![4, 512, 64]⟩
abbrev S4x256x512 : Shape := ⟨3, ![4, 256, 512]⟩
abbrev S4x256 : Shape := ⟨2, ![4, 256]⟩

abbrev nBuf : Space → Nat
  | .hbm => 12
  | .vmem => 23
  | .smem => 0
  | _ => 0

abbrev bufTy : (tb : Table) → Fin (tcTables nBuf tb) → BufTy
  | .hbm, ⟨0, _⟩ => ⟨S4x4096x1024, .f32⟩
  | .hbm, ⟨1, _⟩ => ⟨S4x4096x1024, .f32⟩
  | .hbm, ⟨2, _⟩ => ⟨S4x4096x1024, .f32⟩
  | .hbm, ⟨3, _⟩ => ⟨S1024x64, .f32⟩
  | .hbm, ⟨4, _⟩ => ⟨S64, .f32⟩
  | .hbm, ⟨5, _⟩ => ⟨S1024x64, .f32⟩
  | .hbm, ⟨6, _⟩ => ⟨S64, .f32⟩
  | .hbm, ⟨7, _⟩ => ⟨S1024x64, .f32⟩
  | .hbm, ⟨8, _⟩ => ⟨S64, .f32⟩
  | .hbm, ⟨9, _⟩ => ⟨S4x4096x64, .bf16⟩
  | .hbm, ⟨10, _⟩ => ⟨S4x4096x64, .bf16⟩
  | .hbm, ⟨11, _⟩ => ⟨S4x4096x64, .f32⟩
  | .local _ .vmem, ⟨0, _⟩ => ⟨S1x1024x1024, .f32⟩
  | .local _ .vmem, ⟨1, _⟩ => ⟨S1x1024x1024, .f32⟩
  | .local _ .vmem, ⟨2, _⟩ => ⟨S1x1024x1024, .f32⟩
  | .local _ .vmem, ⟨3, _⟩ => ⟨S1x1024x1024, .f32⟩
  | .local _ .vmem, ⟨4, _⟩ => ⟨S1024x64, .f32⟩
  | .local _ .vmem, ⟨5, _⟩ => ⟨S1024x64, .f32⟩
  | .local _ .vmem, ⟨6, _⟩ => ⟨S64, .f32⟩
  | .local _ .vmem, ⟨7, _⟩ => ⟨S64, .f32⟩
  | .local _ .vmem, ⟨8, _⟩ => ⟨S1x1024x64, .bf16⟩
  | .local _ .vmem, ⟨9, _⟩ => ⟨S1x1024x64, .bf16⟩
  | .local _ .vmem, ⟨10, _⟩ => ⟨S1x1024x64, .bf16⟩
  | .local _ .vmem, ⟨11, _⟩ => ⟨S1x1024x64, .bf16⟩
  | .local _ .vmem, ⟨12, _⟩ => ⟨S4x256x1024, .f32⟩
  | .local _ .vmem, ⟨13, _⟩ => ⟨S4x256x1024, .f32⟩
  | .local _ .vmem, ⟨14, _⟩ => ⟨S1024x64, .f32⟩
  | .local _ .vmem, ⟨15, _⟩ => ⟨S64, .f32⟩
  | .local _ .vmem, ⟨16, _⟩ => ⟨S4x4096x64, .bf16⟩
  | .local _ .vmem, ⟨17, _⟩ => ⟨S4x4096x64, .bf16⟩
  | .local _ .vmem, ⟨18, _⟩ => ⟨S4x256x64, .f32⟩
  | .local _ .vmem, ⟨19, _⟩ => ⟨S4x256x64, .f32⟩
  | .local _ .vmem, ⟨20, _⟩ => ⟨S4x256x1, .f32⟩
  | .local _ .vmem, ⟨21, _⟩ => ⟨S4x256x1, .f32⟩
  | .local _ .vmem, ⟨22, _⟩ => ⟨S4x256x64, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0_0 : Ref sig .tc := ⟨.hbm, 9, rfl⟩
abbrev main_v0_1 : Ref sig .tc := ⟨.hbm, 10, rfl⟩
abbrev main_v1 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg2_0 : Ref sig .tc := ⟨.vmem, 15, rfl⟩
abbrev cc1_stg3_0 : Ref sig .tc := ⟨.vmem, 16, rfl⟩
abbrev cc1_stg4_0 : Ref sig .tc := ⟨.vmem, 17, rfl⟩
abbrev cc1_stg5_0 : Ref sig .tc := ⟨.vmem, 18, rfl⟩
abbrev cc1_stg5_1 : Ref sig .tc := ⟨.vmem, 19, rfl⟩
abbrev cc1_scratch0 : Ref sig .tc := ⟨.vmem, 20, rfl⟩
abbrev cc1_scratch1 : Ref sig .tc := ⟨.vmem, 21, rfl⟩
abbrev cc1_scratch2 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc1_sem0_0 : DmaSem sig := 12
abbrev cc1_sem0_1 : DmaSem sig := 13
abbrev cc1_sem1_0 : DmaSem sig := 14
abbrev cc1_sem2_0 : DmaSem sig := 15
abbrev cc1_sem3_0 : DmaSem sig := 16
abbrev cc1_sem4_0 : DmaSem sig := 17
abbrev cc1_sem5_0 : DmaSem sig := 18
abbrev cc1_sem5_1 : DmaSem sig := 19

abbrev nD : Nat := 1
abbrev τ : Topo := Topo.v7x

variable {F : FTy → Type} [FloatOps F]

abbrev grid0 : Pipeline.Grid := ⟨2, ![4, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_5 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1024x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x1024x64 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x1024x64 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev grid1 : Pipeline.Grid := ⟨1, ![16], ![false]⟩

@[reducible] def k1_t1_loop : Scf.Loop 32 :=
  let c0_i32 : BitVec 32 := 0#32
  let c8_i32 : BitVec 32 := 8#32
  let v27 : BitVec 32 := Scalar.addi c0_i32 c8_i32
  let c1_i32 : BitVec 32 := 1#32
  ⟨c0_i32, v27, c1_i32⟩
def k1_mult1 (k1_t1 : Fin k1_t1_loop.trips) : BitVec 32 :=
  let c0_i32_29 : BitVec 32 := 0#32
  let c0_i32 : BitVec 32 := 0#32
  let c1_i32 : BitVec 32 := 1#32
  let arg10 : BitVec 32 := Scf.iv c0_i32 c1_i32 k1_t1
  let c1_i32_28 : BitVec 32 := 1#32
  let v33 : BitVec 32 := Scalar.muli arg10 c1_i32_28
  let v34 : BitVec 32 := Scalar.addi c0_i32_29 v33
  let c512_i32 : BitVec 32 := 512#32
  let v35 : BitVec 32 := Scalar.muli v34 c512_i32
  v35
def k1_off1 (k1_t1 : Fin k1_t1_loop.trips) : Fin 3 → Nat :=
  let c0_30 : Index := 0#32
  let c0_i32_29 : BitVec 32 := 0#32
  let c0_i32 : BitVec 32 := 0#32
  let c1_i32 : BitVec 32 := 1#32
  let arg10 : BitVec 32 := Scf.iv c0_i32 c1_i32 k1_t1
  let c1_i32_28 : BitVec 32 := 1#32
  let v33 : BitVec 32 := Scalar.muli arg10 c1_i32_28
  let v34 : BitVec 32 := Scalar.addi c0_i32_29 v33
  let c512_i32 : BitVec 32 := 512#32
  let v35 : BitVec 32 := Scalar.muli v34 c512_i32
  let v36 : BitVec 32 := v35
  let v37 : Index := Scalar.indexCast v36
  let c0_31 : Index := 0#32
  ![0, v37.toNat, 0]
def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_4 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_5 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage1_0 : Fin 2 → Memref sig .tc .vmem S4x256x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1024x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S4x4096x64 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S4x4096x64 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S4x256x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  bitsLt_bf16_f32 : FTy.bits .bf16 < FTy.bits .f32
  inb_S1024x64_S1024x64_0_0 : ∀ a, (![0, 0] : Fin 2 → Nat) a + S1024x64.size a ≤ S1024x64.size a
  h_S1024x64 : 0 < S1024x64.numel
  inb_S64_S64_0 : ∀ a, (![0] : Fin 1 → Nat) a + S64.size a ≤ S64.size a
  h_S64 : 0 < S64.numel
  shapeCasts_S64_S1x64 : S64.ShapeCasts S1x64
  broadcasts_S1x64_S1024x64 : S1x64.Broadcasts S1024x64
  inb_S1x1024x64_S1x1024x64_0_0_0 : ∀ a, (![0, 0, 0] : Fin 3 → Nat) a + S1x1024x64.size a ≤ S1x1024x64.size a
  h_S1x1024x64 : 0 < S1x1024x64.numel
  shapeCasts_S1x1024x64_S1024x64 : S1x1024x64.ShapeCasts S1024x64
  shapeCasts_S1024x64_S1x1024x64 : S1024x64.ShapeCasts S1x1024x64
  packedbf16_S1x1024x64_S1x1024x64_0_0_0 : (Rect.unit (s := S1x1024x64) ![0, 0, 0] S1x1024x64.size inb_S1x1024x64_S1x1024x64_0_0_0).PackedRows (EltTy.packing .bf16)
  inb_S4x256x1024_S4x256x1024_0_0_0 : ∀ a, (![0, 0, 0] : Fin 3 → Nat) a + S4x256x1024.size a ≤ S4x256x1024.size a
  h_S4x256x1024 : 0 < S4x256x1024.numel
  shapeCasts_S1x1024x64_S1x1024x64 : S1x1024x64.ShapeCasts S1x1024x64
  broadcasts_S1x1024x64_S4x1024x64 : S1x1024x64.Broadcasts S4x1024x64
  shapeCasts_S64_S1x1x64 : S64.ShapeCasts S1x1x64
  broadcasts_S1x1x64_S4x256x64 : S1x1x64.Broadcasts S4x256x64
  inb_S4x256x1_S4x256x1_0_0_0 : ∀ a, (![0, 0, 0] : Fin 3 → Nat) a + S4x256x1.size a ≤ S4x256x1.size a
  h_S4x256x1 : 0 < S4x256x1.numel
  shapeCasts_S4x256x1_S4x256x1 : S4x256x1.ShapeCasts S4x256x1
  inb_S4x256x64_S4x256x64_0_0_0 : ∀ a, (![0, 0, 0] : Fin 3 → Nat) a + S4x256x64.size a ≤ S4x256x64.size a
  h_S4x256x64 : 0 < S4x256x64.numel
  shapeCasts_S4x256x64_S4x256x64 : S4x256x64.ShapeCasts S4x256x64
  h_S4x512x64 : 0 < S4x512x64.numel
  shapeCasts_S4x512x64_S4x512x64 : S4x512x64.ShapeCasts S4x512x64
  reduces_S4x256x512_S4x256 : S4x256x512.Reduces [2] S4x256
  shapeCasts_S4x256_S4x256x1 : S4x256.ShapeCasts S4x256x1
  broadcasts_S4x256x1_S4x256x512 : S4x256x1.Broadcasts S4x256x512
  broadcasts_S4x256x1_S4x256x64 : S4x256x1.Broadcasts S4x256x64
  dot_S1024x1024_S1024x64_S1024x64_1_0_0_1_n_n_wf : DotDims.WF S1024x1024 S1024x64 S1024x64 [1] [0] [0] [1] [] []
  dot_S4x256x1024_S4x1024x64_S4x256x64_2_1_1_2_0_0_wf : DotDims.WF S4x256x1024 S4x1024x64 S4x256x64 [2] [1] [1] [2] [0] [0]
  dot_S4x256x64_S4x512x64_S4x256x512_2_2_1_1_0_0_wf : DotDims.WF S4x256x64 S4x512x64 S4x256x512 [2] [2] [1] [1] [0] [0]
  dot_S4x256x512_S4x512x64_S4x256x64_2_1_1_2_0_0_wf : DotDims.WF S4x256x512 S4x512x64 S4x256x64 [2] [1] [1] [2] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x1024.size a ≤ S4x4096x1024.size a
  hwx0_0 : ∀ i : grid0.Coords, EltTy.bits .f32 = 32 ∨ (Rect.block (s := S4x4096x1024) S1x1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x1024.size a ≤ S4x4096x1024.size a
  hwx0_1 : ∀ i : grid0.Coords, EltTy.bits .f32 = 32 ∨ (Rect.block (s := S4x4096x1024) S1x1024x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x64.size a ≤ S1024x64.size a
  hwx0_2 : ∀ i : grid0.Coords, EltTy.bits .f32 = 32 ∨ (Rect.block (s := S1024x64) S1024x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x64.size a ≤ S1024x64.size a
  hwx0_3 : ∀ i : grid0.Coords, EltTy.bits .f32 = 32 ∨ (Rect.block (s := S1024x64) S1024x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64.size a ≤ S64.size a
  hwx0_4 : ∀ i : grid0.Coords, EltTy.bits .f32 = 32 ∨ (Rect.block (s := S64) S64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64.size a ≤ S64.size a
  hwx0_5 : ∀ i : grid0.Coords, EltTy.bits .f32 = 32 ∨ (Rect.block (s := S64) S64.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x1024x64.size a ≤ S4x4096x64.size a
  hwx0_6 : ∀ i : grid0.Coords, EltTy.bits .bf16 = 32 ∨ (Rect.block (s := S4x4096x64) S1x1024x64.size (cc0_transform_6 i) (hinb0_6 i)).WholeWords (EltTy.packing .bf16)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x1024x64.size a ≤ S4x4096x64.size a
  hwx0_7 : ∀ i : grid0.Coords, EltTy.bits .bf16 = 32 ∨ (Rect.block (s := S4x4096x64) S1x1024x64.size (cc0_transform_7 i) (hinb0_7 i)).WholeWords (EltTy.packing .bf16)
  hrank1 : 0 < grid1.rank
  k1_t1_ok : k1_t1_loop.OK
  k1_mult1_dvd : ∀ k1_t1 : Fin k1_t1_loop.trips, 512 ∣ (k1_mult1 k1_t1).toNat
  k1_off1_inb : ∀ k1_t1 : Fin k1_t1_loop.trips, ∀ a, (k1_off1 k1_t1) a + S4x512x64.size a ≤ S4x4096x64.size a
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4x256x1024.size a ≤ S4x4096x1024.size a
  hwx1_0 : ∀ i : grid1.Coords, EltTy.bits .f32 = 32 ∨ (Rect.block (s := S4x4096x1024) S4x256x1024.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1024x64.size a ≤ S1024x64.size a
  hwx1_1 : ∀ i : grid1.Coords, EltTy.bits .f32 = 32 ∨ (Rect.block (s := S1024x64) S1024x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64.size a ≤ S64.size a
  hwx1_2 : ∀ i : grid1.Coords, EltTy.bits .f32 = 32 ∨ (Rect.block (s := S64) S64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S4x4096x64.size a ≤ S4x4096x64.size a
  hwx1_3 : ∀ i : grid1.Coords, EltTy.bits .bf16 = 32 ∨ (Rect.block (s := S4x4096x64) S4x4096x64.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S4x4096x64.size a ≤ S4x4096x64.size a
  hwx1_4 : ∀ i : grid1.Coords, EltTy.bits .bf16 = 32 ∨ (Rect.block (s := S4x4096x64) S4x4096x64.size (cc1_transform_4 i) (hinb1_4 i)).WholeWords (EltTy.packing .bf16)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S4x256x64.size a ≤ S4x4096x64.size a
  hwx1_5 : ∀ i : grid1.Coords, EltTy.bits .f32 = 32 ∨ (Rect.block (s := S4x4096x64) S4x256x64.size (cc1_transform_5 i) (hinb1_5 i)).WholeWords (EltTy.packing .f32)

variable [Facts₀]

def dot_S1024x1024_S1024x64_S1024x64_1_0_0_1_n_n : DotDims S1024x1024 S1024x64 S1024x64 where
  lhsContracting := [1]
  rhsContracting := [0]
  lhsNonContracting := [0]
  rhsNonContracting := [1]
  lhsBatch := []
  rhsBatch := []
  wf := dot_S1024x1024_S1024x64_S1024x64_1_0_0_1_n_n_wf
def dot_S4x256x1024_S4x1024x64_S4x256x64_2_1_1_2_0_0 : DotDims S4x256x1024 S4x1024x64 S4x256x64 where
  lhsContracting := [2]
  rhsContracting := [1]
  lhsNonContracting := [1]
  rhsNonContracting := [2]
  lhsBatch := [0]
  rhsBatch := [0]
  wf := dot_S4x256x1024_S4x1024x64_S4x256x64_2_1_1_2_0_0_wf
def dot_S4x256x64_S4x512x64_S4x256x512_2_2_1_1_0_0 : DotDims S4x256x64 S4x512x64 S4x256x512 where
  lhsContracting := [2]
  rhsContracting := [2]
  lhsNonContracting := [1]
  rhsNonContracting := [1]
  lhsBatch := [0]
  rhsBatch := [0]
  wf := dot_S4x256x64_S4x512x64_S4x256x512_2_2_1_1_0_0_wf
def dot_S4x256x512_S4x512x64_S4x256x64_2_1_1_2_0_0 : DotDims S4x256x512 S4x512x64 S4x256x64 where
  lhsContracting := [2]
  rhsContracting := [1]
  lhsNonContracting := [1]
  rhsNonContracting := [2]
  lhsBatch := [0]
  rhsBatch := [0]
  wf := dot_S4x256x512_S4x512x64_S4x256x64_2_1_1_2_0_0_wf

abbrev win0_0 : Pipeline.Window sig grid0 :=
  Pipeline.Window.ofSpec (Memref.whole main_arg1) S1x1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S1x1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg5) S1024x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg7) S1024x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg6) S64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg8) S64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v0_0) S1x1024x64.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v0_1) S1x1024x64.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_arg0) S4x256x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg3) S1024x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v0_0) S4x4096x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v0_1) S4x4096x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v1) S4x256x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S4x4096x1024 : Shape := ⟨3, ![4, 4096, 1024]⟩
abbrev S1024x64 : Shape := ⟨2, ![1024, 64]⟩
abbrev S64 : Shape := ⟨1, ![64]⟩
abbrev S4x4096x64 : Shape := ⟨3, ![4, 4096, 64]⟩
abbrev S1x1x64 : Shape := ⟨3, ![1, 1, 64]⟩
abbrev S4x4096x4096 : Shape := ⟨3, ![4, 4096, 4096]⟩
abbrev S_ : Shape := ⟨0, ![]⟩
abbrev S4x4096 : Shape := ⟨2, ![4, 4096]⟩
abbrev S4x4096x1 : Shape := ⟨3, ![4, 4096, 1]⟩

abbrev nBuf : Space → Nat
  | .hbm => 41
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S4x4096x1024, .f32⟩
  | .hbm, ⟨2, _⟩ => ⟨S4x4096x1024, .f32⟩
  | .hbm, ⟨3, _⟩ => ⟨S1024x64, .f32⟩
  | .hbm, ⟨4, _⟩ => ⟨S64, .f32⟩
  | .hbm, ⟨5, _⟩ => ⟨S1024x64, .f32⟩
  | .hbm, ⟨6, _⟩ => ⟨S64, .f32⟩
  | .hbm, ⟨7, _⟩ => ⟨S1024x64, .f32⟩
  | .hbm, ⟨8, _⟩ => ⟨S64, .f32⟩
  | .hbm, ⟨9, _⟩ => ⟨S4x4096x64, .f32⟩
  | .hbm, ⟨10, _⟩ => ⟨S1x1x64, .f32⟩
  | .hbm, ⟨11, _⟩ => ⟨S4x4096x64, .f32⟩
  | .hbm, ⟨12, _⟩ => ⟨S4x4096x64, .f32⟩
  | .hbm, ⟨13, _⟩ => ⟨S4x4096x64, .f32⟩
  | .hbm, ⟨14, _⟩ => ⟨S1x1x64, .f32⟩
  | .hbm, ⟨15, _⟩ => ⟨S4x4096x64, .f32⟩
  | .hbm, ⟨16, _⟩ => ⟨S4x4096x64, .f32⟩
  | .hbm, ⟨17, _⟩ => ⟨S4x4096x64, .f32⟩
  | .hbm, ⟨18, _⟩ => ⟨S1x1x64, .f32⟩
  | .hbm, ⟨19, _⟩ => ⟨S4x4096x64, .f32⟩
  | .hbm, ⟨20, _⟩ => ⟨S4x4096x64, .f32⟩
  | .hbm, ⟨21, _⟩ => ⟨S4x4096x4096, .f32⟩
  | .hbm, ⟨22, _⟩ => ⟨S_, .f32⟩
  | .hbm, ⟨23, _⟩ => ⟨S_, .f32⟩
  | .hbm, ⟨24, _⟩ => ⟨S4x4096x4096, .f32⟩
  | .hbm, ⟨25, _⟩ => ⟨S4x4096x4096, .f32⟩
  | .hbm, ⟨26, _⟩ => ⟨S_, .f32⟩
  | .hbm, ⟨27, _⟩ => ⟨S4x4096, .f32⟩
  | .hbm, ⟨28, _⟩ => ⟨S_, .f32⟩
  | .hbm, ⟨29, _⟩ => ⟨S4x4096, .f32⟩
  | .hbm, ⟨30, _⟩ => ⟨S4x4096, .f32⟩
  | .hbm, ⟨31, _⟩ => ⟨S4x4096x1, .f32⟩
  | .hbm, ⟨32, _⟩ => ⟨S4x4096x4096, .f32⟩
  | .hbm, ⟨33, _⟩ => ⟨S4x4096x4096, .f32⟩
  | .hbm, ⟨34, _⟩ => ⟨S4x4096x4096, .f32⟩
  | .hbm, ⟨35, _⟩ => ⟨S_, .f32⟩
  | .hbm, ⟨36, _⟩ => ⟨S4x4096, .f32⟩
  | .hbm, ⟨37, _⟩ => ⟨S4x4096x1, .f32⟩
  | .hbm, ⟨38, _⟩ => ⟨S4x4096x4096, .f32⟩
  | .hbm, ⟨39, _⟩ => ⟨S4x4096x4096, .f32⟩
  | .hbm, ⟨40, _⟩ => ⟨S4x4096x64, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_0 : Ref sig .tc := ⟨.hbm, 26, rfl⟩
abbrev main_v16 : Ref sig .tc := ⟨.hbm, 27, rfl⟩
abbrev main_cst_1 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_2 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩

abbrev nD : Nat := 1
abbrev τ : Topo := Topo.v7x

variable {F : FTy → Type} [FloatOps F]

class Facts₀ : Prop where
  bcast_S64_S1x1x64_2 : S64.BroadcastsInDim S1x1x64 (![2] : Fin 1 → Fin S1x1x64.rank)
  bcast_S1x1x64_S4x4096x64_0_1_2 : S1x1x64.BroadcastsInDim S4x4096x64 (![0, 1, 2] : Fin 3 → Fin S4x4096x64.rank)
  bcast_S_S4x4096x4096 : S_.BroadcastsInDim S4x4096x4096 (![] : Fin 0 → Fin S4x4096x4096.rank)
  reducesTo_S4x4096x4096_S4x4096_d2 : S4x4096x4096.ReducesTo [2] S4x4096
  h_S_ : 0 < S_.numel
  bcast_S_S4x4096 : S_.BroadcastsInDim S4x4096 (![] : Fin 0 → Fin S4x4096.rank)
  bcast_S4x4096_S4x4096x1_0_1 : S4x4096.BroadcastsInDim S4x4096x1 (![0, 1] : Fin 2 → Fin S4x4096x1.rank)
  bcast_S4x4096x1_S4x4096x4096_0_1_2 : S4x4096x1.BroadcastsInDim S4x4096x4096 (![0, 1, 2] : Fin 3 → Fin S4x4096x4096.rank)
  dot_S4x4096x1024_S1024x64_S4x4096x64_2_0_01_1_n_n_wf : DotDims.WF S4x4096x1024 S1024x64 S4x4096x64 [2] [0] [0, 1] [1] [] []
  dot_S4x4096x64_S4x4096x64_S4x4096x4096_2_2_1_1_0_0_wf : DotDims.WF S4x4096x64 S4x4096x64 S4x4096x4096 [2] [2] [1] [1] [0] [0]
  dot_S4x4096x4096_S4x4096x64_S4x4096x64_2_1_1_2_0_0_wf : DotDims.WF S4x4096x4096 S4x4096x64 S4x4096x64 [2] [1] [1] [2] [0] [0]

variable [Facts₀]

def dot_S4x4096x1024_S1024x64_S4x4096x64_2_0_01_1_n_n : DotDims S4x4096x1024 S1024x64 S4x4096x64 where
  lhsContracting := [2]
  rhsContracting := [0]
  lhsNonContracting := [0, 1]
  rhsNonContracting := [1]
  lhsBatch := []
  rhsBatch := []
  wf := dot_S4x4096x1024_S1024x64_S4x4096x64_2_0_01_1_n_n_wf
def dot_S4x4096x64_S4x4096x64_S4x4096x4096_2_2_1_1_0_0 : DotDims S4x4096x64 S4x4096x64 S4x4096x4096 where
  lhsContracting := [2]
  rhsContracting := [2]
  lhsNonContracting := [1]
  rhsNonContracting := [1]
  lhsBatch := [0]
  rhsBatch := [0]
  wf := dot_S4x4096x64_S4x4096x64_S4x4096x4096_2_2_1_1_0_0_wf
def dot_S4x4096x4096_S4x4096x64_S4x4096x64_2_1_1_2_0_0 : DotDims S4x4096x4096 S4x4096x64 S4x4096x64 where
  lhsContracting := [2]
  rhsContracting := [1]
  lhsNonContracting := [1]
  rhsNonContracting := [2]
  lhsBatch := [0]
  rhsBatch := [0]
  wf := dot_S4x4096x4096_S4x4096x64_S4x4096x64_2_1_1_2_0_0_wf

class Facts : Prop extends Facts₀ where

variable [Facts]
-- ==== Proof.Spec.lean ====
/-
  Attention for one query row, over the extended reals: the definitions.

  A row of an input times a weight matrix plus a bias is `proj`. The score of a query row against a key row is
  spelled two ways: `scoreK` scales each query entry by 1/8 before the contraction over the 64 features; `scoreR`
  contracts first and divides by the square root of 64.

  The 4096 keys of a row are visited in 8 blocks of 512. `stRow` carries (m, l, a): the running maximum of the
  scores seen so far, the sum of exp (score − m) over them, and the same sum weighted by one column of the values.
  A block replaces m by m' = max m (the block's maximum), rescales l and a by exp (m − m') and adds the block's terms
  at m'. Before the first block m = −∞ and l = a = 0. `onl` is a / l after the 8 blocks.

  `softmaxRow` is the textbook form: M the maximum of all 4096 scores, weights exp (s n − M) / Σ exp (s i − M),
  and the weighted sum of the column. `outK` and `outR` are one entry of the whole result in the two forms.
-/
import Idealize.ShloMosaic.PureOps.Ideal
import Idealize.ShloMosaic.PureOps.Ideal.Laws

noncomputable section

namespace Cert.Attn

open Idealize.ShloMosaic

/-- An extended real that is a real number. -/
def IsReal (x : EReal) : Prop := ∃ r : ℝ, x = (r : EReal)

/-- The four single-precision constants the two programs use, as the extended reals they denote:
    1/8, 64, −∞ and 0. -/
abbrev eighth : EReal := Ideal.ofBits .f32 0x3E000000#32
abbrev sixtyFour : EReal := Ideal.ofBits .f32 0x42800000#32
abbrev negInf : EReal := Ideal.ofBits .f32 0xFF800000#32
abbrev zero32 : EReal := Ideal.ofBits .f32 0x00000000#32

/-- Entry `e` of a row `x` of 1024 features times a 1024 × 64 matrix, plus the bias. -/
def proj (x : Fin 1024 → EReal) (W : Fin 1024 → Fin 64 → EReal) (bias : Fin 64 → EReal) (e : Fin 64) : EReal :=
  (∑ j : Fin 1024, x j * W j e) + bias e

/-- The score with the query scaled by 1/8 entry by entry before the contraction. -/
def scoreK (q kr : Fin 64 → EReal) : EReal := ∑ e : Fin 64, (q e * eighth) * kr e

/-- The score contracted first, then divided by √64. -/
def scoreR (q kr : Fin 64 → EReal) : EReal := Ideal.div (∑ e : Fin 64, q e * kr e) (Ideal.sqrt sixtyFour)

/-- Key `j` of block `k`: keys 512 k … 512 k + 511. -/
def blkIdx (k : Fin 8) (j : Fin 512) : Fin 4096 := ⟨512 * k.val + j.val, by omega⟩

/-- The maximum of block `k`'s scores, folded from −∞. -/
def blkMax (s : Fin 4096 → EReal) (k : Fin 8) : EReal :=
  (Finset.univ : Finset (Fin 512)).fold max negInf (fun j => s (blkIdx k j))

/-- One block: the new maximum, and the two sums rescaled to it with the block's terms added. -/
def stepRow (s v : Fin 4096 → EReal) (k : Fin 8) (st : EReal × EReal × EReal) : EReal × EReal × EReal :=
  (max st.1 (blkMax s k),
   Ideal.exp (st.1 - max st.1 (blkMax s k)) * st.2.1
     + ∑ j : Fin 512, Ideal.exp (s (blkIdx k j) - max st.1 (blkMax s k)),
   Ideal.exp (st.1 - max st.1 (blkMax s k)) * st.2.2
     + ∑ j : Fin 512, Ideal.exp (s (blkIdx k j) - max st.1 (blkMax s k)) * v (blkIdx k j))

/-- The state before block `n` (after the blocks below `n`); past the last block it stays. -/
def stRow (s v : Fin 4096 → EReal) : ℕ → EReal × EReal × EReal
  | 0 => (negInf, zero32, zero32)
  | n + 1 => if h : n < 8 then stepRow s v ⟨n, h⟩ (stRow s v n) else stRow s v n

/-- The block-by-block result: the weighted sum over the plain sum, after the 8 blocks. -/
def onl (s v : Fin 4096 → EReal) : EReal := Ideal.div (stRow s v 8).2.2 (stRow s v 8).2.1

/-- The maximum of all 4096 scores, folded from −∞ (and once more against −∞). -/
def allMax (s : Fin 4096 → EReal) : EReal := max negInf ((Finset.univ : Finset (Fin 4096)).fold max negInf s)

/-- The textbook form: the column weighted by exp (s n − M) / Σ exp (s i − M). -/
def softmaxRow (s v : Fin 4096 → EReal) : EReal :=
  ∑ n : Fin 4096, Ideal.div (Ideal.exp (s n - allMax s)) (zero32 + ∑ i : Fin 4096, Ideal.exp (s i - allMax s)) * v n

/-- Entry (b, s, d) of the result, block by block with the 1/8 inside the contraction. -/
def outK (Q Kx Vx : Fin 4 → Fin 4096 → Fin 1024 → EReal) (Wq : Fin 1024 → Fin 64 → EReal) (bq : Fin 64 → EReal)
    (Wk : Fin 1024 → Fin 64 → EReal) (bk : Fin 64 → EReal) (Wv : Fin 1024 → Fin 64 → EReal) (bv : Fin 64 → EReal)
    (b : Fin 4) (s : Fin 4096) (d : Fin 64) : EReal :=
  onl (fun n => scoreK (proj (Q b s) Wq bq) (proj (Kx b n) Wk bk)) (fun n => proj (Vx b n) Wv bv d)

/-- Entry (b, s, d) of the result, in the textbook form with the division by √64. -/
def outR (Q Kx Vx : Fin 4 → Fin 4096 → Fin 1024 → EReal) (Wq : Fin 1024 → Fin 64 → EReal) (bq : Fin 64 → EReal)
    (Wk : Fin 1024 → Fin 64 → EReal) (bk : Fin 64 → EReal) (Wv : Fin 1024 → Fin 64 → EReal) (bv : Fin 64 → EReal)
    (b : Fin 4) (s : Fin 4096) (d : Fin 64) : EReal :=
  softmaxRow (fun n => scoreR (proj (Q b s) Wq bq) (proj (Kx b n) Wk bk)) (fun n => proj (Vx b n) Wv bv d)

end Cert.Attn

end
-- ==== Proof.SpecLaws.lean ====
/-
  Attention for one query row, over the extended reals: the two forms agree on real data.

  A row of an input times a weight matrix plus a bias is `proj`. The score of a query row against a key row is
  spelled two ways: `scoreK` scales each query entry by 1/8 before the contraction over the 64 features; `scoreR`
  contracts first and divides by the square root of 64. On real numbers both are the same number, because
  √64 = 8 and a finite sum commutes with a real factor.

  The 4096 keys of a row are visited in 8 blocks of 512. `stRow` carries (m, l, a): the running maximum of the
  scores seen so far, the sum of exp (score − m) over them, and the same sum weighted by one column of the values.
  A block replaces m by m' = max m (the block's maximum), rescales l and a by exp (m − m') and adds the block's terms
  at m'. Before the first block m = −∞, l = a = 0, and exp (−∞ − m') = 0. `onl` is a / l after the 8 blocks.

  `softmaxRow` is the textbook form: M the maximum of all 4096 scores, weights exp (s n − M) / Σ exp (s i − M),
  and the weighted sum of the column.

  `onl_eq_softmaxRow`: on real scores and values the two agree. After j blocks, m is the maximum M_j of the scores
  of those blocks, l = Σ exp (s n − M_j) and a = Σ exp (s n − M_j) · v n over them, since
  exp (M_j − M_{j+1}) · exp (s n − M_j) = exp (s n − M_{j+1}); after all 8, M_8 = M, and
  (Σ e_n v_n) / L = Σ (e_n / L) v_n for real e_n, v_n and real L > 0.
-/
import proofs.«411045_j90666759618654_3_alg».proof.Proof.Spec
import Idealize.ShloMosaic.PureOps.Ideal
import Idealize.ShloMosaic.PureOps.Ideal.Laws
import Mathlib.Data.Fintype.BigOperators

noncomputable section

namespace Cert.Attn

open Idealize.ShloMosaic

/-! ### Real numbers inside the extended reals -/

/-- The coercion of a finite real sum is the sum of the coercions. -/
theorem coe_sum {ι : Type} (t : Finset ι) (f : ι → ℝ) :
    ((∑ i ∈ t, f i : ℝ) : EReal) = ∑ i ∈ t, (f i : EReal) := by
  classical
  induction t using Finset.induction_on with
  | empty => simp
  | insert a t ha ih => rw [Finset.sum_insert ha, Finset.sum_insert ha, EReal.coe_add, ih]

/-- The pattern of 1/8 denotes the real 1/8. -/
theorem eighth_eq : eighth = (((1 : ℝ) / 8 : ℝ) : EReal) := by
  simp [eighth, Ideal.ofBits, Ideal.ieee, -EReal.coe_mul]; norm_num

/-- The pattern of 64 denotes the real 64. -/
theorem sixtyFour_eq : sixtyFour = ((64 : ℝ) : EReal) := by
  simp [sixtyFour, Ideal.ofBits, Ideal.ieee, -EReal.coe_mul]; norm_num

/-- The pattern of −∞ denotes −∞. -/
theorem negInf_eq : negInf = (⊥ : EReal) := by
  simp [negInf, Ideal.ofBits, Ideal.ieee]

/-- The pattern of +0 denotes 0. -/
theorem zero32_eq : zero32 = (0 : EReal) := Ideal.ofBits_zero_f32

/-- √64 = 8, since 64 = 8². -/
theorem sqrt_sixtyFour : Ideal.sqrt sixtyFour = ((8 : ℝ) : EReal) := by
  rw [sixtyFour_eq, Ideal.sqrt_coe, if_neg (by norm_num)]
  have h : Real.sqrt 64 = 8 := by
    rw [show (64 : ℝ) = 8 ^ 2 by norm_num]; exact Real.sqrt_sq (by norm_num)
  rw [h]

/-- The fold of `max` from −∞ over a nonempty finite family of reals is its largest member. -/
theorem fold_max_real {ι : Type} (t : Finset ι) (ht : t.Nonempty) (f : ι → ℝ) :
    ∃ i ∈ t, t.fold max (⊥ : EReal) (fun i => (f i : EReal)) = (f i : EReal) ∧ ∀ j ∈ t, f j ≤ f i := by
  obtain ⟨i, hi, hmax⟩ := Finset.exists_max_image t f ht
  refine ⟨i, hi, le_antisymm ?_ ?_, hmax⟩
  · rw [Finset.fold_max_le]
    exact ⟨bot_le, fun j hj => EReal.coe_le_coe_iff.2 (hmax j hj)⟩
  · rw [Finset.le_fold_max]
    exact Or.inr ⟨i, hi, le_rfl⟩

/-- A projected entry of real data is real. -/
theorem proj_isReal {x : Fin 1024 → EReal} {W : Fin 1024 → Fin 64 → EReal} {bias : Fin 64 → EReal}
    (hx : ∀ j, IsReal (x j)) (hW : ∀ j e, IsReal (W j e)) (hb : ∀ e, IsReal (bias e)) (e : Fin 64) :
    IsReal (proj x W bias e) := by
  unfold IsReal at hx hW hb
  choose x' hx' using hx
  choose W' hW' using hW
  choose b' hb' using hb
  refine ⟨(∑ j : Fin 1024, x' j * W' j e) + b' e, ?_⟩
  unfold proj
  rw [EReal.coe_add, coe_sum, hb' e]
  congr 1
  exact Finset.sum_congr rfl fun j _ => by rw [hx' j, hW' j e, EReal.coe_mul]

/-- On real rows the two spellings of the score are one real number. -/
theorem scoreK_eq_scoreR {q kr : Fin 64 → EReal} (hq : ∀ e, IsReal (q e)) (hk : ∀ e, IsReal (kr e)) :
    scoreK q kr = scoreR q kr ∧ IsReal (scoreR q kr) := by
  unfold IsReal at hq hk
  choose q' hq' using hq
  choose k' hk' using hk
  -- both spellings are the real (Σ q k) · (1/8)
  have hR : scoreR q kr = (((∑ e : Fin 64, q' e * k' e) * (1 / 8) : ℝ) : EReal) := by
    unfold scoreR
    rw [sqrt_sixtyFour, Ideal.div_coe (by norm_num : (8 : ℝ) ≠ 0), EReal.coe_mul (∑ e : Fin 64, q' e * k' e) (1 / 8), coe_sum]
    congr 1
    exact Finset.sum_congr rfl fun e _ => by rw [hq' e, hk' e, EReal.coe_mul]
  have hK : scoreK q kr = (((∑ e : Fin 64, q' e * k' e) * (1 / 8) : ℝ) : EReal) := by
    unfold scoreK
    rw [Finset.sum_mul, coe_sum]
    refine Finset.sum_congr rfl fun e _ => ?_
    rw [hq' e, hk' e, eighth_eq, ← EReal.coe_mul, ← EReal.coe_mul]
    congr 1; ring
  exact ⟨hK.trans hR.symm, _, hR⟩

/-! ### The maxima and the 8 × 512 indexing of the 4096 keys -/

/-- The maximum of a block of real scores is the score of one of its keys, and no score of the block is above it. -/
theorem blkMax_real (s' : Fin 4096 → ℝ) (k : Fin 8) :
    ∃ j0 : Fin 512, blkMax (fun n => (s' n : EReal)) k = (s' (blkIdx k j0) : EReal)
      ∧ ∀ j, s' (blkIdx k j) ≤ s' (blkIdx k j0) := by
  obtain ⟨j0, -, h1, h2⟩ :=
    fold_max_real (Finset.univ : Finset (Fin 512)) Finset.univ_nonempty (fun j => s' (blkIdx k j))
  refine ⟨j0, ?_, fun j => h2 j (Finset.mem_univ j)⟩
  unfold blkMax
  rw [negInf_eq]
  exact h1

/-- The maximum of all the real scores is one of them, and none is above it. -/
theorem allMax_real (s' : Fin 4096 → ℝ) :
    ∃ i0 : Fin 4096, allMax (fun n => (s' n : EReal)) = (s' i0 : EReal) ∧ ∀ i, s' i ≤ s' i0 := by
  obtain ⟨i0, -, h1, h2⟩ := fold_max_real (Finset.univ : Finset (Fin 4096)) Finset.univ_nonempty s'
  refine ⟨i0, ?_, fun i => h2 i (Finset.mem_univ i)⟩
  unfold allMax
  rw [negInf_eq, h1]
  exact max_eq_right bot_le

/-- Every key is key `j` of block `k` for exactly one pair (k, j): quotient and remainder by 512. -/
theorem blkIdx_bijective : Function.Bijective (fun p : Fin 8 × Fin 512 => blkIdx p.1 p.2) := by
  constructor
  · rintro ⟨k, j⟩ ⟨k', j'⟩ h
    have h' : 512 * k.val + j.val = 512 * k'.val + j'.val := congrArg Fin.val h
    have hj1 := j.isLt
    have hj2 := j'.isLt
    have hk : k = k' := Fin.ext (by omega)
    have hj : j = j' := Fin.ext (by omega)
    rw [hk, hj]
  · intro i
    have hi := i.isLt
    refine ⟨(⟨i.val / 512, by omega⟩, ⟨i.val % 512, by omega⟩), Fin.ext ?_⟩
    show 512 * (i.val / 512) + i.val % 512 = i.val
    omega

/-- A sum over the keys block by block is the sum over all keys. -/
theorem sum_blocks (f : Fin 4096 → ℝ) : ∑ k : Fin 8, ∑ j : Fin 512, f (blkIdx k j) = ∑ i : Fin 4096, f i :=
  (Fintype.sum_prod_type' (fun k j => f (blkIdx k j))).symm.trans
    (Fintype.sum_bijective (fun p : Fin 8 × Fin 512 => blkIdx p.1 p.2) blkIdx_bijective _ _ (fun _ => rfl))

/-! ### One block on real data -/

/-- The first block: from (−∞, 0, 0) the maximum becomes the block's own maximum B, the old sums vanish
    (exp (−∞ − B) = 0), and the two sums are the block's terms at B. -/
theorem stepRow_init (s' v' : Fin 4096 → ℝ) (k : Fin 8) :
    ∃ B : ℝ, (∀ j, s' (blkIdx k j) ≤ B) ∧ (∃ j0, s' (blkIdx k j0) = B) ∧
      stepRow (fun n => (s' n : EReal)) (fun n => (v' n : EReal)) k (negInf, zero32, zero32) =
        ((B : EReal),
         ((∑ j : Fin 512, Real.exp (s' (blkIdx k j) - B) : ℝ) : EReal),
         ((∑ j : Fin 512, Real.exp (s' (blkIdx k j) - B) * v' (blkIdx k j) : ℝ) : EReal)) := by
  obtain ⟨j0, hB, hle⟩ := blkMax_real s' k
  refine ⟨s' (blkIdx k j0), hle, ⟨j0, rfl⟩, ?_⟩
  unfold stepRow
  simp only [hB, negInf_eq, zero32_eq, max_bot_left, EReal.bot_sub, Ideal.exp_bot,
    zero_mul, zero_add, ← EReal.coe_sub, Ideal.exp_coe, ← EReal.coe_mul, coe_sum]

/-- A later block: from real (M, L, A) the maximum becomes M' = max M B, and the sums are rescaled by
    exp (M − M') with the block's terms added at M'. All three stay real. -/
theorem stepRow_real (s' v' : Fin 4096 → ℝ) (k : Fin 8) (M L A : ℝ) :
    ∃ B : ℝ, (∀ j, s' (blkIdx k j) ≤ B) ∧ (∃ j0, s' (blkIdx k j0) = B) ∧
      stepRow (fun n => (s' n : EReal)) (fun n => (v' n : EReal)) k ((M : EReal), (L : EReal), (A : EReal)) =
        (((max M B : ℝ) : EReal),
         ((Real.exp (M - max M B) * L + ∑ j : Fin 512, Real.exp (s' (blkIdx k j) - max M B) : ℝ) : EReal),
         ((Real.exp (M - max M B) * A
            + ∑ j : Fin 512, Real.exp (s' (blkIdx k j) - max M B) * v' (blkIdx k j) : ℝ) : EReal)) := by
  obtain ⟨j0, hB, hle⟩ := blkMax_real s' k
  refine ⟨s' (blkIdx k j0), hle, ⟨j0, rfl⟩, ?_⟩
  have hmax : max (M : EReal) (s' (blkIdx k j0) : EReal) = ((max M (s' (blkIdx k j0)) : ℝ) : EReal) :=
    (EReal.coe_strictMono.monotone.map_max).symm
  unfold stepRow
  simp only [hB, hmax, ← EReal.coe_sub, Ideal.exp_coe, ← EReal.coe_mul, coe_sum, EReal.coe_add]

/-! ### The state after the blocks of a set -/

/-- After the blocks in `T`, on real scores `s'` and a real column `v'`: the maximum is a real M, no score of those
    blocks is above M and one of them equals it, and the two sums are taken over those blocks at M. -/
def RowInv (s' v' : Fin 4096 → ℝ) (T : Finset (Fin 8)) (st : EReal × EReal × EReal) : Prop :=
  ∃ M : ℝ, (∀ k ∈ T, ∀ j, s' (blkIdx k j) ≤ M) ∧ (∃ k ∈ T, ∃ j, s' (blkIdx k j) = M) ∧
    st = ((M : EReal),
          ((∑ k ∈ T, ∑ j : Fin 512, Real.exp (s' (blkIdx k j) - M) : ℝ) : EReal),
          ((∑ k ∈ T, ∑ j : Fin 512, Real.exp (s' (blkIdx k j) - M) * v' (blkIdx k j) : ℝ) : EReal))

/-- After the first block alone. -/
theorem rowInv_init (s' v' : Fin 4096 → ℝ) (k : Fin 8) :
    RowInv s' v' {k} (stepRow (fun n => (s' n : EReal)) (fun n => (v' n : EReal)) k (negInf, zero32, zero32)) := by
  obtain ⟨B, hle, ⟨j0, hj0⟩, hst⟩ := stepRow_init s' v' k
  refine ⟨B, ?_, ⟨k, Finset.mem_singleton_self k, j0, hj0⟩, ?_⟩
  · intro k' hk' j
    rw [Finset.mem_singleton.1 hk']
    exact hle j
  · rw [hst, Finset.sum_singleton, Finset.sum_singleton]

/-- One more block: exp (M − M') · exp (x − M) = exp (x − M') carries the old sums to the new maximum M'. -/
theorem rowInv_step (s' v' : Fin 4096 → ℝ) (T : Finset (Fin 8)) (k : Fin 8) (hk : k ∉ T)
    (st : EReal × EReal × EReal) (h : RowInv s' v' T st) :
    RowInv s' v' (insert k T) (stepRow (fun n => (s' n : EReal)) (fun n => (v' n : EReal)) k st) := by
  obtain ⟨M, hle, ⟨k0, hk0, j0', hatt⟩, rfl⟩ := h
  obtain ⟨B, hble, ⟨j0, hj0⟩, hst⟩ := stepRow_real s' v' k M
    (∑ k' ∈ T, ∑ j : Fin 512, Real.exp (s' (blkIdx k' j) - M))
    (∑ k' ∈ T, ∑ j : Fin 512, Real.exp (s' (blkIdx k' j) - M) * v' (blkIdx k' j))
  have hresc : ∀ x : ℝ, Real.exp (M - max M B) * Real.exp (x - M) = Real.exp (x - max M B) := by
    intro x
    rw [← Real.exp_add]
    congr 1
    ring
  have e1 : Real.exp (M - max M B) * (∑ k' ∈ T, ∑ j : Fin 512, Real.exp (s' (blkIdx k' j) - M))
        + ∑ j : Fin 512, Real.exp (s' (blkIdx k j) - max M B)
      = ∑ k' ∈ insert k T, ∑ j : Fin 512, Real.exp (s' (blkIdx k' j) - max M B) := by
    rw [Finset.sum_insert hk, add_comm (∑ j : Fin 512, Real.exp (s' (blkIdx k j) - max M B))]
    congr 1
    rw [Finset.mul_sum]
    refine Finset.sum_congr rfl fun k' _ => ?_
    rw [Finset.mul_sum]
    exact Finset.sum_congr rfl fun j _ => hresc _
  have e2 : Real.exp (M - max M B) * (∑ k' ∈ T, ∑ j : Fin 512, Real.exp (s' (blkIdx k' j) - M) * v' (blkIdx k' j))
        + ∑ j : Fin 512, Real.exp (s' (blkIdx k j) - max M B) * v' (blkIdx k j)
      = ∑ k' ∈ insert k T, ∑ j : Fin 512, Real.exp (s' (blkIdx k' j) - max M B) * v' (blkIdx k' j) := by
    rw [Finset.sum_insert hk, add_comm (∑ j : Fin 512, Real.exp (s' (blkIdx k j) - max M B) * v' (blkIdx k j))]
    congr 1
    rw [Finset.mul_sum]
    refine Finset.sum_congr rfl fun k' _ => ?_
    rw [Finset.mul_sum]
    exact Finset.sum_congr rfl fun j _ => by rw [← mul_assoc, hresc]
  refine ⟨max M B, ?_, ?_, ?_⟩
  · intro k' hk' j
    rcases Finset.mem_insert.1 hk' with hkk | hk'
    · rw [hkk]
      exact (hble j).trans (le_max_right _ _)
    · exact (hle k' hk' j).trans (le_max_left _ _)
  · rcases le_total M B with hMB | hMB
    · exact ⟨k, Finset.mem_insert_self k T, j0, hj0.trans (max_eq_right hMB).symm⟩
    · exact ⟨k0, Finset.mem_insert_of_mem hk0, j0', hatt.trans (max_eq_left hMB).symm⟩
  · rw [hst, e1, e2]

/-! ### The blocks below `n`, and the state before block `n` -/

/-- The blocks below `n`. -/
def blocksBelow (n : ℕ) : Finset (Fin 8) := Finset.univ.filter fun k => k.val < n

theorem mem_blocksBelow {n : ℕ} {k : Fin 8} : k ∈ blocksBelow n ↔ k.val < n := by
  unfold blocksBelow
  rw [Finset.mem_filter]
  exact ⟨fun h => h.2, fun h => ⟨Finset.mem_univ k, h⟩⟩

theorem blocksBelow_one (h : 0 < 8) : blocksBelow (0 + 1) = {(⟨0, h⟩ : Fin 8)} := by
  ext k
  rw [Finset.mem_singleton, mem_blocksBelow, Fin.ext_iff]
  show k.val < 0 + 1 ↔ k.val = 0
  omega

theorem blocksBelow_succ (n : ℕ) (h : n < 8) : blocksBelow (n + 1) = insert (⟨n, h⟩ : Fin 8) (blocksBelow n) := by
  ext k
  rw [Finset.mem_insert, mem_blocksBelow, mem_blocksBelow, Fin.ext_iff]
  show k.val < n + 1 ↔ k.val = n ∨ k.val < n
  omega

theorem not_mem_blocksBelow (n : ℕ) (h : n < 8) : (⟨n, h⟩ : Fin 8) ∉ blocksBelow n := by
  intro hm
  have hlt : n < n := mem_blocksBelow.1 hm
  exact lt_irrefl n hlt

theorem blocksBelow_eight : blocksBelow 8 = Finset.univ := by
  ext k
  rw [mem_blocksBelow]
  exact ⟨fun _ => Finset.mem_univ k, fun _ => k.isLt⟩

/-- Before block n + 1 the state is that of the blocks 0 … n. -/
theorem stRow_rowInv (s' v' : Fin 4096 → ℝ) : ∀ n : ℕ, n < 8 →
    RowInv s' v' (blocksBelow (n + 1)) (stRow (fun i => (s' i : EReal)) (fun i => (v' i : EReal)) (n + 1)) := by
  intro n
  induction n with
  | zero =>
    intro h
    have hst : stRow (fun i => (s' i : EReal)) (fun i => (v' i : EReal)) (0 + 1)
        = stepRow (fun i => (s' i : EReal)) (fun i => (v' i : EReal)) ⟨0, h⟩ (negInf, zero32, zero32) := by
      rw [stRow, dif_pos h, stRow]
    rw [hst, blocksBelow_one h]
    exact rowInv_init s' v' ⟨0, h⟩
  | succ n ih =>
    intro h
    have hn : n < 8 := by omega
    have hst : stRow (fun i => (s' i : EReal)) (fun i => (v' i : EReal)) (n + 1 + 1)
        = stepRow (fun i => (s' i : EReal)) (fun i => (v' i : EReal)) ⟨n + 1, h⟩
            (stRow (fun i => (s' i : EReal)) (fun i => (v' i : EReal)) (n + 1)) := by
      rw [stRow, dif_pos h]
    rw [hst, blocksBelow_succ (n + 1) h]
    exact rowInv_step s' v' _ _ (not_mem_blocksBelow (n + 1) h) _ (ih hn)

/-! ### After the 8 blocks -/

/-- On real scores and a real column: after the 8 blocks m is the maximum M of all scores, l = Σ exp (s n − M) = L > 0
    and a = Σ exp (s n − M) · v n, so a / l is the real (Σ e_n v_n) · (1 / L); the textbook form is Σ (e_n · (1 / L)) · v_n,
    the same real. -/
theorem onl_eq_softmaxRow_real (s' v' : Fin 4096 → ℝ) :
    onl (fun n => (s' n : EReal)) (fun n => (v' n : EReal))
      = softmaxRow (fun n => (s' n : EReal)) (fun n => (v' n : EReal)) := by
  obtain ⟨M, hle, ⟨k0, -, j0, hatt⟩, hst⟩ := stRow_rowInv s' v' 7 (by norm_num)
  rw [show blocksBelow (7 + 1) = Finset.univ from blocksBelow_eight] at hle hst
  obtain ⟨i0, hall, hmax⟩ := allMax_real s'
  -- the maximum over the 8 blocks is the maximum over all keys
  have hM : s' i0 = M := by
    apply le_antisymm
    · obtain ⟨⟨k, j⟩, hkj⟩ := blkIdx_bijective.2 i0
      have hkj' : blkIdx k j = i0 := hkj
      rw [← hkj']
      exact hle k (Finset.mem_univ k) j
    · rw [← hatt]
      exact hmax _
  have e1 : ∑ k : Fin 8, ∑ j : Fin 512, Real.exp (s' (blkIdx k j) - M) = ∑ i : Fin 4096, Real.exp (s' i - M) :=
    sum_blocks (fun i => Real.exp (s' i - M))
  have e2 : ∑ k : Fin 8, ∑ j : Fin 512, Real.exp (s' (blkIdx k j) - M) * v' (blkIdx k j)
      = ∑ i : Fin 4096, Real.exp (s' i - M) * v' i :=
    sum_blocks (fun i => Real.exp (s' i - M) * v' i)
  have hst8 : stRow (fun n => (s' n : EReal)) (fun n => (v' n : EReal)) 8
      = ((M : EReal), ((∑ i : Fin 4096, Real.exp (s' i - M) : ℝ) : EReal),
          ((∑ i : Fin 4096, Real.exp (s' i - M) * v' i : ℝ) : EReal)) := by
    rw [← e1, ← e2]
    exact hst
  have hL : 0 < ∑ i : Fin 4096, Real.exp (s' i - M) :=
    Finset.sum_pos (fun i _ => Real.exp_pos _) Finset.univ_nonempty
  have hon : onl (fun n => (s' n : EReal)) (fun n => (v' n : EReal))
      = (((∑ i : Fin 4096, Real.exp (s' i - M) * v' i) * (1 / ∑ i : Fin 4096, Real.exp (s' i - M)) : ℝ) : EReal) := by
    unfold onl
    rw [hst8]
    dsimp only
    rw [Ideal.div_coe hL.ne', ← EReal.coe_mul]
  have hsm : softmaxRow (fun n => (s' n : EReal)) (fun n => (v' n : EReal))
      = (((∑ i : Fin 4096, Real.exp (s' i - M) * v' i) * (1 / ∑ i : Fin 4096, Real.exp (s' i - M)) : ℝ) : EReal) := by
    unfold softmaxRow
    rw [hall, hM]
    simp only [zero32_eq, zero_add, ← EReal.coe_sub, Ideal.exp_coe, ← coe_sum]
    simp only [Ideal.div_coe hL.ne', ← EReal.coe_mul, ← coe_sum]
    refine congrArg Real.toEReal ?_
    rw [Finset.sum_mul]
    exact Finset.sum_congr rfl fun n _ => by ring
  rw [hon, hsm]

/-- On real scores and a real column, block by block is the textbook form. -/
theorem onl_eq_softmaxRow {s v : Fin 4096 → EReal} (hs : ∀ n, IsReal (s n)) (hv : ∀ n, IsReal (v n)) :
    onl s v = softmaxRow s v := by
  unfold IsReal at hs hv
  choose s' hs' using hs
  choose v' hv' using hv
  obtain rfl : s = fun n => (s' n : EReal) := funext hs'
  obtain rfl : v = fun n => (v' n : EReal) := funext hv'
  exact onl_eq_softmaxRow_real s' v'

/-- On real inputs the two forms of the result agree entry by entry. -/
theorem outK_eq_outR {Q Kx Vx : Fin 4 → Fin 4096 → Fin 1024 → EReal} {Wq : Fin 1024 → Fin 64 → EReal} {bq : Fin 64 → EReal}
    {Wk : Fin 1024 → Fin 64 → EReal} {bk : Fin 64 → EReal} {Wv : Fin 1024 → Fin 64 → EReal} {bv : Fin 64 → EReal}
    (hQ : ∀ b s j, IsReal (Q b s j)) (hK : ∀ b s j, IsReal (Kx b s j)) (hV : ∀ b s j, IsReal (Vx b s j))
    (hWq : ∀ j e, IsReal (Wq j e)) (hbq : ∀ e, IsReal (bq e)) (hWk : ∀ j e, IsReal (Wk j e)) (hbk : ∀ e, IsReal (bk e))
    (hWv : ∀ j e, IsReal (Wv j e)) (hbv : ∀ e, IsReal (bv e)) (b : Fin 4) (s : Fin 4096) (d : Fin 64) :
    outK Q Kx Vx Wq bq Wk bk Wv bv b s d = outR Q Kx Vx Wq bq Wk bk Wv bv b s d := by
  unfold outK outR
  have hq := proj_isReal (hQ b s) hWq hbq
  have hkr := fun n => proj_isReal (hK b n) hWk hbk
  have hsc : (fun n => scoreK (proj (Q b s) Wq bq) (proj (Kx b n) Wk bk))
      = fun n => scoreR (proj (Q b s) Wq bq) (proj (Kx b n) Wk bk) :=
    funext fun n => (scoreK_eq_scoreR hq (hkr n)).1
  rw [hsc]
  exact onl_eq_softmaxRow (fun n => (scoreK_eq_scoreR hq (hkr n)).2) (fun n => proj_isReal (hV b n) hWv hbv d)

end Cert.Attn

end
-- ==== Proof.Region0.lean ====
/-
  The first launch: the projected keys and values as whole arrays.

  Grid point (b, s) reads rows 1024 s … 1024 s + 1023 of batch b of the key (of the value), multiplies them by the
  weight matrix, adds the bias and writes the same rows of the result. The blocks tile the array, so entry
  (b, n, e) of the result is the projection `Attn.proj` of row (b, n).
-/
import proofs.«411045_j90666759618654_3_alg».proof.Proof.Gen.KernelIdeal.Frame
import proofs.«411045_j90666759618654_3_alg».proof.Proof.Spec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Flash

open Idealize.ShloMosaic Idealize.ShloMosaic.TcCoe Idealize.ShloMosaic.ValueIdx Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

/-! ## The payload at an index -/

theorem kvhz3 : (![0, 0, 0] : Fin 3 → Nat) = fun _ => 0 := funext fun a => by fin_cases a <;> rfl
theorem kvhz2 : (![0, 0] : Fin 2 → Nat) = fun _ => 0 := funext fun a => by fin_cases a <;> rfl
theorem kvhz1 : (![0] : Fin 1 → Nat) = fun _ => 0 := funext fun a => by fin_cases a <;> rfl

/-- The left operand's row is the result's row. -/
theorem kvdot_lhs_0 (i : S1024x64.Idx) (q : dot_S1024x1024_S1024x64_S1024x64_1_0_0_1_n_n.contr.Idx) :
    (dot_S1024x1024_S1024x64_S1024x64_1_0_0_1_n_n.lhsIdx i q 0).val = (i 0).val := by
  unfold DotDims.lhsIdx
  rw [dif_neg (show ¬(0 : Fin S1024x1024.rank) ∈ dot_S1024x1024_S1024x64_S1024x64_1_0_0_1_n_n.lhsBatch by decide), dif_pos (show (0 : Fin S1024x1024.rank) ∈ dot_S1024x1024_S1024x64_S1024x64_1_0_0_1_n_n.lhsNonContracting by decide)]
  rfl
/-- The left operand's column is the contraction position. -/
theorem kvdot_lhs_1 (i : S1024x64.Idx) (q : dot_S1024x1024_S1024x64_S1024x64_1_0_0_1_n_n.contr.Idx) :
    (dot_S1024x1024_S1024x64_S1024x64_1_0_0_1_n_n.lhsIdx i q 1).val = (q ⟨0, by decide⟩).val :=
  dot_S1024x1024_S1024x64_S1024x64_1_0_0_1_n_n.lhsIdx_val_of_single rfl i q
/-- The right operand's row is the contraction position. -/
theorem kvdot_rhs_0 (i : S1024x64.Idx) (q : dot_S1024x1024_S1024x64_S1024x64_1_0_0_1_n_n.contr.Idx) :
    (dot_S1024x1024_S1024x64_S1024x64_1_0_0_1_n_n.rhsIdx i q 0).val = (q ⟨0, by decide⟩).val :=
  dot_S1024x1024_S1024x64_S1024x64_1_0_0_1_n_n.rhsIdx_val_of_single rfl i q
/-- The right operand's column is the result's column. -/
theorem kvdot_rhs_1 (i : S1024x64.Idx) (q : dot_S1024x1024_S1024x64_S1024x64_1_0_0_1_n_n.contr.Idx) :
    (dot_S1024x1024_S1024x64_S1024x64_1_0_0_1_n_n.rhsIdx i q 1).val = (i 1).val := by
  unfold DotDims.rhsIdx
  rw [dif_neg (show ¬(1 : Fin S1024x64.rank) ∈ dot_S1024x1024_S1024x64_S1024x64_1_0_0_1_n_n.rhsBatch by decide), dif_pos (show (1 : Fin S1024x64.rank) ∈ dot_S1024x1024_S1024x64_S1024x64_1_0_0_1_n_n.rhsNonContracting by decide)]
  rfl

/-- The block product into the zero accumulator, at entry (i, e): row i of the left operand against column e of the right. -/
theorem kvmm_apply (A : FVec Ideal S1024x1024 .bf16) (B : FVec Ideal S1024x64 .bf16) (i : Fin 1024) (e : Fin 64) :
    matmul (F := Ideal) dot_S1024x1024_S1024x64_S1024x64_1_0_0_1_n_n none A B (constant (F := Ideal) S1024x64 .f32 0x00000000#32) (ix2 i e)
      = ∑ j : Fin 1024, A (ix2 i j) * B (ix2 j e) := by
  simp only [matmul]
  rw [Ideal.matmul_constant_zero_apply, ← Equiv.sum_comp (ValueIdx.contrEquiv1 dot_S1024x1024_S1024x64_S1024x64_1_0_0_1_n_n 1024 rfl rfl).symm]
  refine Finset.sum_congr rfl fun k _ => ?_
  have hk := ValueIdx.contrEquiv1_symm_val dot_S1024x1024_S1024x64_S1024x64_1_0_0_1_n_n 1024 rfl rfl k
  have el : dot_S1024x1024_S1024x64_S1024x64_1_0_0_1_n_n.lhsIdx (ix2 i e) ((ValueIdx.contrEquiv1 dot_S1024x1024_S1024x64_S1024x64_1_0_0_1_n_n 1024 rfl rfl).symm k) = ix2 i k := funext fun a => Fin.ext (by
    match a with
    | ⟨0, _⟩ => exact kvdot_lhs_0 _ _
    | ⟨1, _⟩ => exact (kvdot_lhs_1 _ _).trans hk)
  have er : dot_S1024x1024_S1024x64_S1024x64_1_0_0_1_n_n.rhsIdx (ix2 i e) ((ValueIdx.contrEquiv1 dot_S1024x1024_S1024x64_S1024x64_1_0_0_1_n_n 1024 rfl rfl).symm k) = ix2 k e := funext fun a => Fin.ext (by
    match a with
    | ⟨0, _⟩ => exact (kvdot_rhs_0 _ _).trans hk
    | ⟨1, _⟩ => exact kvdot_rhs_1 _ _)
  rw [el, er]

/-- The keys' payload at (u, i, e): row i of the loaded block times column e of the weights, plus entry e of the bias.
    The roundings to the narrower format are the identity on the extended reals. -/
theorem kvpay1_apply (v0 : Vec Ideal S1x1024x1024 .f32) (v3 : Vec Ideal S1024x64 .f32) (v6 : Vec Ideal S64 .f32)
    (u : Fin 1) (i : Fin 1024) (e : Fin 64) :
    k0_pay1 (F := Ideal) v0 v3 v6 (ix3 u i e)
      = (∑ j : Fin 1024, v0 (ix3 (0 : Fin 1) i j) * v3 (ix2 j e)) + v6 (ix1 e) := by
  unfold k0_pay1
  try dsimp only
  rw [shapeCast_ab_1ab_apply, truncf_apply, addf_apply, broadcastTo_1b_ab_apply, shapeCast_a_1a_apply, kvmm_apply]
  refine congrArg (· + v6 (ix1 e)) (Finset.sum_congr rfl fun j _ => ?_)
  rw [truncf_apply, truncf_apply, shapeCast_1ab_ab_apply]

/-- The values' payload at (u, i, e): the same expression of its own three loads. -/
theorem kvpay2_apply (v14 : Vec Ideal S1x1024x1024 .f32) (v17 : Vec Ideal S1024x64 .f32) (v20 : Vec Ideal S64 .f32)
    (u : Fin 1) (i : Fin 1024) (e : Fin 64) :
    k0_pay2 (F := Ideal) v14 v17 v20 (ix3 u i e)
      = (∑ j : Fin 1024, v14 (ix3 (0 : Fin 1) i j) * v17 (ix2 j e)) + v20 (ix1 e) := by
  unfold k0_pay2
  try dsimp only
  rw [shapeCast_ab_1ab_apply, truncf_apply, addf_apply, broadcastTo_1b_ab_apply, shapeCast_a_1a_apply, kvmm_apply]
  refine congrArg (· + v20 (ix1 e)) (Finset.sum_congr rfl fun j _ => ?_)
  rw [truncf_apply, truncf_apply, shapeCast_1ab_ab_apply]

/-- A row's projection from entries that agree one by one with the row, the weights' column and the bias entry. -/
theorem kv_proj_congr (x x' : Fin 1024 → EReal) (W W' : Fin 1024 → Fin 64 → EReal) (bias bias' : Fin 64 → EReal) (e : Fin 64)
    (hx : ∀ j, x j = x' j) (hW : ∀ j, W j e = W' j e) (hb : bias e = bias' e) :
    (∑ j : Fin 1024, x j * W j e) + bias e = Attn.proj x' W' bias' e := by
  unfold Attn.proj
  rw [hb]
  exact congrArg (· + bias' e) (Finset.sum_congr rfl fun j _ => by rw [hx j, hW j])

/-! ## The index maps, decided over the grid -/

/-- Window 0's block index at point t = 4 b + s is (b, s, 0). -/
theorem kv_idx0 : ∀ t : Fin cfg0.N, win0_0.index t (0 : Fin 3) = t.val / 4 ∧ win0_0.index t (1 : Fin 3) = t.val % 4 ∧ win0_0.index t (2 : Fin 3) = 0 :=
  (by decide +kernel : ∀ t : Fin grid0.N, _)
/-- Window 1's block index at point t = 4 b + s is (b, s, 0). -/
theorem kv_idx1 : ∀ t : Fin cfg0.N, win0_1.index t (0 : Fin 3) = t.val / 4 ∧ win0_1.index t (1 : Fin 3) = t.val % 4 ∧ win0_1.index t (2 : Fin 3) = 0 :=
  (by decide +kernel : ∀ t : Fin grid0.N, _)
/-- Window 2's block is its whole array at every point. -/
theorem kv_idx2 : ∀ t : Fin cfg0.N, win0_2.index t (0 : Fin 2) = 0 ∧ win0_2.index t (1 : Fin 2) = 0 :=
  (by decide +kernel : ∀ t : Fin grid0.N, _)
/-- Window 3's block is its whole array at every point. -/
theorem kv_idx3 : ∀ t : Fin cfg0.N, win0_3.index t (0 : Fin 2) = 0 ∧ win0_3.index t (1 : Fin 2) = 0 :=
  (by decide +kernel : ∀ t : Fin grid0.N, _)
/-- Window 4's block is its whole array at every point. -/
theorem kv_idx4 : ∀ t : Fin cfg0.N, win0_4.index t (0 : Fin 1) = 0 :=
  (by decide +kernel : ∀ t : Fin grid0.N, _)
/-- Window 5's block is its whole array at every point. -/
theorem kv_idx5 : ∀ t : Fin cfg0.N, win0_5.index t (0 : Fin 1) = 0 :=
  (by decide +kernel : ∀ t : Fin grid0.N, _)
/-- Window 6's block index at point t = 4 b + s is (b, s, 0). -/
theorem kv_idx6 : ∀ t : Fin cfg0.N, win0_6.index t (0 : Fin 3) = t.val / 4 ∧ win0_6.index t (1 : Fin 3) = t.val % 4 ∧ win0_6.index t (2 : Fin 3) = 0 :=
  (by decide +kernel : ∀ t : Fin grid0.N, _)
/-- Window 7's block index at point t = 4 b + s is (b, s, 0). -/
theorem kv_idx7 : ∀ t : Fin cfg0.N, win0_7.index t (0 : Fin 3) = t.val / 4 ∧ win0_7.index t (1 : Fin 3) = t.val % 4 ∧ win0_7.index t (2 : Fin 3) = 0 :=
  (by decide +kernel : ∀ t : Fin grid0.N, _)

/-! ## Each input block as entries of its array -/

/-- Row i of window 0's block at point t is row 1024 (t mod 4) + i of batch t / 4 of its array. -/
theorem kv_iblk0_apply (c : Dev nD) (t : Fin cfg0.N) (u : Fin 1) (i j : Fin 1024) (b : Fin 4) (n : Fin 4096)
    (hb : b.val = t.val / 4) (hn : n.val = 1024 * (t.val % 4) + i.val) :
    (iblk0 V c 0 t : Vec Ideal S1x1024x1024 .f32) (ix3 u i j) = V c main_arg1 (ix3 b n j) := by
  obtain ⟨h0, h1, h2⟩ := kv_idx0 t
  have hu := u.isLt
  unfold iblk0
  rw [View.read_apply]
  show V c main_arg1 _ = V c main_arg1 _
  congr 1
  funext a
  apply Fin.ext
  match a with
  | ⟨0, _⟩ => show win0_0.index t (0 : Fin 3) * 1 + 1 * u.val = b.val; rw [h0, hb]; omega
  | ⟨1, _⟩ => show win0_0.index t (1 : Fin 3) * 1024 + 1 * i.val = n.val; rw [h1, hn]; omega
  | ⟨2, _⟩ => show win0_0.index t (2 : Fin 3) * 1024 + 1 * j.val = j.val; rw [h2]; omega
/-- Row i of window 1's block at point t is row 1024 (t mod 4) + i of batch t / 4 of its array. -/
theorem kv_iblk1_apply (c : Dev nD) (t : Fin cfg0.N) (u : Fin 1) (i j : Fin 1024) (b : Fin 4) (n : Fin 4096)
    (hb : b.val = t.val / 4) (hn : n.val = 1024 * (t.val % 4) + i.val) :
    (iblk0 V c 1 t : Vec Ideal S1x1024x1024 .f32) (ix3 u i j) = V c main_arg2 (ix3 b n j) := by
  obtain ⟨h0, h1, h2⟩ := kv_idx1 t
  have hu := u.isLt
  unfold iblk0
  rw [View.read_apply]
  show V c main_arg2 _ = V c main_arg2 _
  congr 1
  funext a
  apply Fin.ext
  match a with
  | ⟨0, _⟩ => show win0_1.index t (0 : Fin 3) * 1 + 1 * u.val = b.val; rw [h0, hb]; omega
  | ⟨1, _⟩ => show win0_1.index t (1 : Fin 3) * 1024 + 1 * i.val = n.val; rw [h1, hn]; omega
  | ⟨2, _⟩ => show win0_1.index t (2 : Fin 3) * 1024 + 1 * j.val = j.val; rw [h2]; omega
/-- Window 2's block at any point is its array. -/
theorem kv_iblk2_apply (c : Dev nD) (t : Fin cfg0.N) (j : Fin 1024) (e : Fin 64) :
    (iblk0 V c 2 t : Vec Ideal S1024x64 .f32) (ix2 j e) = V c main_arg5 (ix2 j e) := by
  obtain ⟨h0, h1⟩ := kv_idx2 t
  unfold iblk0
  rw [View.read_apply]
  show V c main_arg5 _ = V c main_arg5 _
  congr 1
  funext a
  apply Fin.ext
  match a with
  | ⟨0, _⟩ => show win0_2.index t (0 : Fin 2) * 1024 + 1 * j.val = j.val; rw [h0]; omega
  | ⟨1, _⟩ => show win0_2.index t (1 : Fin 2) * 64 + 1 * e.val = e.val; rw [h1]; omega
/-- Window 3's block at any point is its array. -/
theorem kv_iblk3_apply (c : Dev nD) (t : Fin cfg0.N) (j : Fin 1024) (e : Fin 64) :
    (iblk0 V c 3 t : Vec Ideal S1024x64 .f32) (ix2 j e) = V c main_arg7 (ix2 j e) := by
  obtain ⟨h0, h1⟩ := kv_idx3 t
  unfold iblk0
  rw [View.read_apply]
  show V c main_arg7 _ = V c main_arg7 _
  congr 1
  funext a
  apply Fin.ext
  match a with
  | ⟨0, _⟩ => show win0_3.index t (0 : Fin 2) * 1024 + 1 * j.val = j.val; rw [h0]; omega
  | ⟨1, _⟩ => show win0_3.index t (1 : Fin 2) * 64 + 1 * e.val = e.val; rw [h1]; omega
/-- Window 4's block at any point is its array. -/
theorem kv_iblk4_apply (c : Dev nD) (t : Fin cfg0.N) (e : Fin 64) :
    (iblk0 V c 4 t : Vec Ideal S64 .f32) (ix1 e) = V c main_arg6 (ix1 e) := by
  have h0 := kv_idx4 t
  unfold iblk0
  rw [View.read_apply]
  show V c main_arg6 _ = V c main_arg6 _
  congr 1
  funext a
  apply Fin.ext
  match a with
  | ⟨0, _⟩ => show win0_4.index t (0 : Fin 1) * 64 + 1 * e.val = e.val; rw [h0]; omega
/-- Window 5's block at any point is its array. -/
theorem kv_iblk5_apply (c : Dev nD) (t : Fin cfg0.N) (e : Fin 64) :
    (iblk0 V c 5 t : Vec Ideal S64 .f32) (ix1 e) = V c main_arg8 (ix1 e) := by
  have h0 := kv_idx5 t
  unfold iblk0
  rw [View.read_apply]
  show V c main_arg8 _ = V c main_arg8 _
  congr 1
  funext a
  apply Fin.ext
  match a with
  | ⟨0, _⟩ => show win0_5.index t (0 : Fin 1) * 64 + 1 * e.val = e.val; rw [h0]; omega

/-! ## What the body leaves, at an index -/

/-- What the body leaves in window 6's buffer, at (u, i, e), from the three blocks it loads. -/
theorem kout_apply (x0 x1 : Vec Ideal S1x1024x1024 .f32) (x2 x3 : Vec Ideal S1024x64 .f32) (x4 x5 : Vec Ideal S64 .f32)
    (u : Fin 1) (i : Fin 1024) (e : Fin 64) :
    out0_6 (F := Ideal) x0 x1 x2 x3 x4 x5 (ix3 u i e)
      = (∑ j : Fin 1024, x0 (ix3 (0 : Fin 1) i j) * x2 (ix2 j e)) + x4 (ix1 e) := by
  unfold out0_6
  rw [View.canon_unit_zero kvhz3]
  simp only [View.ld_unit_zero (S := S1x1024x1024) kvhz3, View.ld_unit_zero (S := S1024x64) kvhz2, View.ld_unit_zero (S := S64) kvhz1]
  exact kvpay1_apply x0 x2 x4 u i e
/-- What the body leaves in window 7's buffer, at (u, i, e), from the three blocks it loads. -/
theorem vout_apply (x0 x1 : Vec Ideal S1x1024x1024 .f32) (x2 x3 : Vec Ideal S1024x64 .f32) (x4 x5 : Vec Ideal S64 .f32)
    (u : Fin 1) (i : Fin 1024) (e : Fin 64) :
    out0_7 (F := Ideal) x0 x1 x2 x3 x4 x5 (ix3 u i e)
      = (∑ j : Fin 1024, x1 (ix3 (0 : Fin 1) i j) * x3 (ix2 j e)) + x5 (ix1 e) := by
  unfold out0_7
  rw [View.canon_unit_zero kvhz3]
  simp only [View.ld_unit_zero (S := S1x1024x1024) kvhz3, View.ld_unit_zero (S := S1024x64) kvhz2, View.ld_unit_zero (S := S64) kvhz1]
  exact kvpay2_apply x1 x3 x5 u i e

/-! ## The arrays of projections -/

/-- The projected keys as one array: entry (b, n, e) is the projection of row (b, n). -/
def kprojArr (c : Dev nD) : S4x4096x64.Idx → EReal := fun i =>
  Attn.proj (fun j => V c main_arg1 (ix3 (⟨(i 0).val, (i 0).isLt⟩ : Fin 4) (⟨(i 1).val, (i 1).isLt⟩ : Fin 4096) j))
    (fun j e' => V c main_arg5 (ix2 j e')) (fun e' => V c main_arg6 (ix1 e')) (⟨(i 2).val, (i 2).isLt⟩ : Fin 64)
/-- The projected values as one array: entry (b, n, e) is the projection of row (b, n). -/
def vprojArr (c : Dev nD) : S4x4096x64.Idx → EReal := fun i =>
  Attn.proj (fun j => V c main_arg2 (ix3 (⟨(i 0).val, (i 0).isLt⟩ : Fin 4) (⟨(i 1).val, (i 1).isLt⟩ : Fin 4096) j))
    (fun j e' => V c main_arg7 (ix2 j e')) (fun e' => V c main_arg8 (ix1 e')) (⟨(i 2).val, (i 2).isLt⟩ : Fin 64)

/-! ## What a point writes back -/

/-- What point t writes back to window 6 is block t of the array of projections: the block's rows are rows
    1024 (t mod 4) … of batch t / 4, in the input and in the output alike. -/
theorem kflushed (c : Dev nD) (t : Fin cfg0.N) :
    (dat0 V c).flushed 6 t = ((cfg0.win 6).blk t).view.read (Elt Ideal) (kprojArr V c) := by
  show (cfg0.win 6).cut (grid0.coords t) ((dat0 V c).after 6 t) = _
  rw [after0_6]
  funext y
  obtain ⟨u, i, e, rfl⟩ : ∃ (u : Fin 1) (i : Fin 1024) (e : Fin 64), y = ix3 u i e := ⟨y 0, y 1, y 2, eq_ix3 y⟩
  obtain ⟨h0, h1, h2⟩ := kv_idx6 t
  have hN : cfg0.N = 16 := N_0
  have ht := t.isLt
  have hu := u.isLt
  obtain ⟨b, hb⟩ : ∃ b : Fin 4, b.val = t.val / 4 := ⟨⟨t.val / 4, by omega⟩, rfl⟩
  obtain ⟨n, hn⟩ : ∃ n : Fin 4096, n.val = 1024 * (t.val % 4) + i.val := ⟨⟨1024 * (t.val % 4) + i.val, by omega⟩, rfl⟩
  have hemb : ((cfg0.win 6).blk t).view.emb (ix3 u i e) = ix3 b n e := by
    funext a
    apply Fin.ext
    match a with
    | ⟨0, _⟩ => show win0_6.index t (0 : Fin 3) * 1 + 1 * u.val = b.val; rw [h0, hb]; omega
    | ⟨1, _⟩ => show win0_6.index t (1 : Fin 3) * 1024 + 1 * i.val = n.val; rw [h1, hn]; omega
    | ⟨2, _⟩ => show win0_6.index t (2 : Fin 3) * 64 + 1 * e.val = e.val; rw [h2]; omega
  rw [View.read_apply, hemb]
  show out0_6 (F := Ideal) (iblk0 V c 0 t) (iblk0 V c 1 t) (iblk0 V c 2 t) (iblk0 V c 3 t) (iblk0 V c 4 t) (iblk0 V c 5 t) (ix3 u i e)
    = Attn.proj (fun j => V c main_arg1 (ix3 b n j)) (fun j e' => V c main_arg5 (ix2 j e')) (fun e' => V c main_arg6 (ix1 e')) e
  refine (kout_apply (iblk0 V c 0 t) (iblk0 V c 1 t) (iblk0 V c 2 t) (iblk0 V c 3 t) (iblk0 V c 4 t) (iblk0 V c 5 t) u i e).trans ?_
  exact kv_proj_congr (fun j => iblk0 V c 0 t (ix3 (0 : Fin 1) i j)) (fun j => V c main_arg1 (ix3 b n j))
    (fun j e' => iblk0 V c 2 t (ix2 j e')) (fun j e' => V c main_arg5 (ix2 j e'))
    (fun e' => iblk0 V c 4 t (ix1 e')) (fun e' => V c main_arg6 (ix1 e')) e
    (fun j => kv_iblk0_apply V c t (0 : Fin 1) i j b n hb hn) (fun j => kv_iblk2_apply V c t j e) (kv_iblk4_apply V c t e)
/-- What point t writes back to window 7 is block t of the array of projections: the block's rows are rows
    1024 (t mod 4) … of batch t / 4, in the input and in the output alike. -/
theorem vflushed (c : Dev nD) (t : Fin cfg0.N) :
    (dat0 V c).flushed 7 t = ((cfg0.win 7).blk t).view.read (Elt Ideal) (vprojArr V c) := by
  show (cfg0.win 7).cut (grid0.coords t) ((dat0 V c).after 7 t) = _
  rw [after0_7]
  funext y
  obtain ⟨u, i, e, rfl⟩ : ∃ (u : Fin 1) (i : Fin 1024) (e : Fin 64), y = ix3 u i e := ⟨y 0, y 1, y 2, eq_ix3 y⟩
  obtain ⟨h0, h1, h2⟩ := kv_idx7 t
  have hN : cfg0.N = 16 := N_0
  have ht := t.isLt
  have hu := u.isLt
  obtain ⟨b, hb⟩ : ∃ b : Fin 4, b.val = t.val / 4 := ⟨⟨t.val / 4, by omega⟩, rfl⟩
  obtain ⟨n, hn⟩ : ∃ n : Fin 4096, n.val = 1024 * (t.val % 4) + i.val := ⟨⟨1024 * (t.val % 4) + i.val, by omega⟩, rfl⟩
  have hemb : ((cfg0.win 7).blk t).view.emb (ix3 u i e) = ix3 b n e := by
    funext a
    apply Fin.ext
    match a with
    | ⟨0, _⟩ => show win0_7.index t (0 : Fin 3) * 1 + 1 * u.val = b.val; rw [h0, hb]; omega
    | ⟨1, _⟩ => show win0_7.index t (1 : Fin 3) * 1024 + 1 * i.val = n.val; rw [h1, hn]; omega
    | ⟨2, _⟩ => show win0_7.index t (2 : Fin 3) * 64 + 1 * e.val = e.val; rw [h2]; omega
  rw [View.read_apply, hemb]
  show out0_7 (F := Ideal) (iblk0 V c 0 t) (iblk0 V c 1 t) (iblk0 V c 2 t) (iblk0 V c 3 t) (iblk0 V c 4 t) (iblk0 V c 5 t) (ix3 u i e)
    = Attn.proj (fun j => V c main_arg2 (ix3 b n j)) (fun j e' => V c main_arg7 (ix2 j e')) (fun e' => V c main_arg8 (ix1 e')) e
  refine (vout_apply (iblk0 V c 0 t) (iblk0 V c 1 t) (iblk0 V c 2 t) (iblk0 V c 3 t) (iblk0 V c 4 t) (iblk0 V c 5 t) u i e).trans ?_
  exact kv_proj_congr (fun j => iblk0 V c 1 t (ix3 (0 : Fin 1) i j)) (fun j => V c main_arg2 (ix3 b n j))
    (fun j e' => iblk0 V c 3 t (ix2 j e')) (fun j e' => V c main_arg7 (ix2 j e'))
    (fun e' => iblk0 V c 5 t (ix1 e')) (fun e' => V c main_arg8 (ix1 e')) e
    (fun j => kv_iblk1_apply V c t (0 : Fin 1) i j b n hb hn) (fun j => kv_iblk3_apply V c t j e) (kv_iblk5_apply V c t e)

/-! ## The blocks cover the arrays -/

/-- An entry of the array is in point t's block iff each coordinate is in the block's range on its axis. -/
theorem kmem_blk (t : Fin cfg0.N) (i : S4x4096x64.Idx) :
    i ∈ ((cfg0.win 6).blk t).view.set ↔ ∀ a : Fin 3, win0_6.index t a * S1x1024x64.size a ≤ (i a).val ∧ (i a).val < win0_6.index t a * S1x1024x64.size a + S1x1024x64.size a := by
  show i ∈ ((View.whole main_v0_0).slice (win0_6.rect t)).set ↔ _
  rw [View.set_slice_whole, Rect.mem_set_unit]
  exact Iff.rfl

/-- Every entry (b, n, e) is in the block of point 4 b + n / 1024. -/
theorem kcover (i : S4x4096x64.Idx) :
    ∃ t : Fin cfg0.N, (cfg0.win 6).flush t = true ∧ i ∈ ((cfg0.win 6).blk t).view.set := by
  have hN : cfg0.N = 16 := N_0
  have hi0 : (i 0).val < 4 := (i 0).isLt
  have hi1 : (i 1).val < 4096 := (i 1).isLt
  have hi2 : (i 2).val < 64 := (i 2).isLt
  obtain ⟨t, ht⟩ : ∃ t : Fin cfg0.N, t.val = 4 * (i 0).val + (i 1).val / 1024 := ⟨⟨4 * (i 0).val + (i 1).val / 1024, by omega⟩, rfl⟩
  obtain ⟨h0, h1, h2⟩ := kv_idx6 t
  refine ⟨t, flush0_6 t, ?_⟩
  rw [kmem_blk]
  intro a
  match a with
  | ⟨0, _⟩ => show win0_6.index t (0 : Fin 3) * 1 ≤ (i 0).val ∧ (i 0).val < win0_6.index t (0 : Fin 3) * 1 + 1; rw [h0]; omega
  | ⟨1, _⟩ => show win0_6.index t (1 : Fin 3) * 1024 ≤ (i 1).val ∧ (i 1).val < win0_6.index t (1 : Fin 3) * 1024 + 1024; rw [h1]; omega
  | ⟨2, _⟩ => show win0_6.index t (2 : Fin 3) * 64 ≤ (i 2).val ∧ (i 2).val < win0_6.index t (2 : Fin 3) * 64 + 64; rw [h2]; omega

/-- The blocks tile the array, so after the launch it holds the array of projections. -/
theorem kproj_arr (c : Dev nD) : (dat0 V c).arrAt 6 cfg0.N = kprojArr V c :=
  (dat0 V c).arrAt_eq_of_cover 6 (kprojArr V c) (fun t _ => kflushed V c t) kcover
/-- An entry of the array is in point t's block iff each coordinate is in the block's range on its axis. -/
theorem vmem_blk (t : Fin cfg0.N) (i : S4x4096x64.Idx) :
    i ∈ ((cfg0.win 7).blk t).view.set ↔ ∀ a : Fin 3, win0_7.index t a * S1x1024x64.size a ≤ (i a).val ∧ (i a).val < win0_7.index t a * S1x1024x64.size a + S1x1024x64.size a := by
  show i ∈ ((View.whole main_v0_1).slice (win0_7.rect t)).set ↔ _
  rw [View.set_slice_whole, Rect.mem_set_unit]
  exact Iff.rfl

/-- Every entry (b, n, e) is in the block of point 4 b + n / 1024. -/
theorem vcover (i : S4x4096x64.Idx) :
    ∃ t : Fin cfg0.N, (cfg0.win 7).flush t = true ∧ i ∈ ((cfg0.win 7).blk t).view.set := by
  have hN : cfg0.N = 16 := N_0
  have hi0 : (i 0).val < 4 := (i 0).isLt
  have hi1 : (i 1).val < 4096 := (i 1).isLt
  have hi2 : (i 2).val < 64 := (i 2).isLt
  obtain ⟨t, ht⟩ : ∃ t : Fin cfg0.N, t.val = 4 * (i 0).val + (i 1).val / 1024 := ⟨⟨4 * (i 0).val + (i 1).val / 1024, by omega⟩, rfl⟩
  obtain ⟨h0, h1, h2⟩ := kv_idx7 t
  refine ⟨t, flush0_7 t, ?_⟩
  rw [vmem_blk]
  intro a
  match a with
  | ⟨0, _⟩ => show win0_7.index t (0 : Fin 3) * 1 ≤ (i 0).val ∧ (i 0).val < win0_7.index t (0 : Fin 3) * 1 + 1; rw [h0]; omega
  | ⟨1, _⟩ => show win0_7.index t (1 : Fin 3) * 1024 ≤ (i 1).val ∧ (i 1).val < win0_7.index t (1 : Fin 3) * 1024 + 1024; rw [h1]; omega
  | ⟨2, _⟩ => show win0_7.index t (2 : Fin 3) * 64 ≤ (i 2).val ∧ (i 2).val < win0_7.index t (2 : Fin 3) * 64 + 64; rw [h2]; omega

/-- The blocks tile the array, so after the launch it holds the array of projections. -/
theorem vproj_arr (c : Dev nD) : (dat0 V c).arrAt 7 cfg0.N = vprojArr V c :=
  (dat0 V c).arrAt_eq_of_cover 7 (vprojArr V c) (fun t _ => vflushed V c t) vcover

/-- Entry (b, n, e) of the projected keys after the first launch. -/
theorem kproj_at (c : Dev nD) (b : Fin 4) (n : Fin 4096) (e : Fin 64) :
    (dat0 V c).arrAt 6 cfg0.N (ix3 b n e)
      = Attn.proj (fun j => V c main_arg1 (ix3 b n j)) (fun j e' => V c main_arg5 (ix2 j e')) (fun e' => V c main_arg6 (ix1 e')) e :=
  (congrFun (kproj_arr V c) (ix3 b n e)).trans rfl

/-- Entry (b, n, e) of the projected values after the first launch. -/
theorem vproj_at (c : Dev nD) (b : Fin 4) (n : Fin 4096) (e : Fin 64) :
    (dat0 V c).arrAt 7 cfg0.N (ix3 b n e)
      = Attn.proj (fun j => V c main_arg2 (ix3 b n j)) (fun j e' => V c main_arg7 (ix2 j e')) (fun e' => V c main_arg8 (ix1 e')) e :=
  (congrFun (vproj_arr V c) (ix3 b n e)).trans rfl

end Cert.KernelIdeal.Flash

end
-- ==== Proof.BlockFn.lean ====
/-
  One tile of 256 query rows (for each of the 4 batches) as a pure function of what the tile reads.

  `x0` is the tile's block of the query, `x1`, `x2` the query weight and bias, `x3`, `x4` the projected keys and
  values (all 4096 rows). The scaled query `q` is computed once. The state is (m, l, acc): per query row the
  running maximum, the running sum of exponentials, and the running weighted sum of value rows. It starts at
  (−∞, 0, 0); trip `k` reads rows 512 k … 512 k + 511 of the keys and of the values and replaces the state by the
  body's own three results; the tile's output is acc / l after the last trip.
  Each piece is the body's own pure term for it, at any float instance.
-/
import proofs.«411045_j90666759618654_3_alg».proof.Proof.Gen.KernelIdeal.Skeleton
import Idealize.ShloMosaic.Lib.Pipeline.FrameBody

noncomputable section

namespace Cert.KernelIdeal.Flash

open Idealize.ShloMosaic Idealize.ShloMosaic.TcCoe Idealize.SL.Sem
open Cert.KernelIdeal Cert.KernelIdeal.Gen

variable {F : FTy → Type} [FloatOps F]

/-- Rows 512 k … 512 k + 511 of a [4, 4096, 64] array: what trip `k` reads of the keys and of the values. -/
abbrev kvRect (k : Fin k1_t1_loop.trips) : Rect S4x4096x64 :=
  Rect.unit (s := S4x4096x64) (k1_off1 k) S4x512x64.size (k1_off1_inb k)

/-- The state the trips carry: running maximum, running sum, running weighted sum. -/
abbrev St (F : FTy → Type) [FloatOps F] : Type :=
  Vec F S4x256x1 .f32 × Vec F S4x256x1 .f32 × Vec F S4x256x64 .f32

/-- One trip: from the scaled query, the trip's key and value rows and the state it finds, the state it leaves. -/
def step (q : FVec F S4x256x64 .bf16) (x3 x4 : Vec F S4x4096x64 .bf16) (k : Fin k1_t1_loop.trips) (s : St F) : St F :=
  (k1_pay15 (k1_pay4 q (View.ld x3 (kvRect k)) s.1),
   k1_pay8 q (View.ld x3 (kvRect k)) s.1 s.1 s.2.1,
   k1_pay14 (k1_pay2 (View.ld x4 (kvRect k))) (k1_pay7 q (View.ld x3 (kvRect k)) s.1) s.2.2
     (k1_pay9 q (View.ld x3 (kvRect k)) s.1 s.1))

/-- The state before trip `n`; past the last trip it stays. -/
def stAt (q : FVec F S4x256x64 .bf16) (x3 x4 : Vec F S4x4096x64 .bf16) : ℕ → St F
  | 0 => (k1_pay11, k1_pay12, k1_pay13)
  | n + 1 => if h : n < k1_t1_loop.trips then step q x3 x4 ⟨n, h⟩ (stAt q x3 x4 n) else stAt q x3 x4 n

/-- The tile's output block: the weighted sum over the sum, after every trip. -/
def blockFn (x0 : Vec F S4x256x1024 .f32) (x1 : Vec F S1024x64 .f32) (x2 : Vec F S64 .f32)
    (x3 x4 : Vec F S4x4096x64 .bf16) : Vec F S4x256x64 .f32 :=
  k1_pay1 (stAt (k1_pay10 x0 x1 x2) x3 x4 k1_t1_loop.trips).2.2 (stAt (k1_pay10 x0 x1 x2) x3 x4 k1_t1_loop.trips).2.1

end Cert.KernelIdeal.Flash

end
-- ==== Proof.Body1.lean ====
/-
  What one tile of the second launch leaves in the output block, as the pure tile function of what it reads.

  The body resets the three carried buffers (running maximum, running sum, running weighted sum), runs the
  trips, each of which reads the state whole and overwrites it whole, and stores the quotient of the last two.
  So the contents after trip k are the trip function of the contents before it, and the stored block is
  `Flash.blockFn` of the tile's five input blocks.
-/
import proofs.«411045_j90666759618654_3_alg».proof.Proof.Gen.KernelIdeal.Frame
import proofs.«411045_j90666759618654_3_alg».proof.Proof.BlockFn
import Idealize.ShloMosaic.Lib.Pipeline.Value

set_option maxRecDepth 16384

noncomputable section

namespace Cert.KernelIdeal.Flash

open Idealize.ShloMosaic Idealize.ShloMosaic.TcCoe Idealize.ShloMosaic.Tactic Idealize.SL.Sem
open Cert.KernelIdeal Cert.KernelIdeal.Gen

variable {F : FTy → Type} [FloatOps F]
variable (V : (c : Dev nD) → (b : Ref sig .tc) → Buf (Elt F) ((c : Thread nD τ).loc b))

namespace Body1

/-! ## Whole-buffer rectangles -/

/-- The offsets of a whole-buffer rectangle of rank 1, 2, 3 are zero. -/
theorem hz1 : (![0] : Fin 1 → Nat) = fun _ => 0 := funext fun a => by fin_cases a <;> rfl
theorem hz2 : (![0, 0] : Fin 2 → Nat) = fun _ => 0 := funext fun a => by fin_cases a <;> rfl
theorem hz3 : (![0, 0, 0] : Fin 3 → Nat) = fun _ => 0 := funext fun a => by fin_cases a <;> rfl

/-- One store through the whole-buffer rectangle, read back whole, is its payload: the store covers every
    index, so nothing of what the buffer held before is left. -/
theorem read_writes_one {Val : EltTy → Type} [∀ e, Nonempty (Val e)] {sg : RefSig} {κ : Kind} {sp : Space}
    {S : Shape} {e : EltTy} (v : View sg κ sp S e) (f : v.ty.Contents Val) {off : Fin S.rank → Nat}
    (h : off = fun _ => 0) (inb : ∀ a, off a + S.size a ≤ S.size a) (w : S.Idx → Val e) :
    v.read Val (v.writes Val f [(⟨Rect.unit off S.size inb, w⟩ : View.Piece Val S e)]) = w := by
  have hc : ∀ y : S.Idx, ∃ p ∈ [(⟨Rect.unit off S.size inb, w⟩ : View.Piece Val S e)], y ∈ p.1.set :=
    fun y => ⟨_, List.mem_singleton_self _, View.mem_set_unit_zero h inb y⟩
  rw [View.read_writes_eq_canon v f _ hc, View.canon_unit_zero h inb]

/-! ## The state recurrence, one trip at a time -/

theorem stAt_zero (q : FVec F S4x256x64 .bf16) (x3 x4 : Vec F S4x4096x64 .bf16) :
    stAt q x3 x4 0 = (k1_pay11, k1_pay12, k1_pay13) := rfl

theorem stAt_succ (q : FVec F S4x256x64 .bf16) (x3 x4 : Vec F S4x4096x64 .bf16) (n : ℕ) (h : n < k1_t1_loop.trips) :
    stAt q x3 x4 (n + 1) = step q x3 x4 ⟨n, h⟩ (stAt q x3 x4 n) := by
  rw [stAt.eq_2]; exact dif_pos h

section Trips

variable (𝒱 : Variants) (c : Dev nD) (bd : Option 𝒱.V) (i : grid1.Coords) (arg1 : Memref sig .tc .vmem S4x256x1024 .f32) (harg1 : arg1.IsWhole) (arg2 : Memref sig .tc .vmem S1024x64 .f32) (harg2 : arg2.IsWhole) (arg3 : Memref sig .tc .vmem S64 .f32) (harg3 : arg3.IsWhole) (arg4 : Memref sig .tc .vmem S4x4096x64 .bf16) (harg4 : arg4.IsWhole) (arg5 : Memref sig .tc .vmem S4x4096x64 .bf16) (harg5 : arg5.IsWhole) (arg6 : Memref sig .tc .vmem S4x256x64 .f32) (harg6 : arg6.IsWhole) (arg7 : Memref sig .tc .vmem S4x256x1 .f32) (harg7 : arg7.IsWhole) (arg8 : Memref sig .tc .vmem S4x256x1 .f32) (harg8 : arg8.IsWhole) (arg9 : Memref sig .tc .vmem S4x256x64 .f32) (harg9 : arg9.IsWhole)
  (v0 : Vec F S4x256x1024 .f32) (v2 : Vec F S1024x64 .f32) (v8 : Vec F S64 .f32)
  (X4 : BufTy.Contents (Elt F) arg4.view.ty) (X5 : BufTy.Contents (Elt F) arg5.view.ty)

/-- ONE TRIP. At the contents `f7`, `f8`, `f9` it finds in the three carried buffers, trip `k` stores
    one whole-buffer piece into each: the new maximum, the new sum and the new weighted sum, each the body's own
    term over the scaled query, the trip's key and value rows, and the state read whole. -/
theorem tripL_eq (k : Fin k1_t1_loop.trips) (f7 : BufTy.Contents (Elt F) arg7.view.ty)
    (f8 : BufTy.Contents (Elt F) arg8.view.ty) (f9 : BufTy.Contents (Elt F) arg9.view.ty) :
    tripL_k1_t1 (F := F) 𝒱 c bd i arg1 harg1 arg2 harg2 arg3 harg3 arg4 harg4 arg5 harg5 arg6 harg6 arg7 harg7 arg8 harg8 arg9 harg9 v0 v2 v8 X4 X5 k f7 f8 f9 =
      ([(⟨(Rect.unit (s := S4x256x1) ![0, 0, 0] S4x256x1.size inb_S4x256x1_S4x256x1_0_0_0),
          k1_pay15 (k1_pay4 (k1_pay10 v0 v2 v8) (View.ld (arg4.view.read (Elt F) X4) (kvRect k)) (arg7.view.read (Elt F) f7))⟩ :
            View.Piece (Elt F) S4x256x1 .f32)],
       [(⟨(Rect.unit (s := S4x256x1) ![0, 0, 0] S4x256x1.size inb_S4x256x1_S4x256x1_0_0_0),
          k1_pay8 (k1_pay10 v0 v2 v8) (View.ld (arg4.view.read (Elt F) X4) (kvRect k)) (arg7.view.read (Elt F) f7)
            (arg7.view.read (Elt F) f7) (arg8.view.read (Elt F) f8)⟩ : View.Piece (Elt F) S4x256x1 .f32)],
       [(⟨(Rect.unit (s := S4x256x64) ![0, 0, 0] S4x256x64.size inb_S4x256x64_S4x256x64_0_0_0),
          k1_pay14 (k1_pay2 (View.ld (arg5.view.read (Elt F) X5) (kvRect k)))
            (k1_pay7 (k1_pay10 v0 v2 v8) (View.ld (arg4.view.read (Elt F) X4) (kvRect k)) (arg7.view.read (Elt F) f7))
            (arg9.view.read (Elt F) f9)
            (k1_pay9 (k1_pay10 v0 v2 v8) (View.ld (arg4.view.read (Elt F) X4) (kvRect k)) (arg7.view.read (Elt F) f7)
              (arg7.view.read (Elt F) f7))⟩ : View.Piece (Elt F) S4x256x64 .f32)]) := by
  unfold tripL_k1_t1 trip_k1_t1
  dsimp only [kvRect]
  sl_unfold_run_names
  simp only [View.readAt_eq_ld, View.ld_unit_zero (S := S4x256x1) hz3, View.ld_unit_zero (S := S4x256x64) hz3]

/-- So a trip takes buffers that read as a state `s` to buffers that read as `step` of it. -/
theorem trip_read (x3 x4 : Vec F S4x4096x64 .bf16)
    (hX4 : arg4.view.read (Elt F) X4 = x3) (hX5 : arg5.view.read (Elt F) X5 = x4)
    (k : Fin k1_t1_loop.trips) (f7 : BufTy.Contents (Elt F) arg7.view.ty)
    (f8 : BufTy.Contents (Elt F) arg8.view.ty) (f9 : BufTy.Contents (Elt F) arg9.view.ty) (s : St F)
    (h7 : arg7.view.read (Elt F) f7 = s.1) (h8 : arg8.view.read (Elt F) f8 = s.2.1)
    (h9 : arg9.view.read (Elt F) f9 = s.2.2) :
    arg7.view.read (Elt F) (arg7.view.writes (Elt F) f7
        (tripL_k1_t1 (F := F) 𝒱 c bd i arg1 harg1 arg2 harg2 arg3 harg3 arg4 harg4 arg5 harg5 arg6 harg6 arg7 harg7 arg8 harg8 arg9 harg9 v0 v2 v8 X4 X5 k f7 f8 f9).1)
        = (step (k1_pay10 v0 v2 v8) x3 x4 k s).1
    ∧ arg8.view.read (Elt F) (arg8.view.writes (Elt F) f8
        (tripL_k1_t1 (F := F) 𝒱 c bd i arg1 harg1 arg2 harg2 arg3 harg3 arg4 harg4 arg5 harg5 arg6 harg6 arg7 harg7 arg8 harg8 arg9 harg9 v0 v2 v8 X4 X5 k f7 f8 f9).2.1)
        = (step (k1_pay10 v0 v2 v8) x3 x4 k s).2.1
    ∧ arg9.view.read (Elt F) (arg9.view.writes (Elt F) f9
        (tripL_k1_t1 (F := F) 𝒱 c bd i arg1 harg1 arg2 harg2 arg3 harg3 arg4 harg4 arg5 harg5 arg6 harg6 arg7 harg7 arg8 harg8 arg9 harg9 v0 v2 v8 X4 X5 k f7 f8 f9).2.2)
        = (step (k1_pay10 v0 v2 v8) x3 x4 k s).2.2 := by
  rw [tripL_eq]
  dsimp only
  refine ⟨?_, ?_, ?_⟩
  · rw [read_writes_one (S := S4x256x1) _ _ hz3, hX4, h7]; rfl
  · rw [read_writes_one (S := S4x256x1) _ _ hz3, hX4, h7, h8]; rfl
  · rw [read_writes_one (S := S4x256x64) _ _ hz3, hX4, hX5, h7, h9]; rfl

/-- THE TRIPS, by induction: from buffers that read as the reset state, the buffers after the first `n` trips
    read as the state before trip `n`. Each trip's pieces are written over what the earlier trips left. -/
theorem pb_read (G7 : BufTy.Contents (Elt F) arg7.view.ty) (G8 : BufTy.Contents (Elt F) arg8.view.ty)
    (G9 : BufTy.Contents (Elt F) arg9.view.ty) (x3 x4 : Vec F S4x4096x64 .bf16)
    (hX4 : arg4.view.read (Elt F) X4 = x3) (hX5 : arg5.view.read (Elt F) X5 = x4)
    (hG7 : arg7.view.read (Elt F) G7 = k1_pay11) (hG8 : arg8.view.read (Elt F) G8 = k1_pay12)
    (hG9 : arg9.view.read (Elt F) G9 = k1_pay13) (n : ℕ) (hn : n ≤ k1_t1_loop.trips) :
    arg7.view.read (Elt F) (arg7.view.writes (Elt F) G7
        (pb_k1_t1 (F := F) 𝒱 c bd i arg1 harg1 arg2 harg2 arg3 harg3 arg4 harg4 arg5 harg5 arg6 harg6 arg7 harg7 arg8 harg8 arg9 harg9 v0 v2 v8 X4 X5 G7 G8 G9 n).1)
        = (stAt (k1_pay10 v0 v2 v8) x3 x4 n).1
    ∧ arg8.view.read (Elt F) (arg8.view.writes (Elt F) G8
        (pb_k1_t1 (F := F) 𝒱 c bd i arg1 harg1 arg2 harg2 arg3 harg3 arg4 harg4 arg5 harg5 arg6 harg6 arg7 harg7 arg8 harg8 arg9 harg9 v0 v2 v8 X4 X5 G7 G8 G9 n).2.1)
        = (stAt (k1_pay10 v0 v2 v8) x3 x4 n).2.1
    ∧ arg9.view.read (Elt F) (arg9.view.writes (Elt F) G9
        (pb_k1_t1 (F := F) 𝒱 c bd i arg1 harg1 arg2 harg2 arg3 harg3 arg4 harg4 arg5 harg5 arg6 harg6 arg7 harg7 arg8 harg8 arg9 harg9 v0 v2 v8 X4 X5 G7 G8 G9 n).2.2)
        = (stAt (k1_pay10 v0 v2 v8) x3 x4 n).2.2 := by
  induction n with
  | zero =>
    rw [pb_k1_t1.eq_1, stAt_zero]
    exact ⟨hG7, hG8, hG9⟩
  | succ n ih =>
    have hn' : n < k1_t1_loop.trips := Nat.lt_of_succ_le hn
    obtain ⟨i7, i8, i9⟩ := ih (Nat.le_of_lt hn')
    rw [pb_k1_t1_succ (F := F) 𝒱 c bd i arg1 harg1 arg2 harg2 arg3 harg3 arg4 harg4 arg5 harg5 arg6 harg6 arg7 harg7 arg8 harg8 arg9 harg9 v0 v2 v8 X4 X5 G7 G8 G9 ⟨n, hn'⟩, stAt_succ _ _ _ n hn']
    dsimp only
    rw [View.writes_append, View.writes_append, View.writes_append]
    exact trip_read 𝒱 c bd i arg1 harg1 arg2 harg2 arg3 harg3 arg4 harg4 arg5 harg5 arg6 harg6 arg7 harg7 arg8 harg8 arg9 harg9 v0 v2 v8 X4 X5 x3 x4 hX4 hX5 ⟨n, hn'⟩
      (arg7.view.writes (Elt F) G7 (pb_k1_t1 (F := F) 𝒱 c bd i arg1 harg1 arg2 harg2 arg3 harg3 arg4 harg4 arg5 harg5 arg6 harg6 arg7 harg7 arg8 harg8 arg9 harg9 v0 v2 v8 X4 X5 G7 G8 G9 n).1)
      (arg8.view.writes (Elt F) G8 (pb_k1_t1 (F := F) 𝒱 c bd i arg1 harg1 arg2 harg2 arg3 harg3 arg4 harg4 arg5 harg5 arg6 harg6 arg7 harg7 arg8 harg8 arg9 harg9 v0 v2 v8 X4 X5 G7 G8 G9 n).2.1)
      (arg9.view.writes (Elt F) G9 (pb_k1_t1 (F := F) 𝒱 c bd i arg1 harg1 arg2 harg2 arg3 harg3 arg4 harg4 arg5 harg5 arg6 harg6 arg7 harg7 arg8 harg8 arg9 harg9 v0 v2 v8 X4 X5 G7 G8 G9 n).2.2)
      (stAt (k1_pay10 v0 v2 v8) x3 x4 n) i7 i8 i9

end Trips

/-! ## The body's one output piece -/

/-- What the body leaves in the output block, on any staging buffers: the one covering store's payload, the
    quotient of the weighted sum by the sum, both read whole after the last trip. -/
theorem out1_A_5_eq (c : Dev nD) (i : grid1.Coords) (arg1 : Memref sig .tc .vmem S4x256x1024 .f32) (harg1 : arg1.IsWhole) (arg2 : Memref sig .tc .vmem S1024x64 .f32) (harg2 : arg2.IsWhole) (arg3 : Memref sig .tc .vmem S64 .f32) (harg3 : arg3.IsWhole) (arg4 : Memref sig .tc .vmem S4x4096x64 .bf16) (harg4 : arg4.IsWhole) (arg5 : Memref sig .tc .vmem S4x4096x64 .bf16) (harg5 : arg5.IsWhole) (arg6 : Memref sig .tc .vmem S4x256x64 .f32) (harg6 : arg6.IsWhole) (arg7 : Memref sig .tc .vmem S4x256x1 .f32) (harg7 : arg7.IsWhole) (arg8 : Memref sig .tc .vmem S4x256x1 .f32) (harg8 : arg8.IsWhole) (arg9 : Memref sig .tc .vmem S4x256x64 .f32) (harg9 : arg9.IsWhole)
    (x0 : Vec F S4x256x1024 .f32) (x1 : Vec F S1024x64 .f32) (x2 : Vec F S64 .f32) (x3 : Vec F S4x4096x64 .bf16) (x4 : Vec F S4x4096x64 .bf16) :
    out1_A_5 c i arg1 harg1 arg2 harg2 arg3 harg3 arg4 harg4 arg5 harg5 arg6 harg6 arg7 harg7 arg8 harg8 arg9 harg9 x0 x1 x2 x3 x4 = blockFn x0 x1 x2 x3 x4 := by
  unfold out1_A_5
  rw [View.read_writes_eq_canon _ _ _ (cover1_A_5 c i arg1 harg1 arg2 harg2 arg3 harg3 arg4 harg4 arg5 harg5 arg6 harg6 arg7 harg7 arg8 harg8 arg9 harg9 x0 x1 x2 x3 x4)]
  unfold kernelRun1_A
  dsimp only
  sl_unfold_words
  rw [View.canon_unit_zero (S := S4x256x64) hz3]
  simp only [View.readCov, View.readAt_eq_ld, harg1.read_unread, harg2.read_unread, harg3.read_unread,
    View.ld_unit_zero (S := S4x256x1024) hz3, View.ld_unit_zero (S := S1024x64) hz2, View.ld_unit_zero (S := S64) hz1,
    View.ld_unit_zero (S := S4x256x1) hz3, View.ld_unit_zero (S := S4x256x64) hz3, View.writes_append]
  obtain ⟨-, h8, h9⟩ := pb_read (F := F) Variants.none c none i arg1 harg1 arg2 harg2 arg3 harg3 arg4 harg4 arg5 harg5 arg6 harg6 arg7 harg7 arg8 harg8 arg9 harg9 x0 x1 x2
    (harg4.unread x3) (harg5.unread x4)
    (arg7.view.writes (Elt F) arg7.view.junk [(⟨(Rect.unit (s := S4x256x1) ![0, 0, 0] S4x256x1.size inb_S4x256x1_S4x256x1_0_0_0), k1_pay11⟩ : View.Piece (Elt F) S4x256x1 .f32)])
    (arg8.view.writes (Elt F) arg8.view.junk [(⟨(Rect.unit (s := S4x256x1) ![0, 0, 0] S4x256x1.size inb_S4x256x1_S4x256x1_0_0_0), k1_pay12⟩ : View.Piece (Elt F) S4x256x1 .f32)])
    (arg9.view.writes (Elt F) arg9.view.junk [(⟨(Rect.unit (s := S4x256x64) ![0, 0, 0] S4x256x64.size inb_S4x256x64_S4x256x64_0_0_0), k1_pay13⟩ : View.Piece (Elt F) S4x256x64 .f32)])
    x3 x4 (harg4.read_unread x3) (harg5.read_unread x4)
    (read_writes_one (S := S4x256x1) _ _ hz3 _ _) (read_writes_one (S := S4x256x1) _ _ hz3 _ _)
    (read_writes_one (S := S4x256x64) _ _ hz3 _ _) k1_t1_loop.trips (Nat.le_refl _)
  rw [h9, h8]
  rfl

end Body1

/-- The output block after the body at tile `t` is the tile function of the tile's input blocks. -/
theorem outsAt1_eq (c : Dev nD) (t : Fin cfg1.N) :
    outsAt1 V c t = blockFn (iblk1 V c 0 t) (iblk1 V c 1 t) (iblk1 V c 2 t) (iblk1 V c 3 t) (iblk1 V c 4 t) := by
  unfold outsAt1
  exact Body1.out1_A_5_eq c (grid1.coords t) (ms1_0 t) (hs1_0 t) (ms1_1 t) (hs1_1 t) (ms1_2 t) (hs1_2 t) (ms1_3 t) (hs1_3 t)
    (ms1_4 t) (hs1_4 t) (ms1_5 t) (hs1_5 t) scM1_0 (Memref.isWhole_whole _) scM1_1 (Memref.isWhole_whole _)
    scM1_2 (Memref.isWhole_whole _) (iblk1 V c 0 t) (iblk1 V c 1 t) (iblk1 V c 2 t) (iblk1 V c 3 t) (iblk1 V c 4 t)

end Cert.KernelIdeal.Flash

end
-- ==== Proof.Pay1.lean ====
/-
  Each pure piece of the second launch's body read at one entry, over the extended reals.

  `q` is the scaled query of a tile ([4, 256, 64]), `K`, `W` one block of 512 key rows and of 512 value rows
  ([4, 512, 64]), `m`, `l` the running maximum and sum ([4, 256, 1]), `acc` the running weighted sum ([4, 256, 64]).
  A change of float format is the identity; a matrix product into a zero accumulator is the sum over the
  contracted index; a lane sum is a sum; a lane maximum is a maximum folded from −∞; a column [4, 256, 1]
  broadcast along the last axis is read at column 0.
-/
import proofs.«411045_j90666759618654_3_alg».proof.Proof.BlockFn
import proofs.«411045_j90666759618654_3_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Flash

open Idealize.ShloMosaic Idealize.ShloMosaic.TcCoe Idealize.ShloMosaic.ValueIdx Idealize.SL.Sem
open Cert.KernelIdeal Cert.KernelIdeal.Gen

/-! ## A trailing unit axis, and columns and rows spread over a block, read at an index -/

/-- An `[a, b]` array cast to `[a, b, 1]` reads, at `(i, j, z)`, the operand at `(i, j)`: the two row-major positions are
`i b + j` and `(i b + j) · 1 + 0`. -/
theorem shapeCast_ab_ab1_apply {α : Type} {a b : ℕ} (x : (⟨2, ![a, b]⟩ : Shape).Idx → α)
    (h : (⟨2, ![a, b]⟩ : Shape).ShapeCasts ⟨3, ![a, b, 1]⟩) (i : Fin a) (j : Fin b) (z : Fin 1) :
    shapeCast ⟨3, ![a, b, 1]⟩ x h (ix3 i j z) = x (ix2 i j) :=
  shapeCast_apply x h _ _ (by
    have hz : z.val = 0 := by omega
    rw [Shape.rowMajor_val_three, Shape.rowMajor_val_two]
    show i.val * b + j.val = (i.val * b + j.val) * 1 + z.val
    rw [hz, Nat.mul_one, Nat.add_zero])

/-- An `[a]` array cast to `[1, 1, a]` reads, at `(u, w, i)`, the operand at `i`. -/
theorem shapeCast_a_11a_apply {α : Type} {a : ℕ} (x : (⟨1, ![a]⟩ : Shape).Idx → α)
    (h : (⟨1, ![a]⟩ : Shape).ShapeCasts ⟨3, ![1, 1, a]⟩) (u w : Fin 1) (i : Fin a) :
    shapeCast ⟨3, ![1, 1, a]⟩ x h (ix3 u w i) = x (ix1 i) :=
  shapeCast_apply x h _ _ (by
    have hu : u.val = 0 := by omega
    have hw : w.val = 0 := by omega
    rw [Shape.rowMajor_val_three, Shape.rowMajor_val_one]
    show i.val = (u.val * 1 + w.val) * a + i.val
    simp only [hu, hw, Nat.zero_mul, Nat.zero_add])

/-- A column `[a, b, 1]` broadcast to `[a, b, c]` reads, at `(i, j, k)`, the column at `(i, j, 0)`. -/
theorem broadcastTo_ab1_abc_apply {α : Type} {a b c : ℕ} (v : (⟨3, ![a, b, 1]⟩ : Shape).Idx → α)
    (h : (⟨3, ![a, b, 1]⟩ : Shape).Broadcasts ⟨3, ![a, b, c]⟩) (i : Fin a) (j : Fin b) (k : Fin c) :
    broadcastTo ⟨3, ![a, b, c]⟩ v h (ix3 i j k) = v (ix3 i j (0 : Fin 1)) := by
  refine broadcastTo_apply v h (ix3 i j k) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ => rfl

/-- One matrix `[1, b, c]` broadcast over `a` of them reads, at `(i, j, k)`, the matrix at `(0, j, k)`. -/
theorem broadcastTo_1bc_abc_apply {α : Type} {a b c : ℕ} (v : (⟨3, ![1, b, c]⟩ : Shape).Idx → α)
    (h : (⟨3, ![1, b, c]⟩ : Shape).Broadcasts ⟨3, ![a, b, c]⟩) (i : Fin a) (j : Fin b) (k : Fin c) :
    broadcastTo ⟨3, ![a, b, c]⟩ v h (ix3 i j k) = v (ix3 (0 : Fin 1) j k) := by
  refine broadcastTo_apply v h (ix3 i j k) (ix3 (0 : Fin 1) j k) fun ax => ?_
  match ax with
  | ⟨0, _⟩ => rfl
  | ⟨1, _⟩ =>
    show j.val = if b = 1 then 0 else j.val
    split
    · have := j.isLt; omega
    · rfl
  | ⟨2, _⟩ =>
    show k.val = if c = 1 then 0 else k.val
    split
    · have := k.isLt; omega
    · rfl

/-- One row `[1, 1, c]` broadcast to `[a, b, c]` reads, at `(i, j, k)`, the row at `(0, 0, k)`. -/
theorem broadcastTo_11c_abc_apply {α : Type} {a b c : ℕ} (v : (⟨3, ![1, 1, c]⟩ : Shape).Idx → α)
    (h : (⟨3, ![1, 1, c]⟩ : Shape).Broadcasts ⟨3, ![a, b, c]⟩) (i : Fin a) (j : Fin b) (k : Fin c) :
    broadcastTo ⟨3, ![a, b, c]⟩ v h (ix3 i j k) = v (ix3 (0 : Fin 1) (0 : Fin 1) k) := by
  refine broadcastTo_apply v h (ix3 i j k) (ix3 (0 : Fin 1) (0 : Fin 1) k) fun ax => ?_
  match ax with
  | ⟨0, _⟩ => rfl
  | ⟨1, _⟩ => rfl
  | ⟨2, _⟩ =>
    show k.val = if c = 1 then 0 else k.val
    split
    · have := k.isLt; omega
    · rfl

/-! ## A reduction over the 512 lanes of a row, read at the row -/

/-- The index of a [4, 256, 512] block over row `(b, r)` with lane `j` put back on the reduced axis is `(b, r, j)`. -/
theorem lift_lane (h : S4x256x512.Reduces [2] S4x256) (b : Fin 4) (r : Fin 256) (j : Fin 512) :
    h.lift (ix2 b r) j = ix3 b r j := by
  funext c
  refine Fin.ext ?_
  match c with
  | ⟨0, _⟩ => rfl
  | ⟨1, _⟩ => rfl
  | ⟨2, _⟩ => rfl

/-- The lane sum of a row is the sum of its 512 entries. -/
theorem rowSum_apply (src : FVec Ideal S4x256x512 .f32) (h : S4x256x512.Reduces [2] S4x256) (hφ : FKind.Formats .f32)
    (hacc : (0x00000000#32 : BitVec 32) = FKind.add.neutral .f32 hφ) (b : Fin 4) (r : Fin 256) :
    multiReduction (F := Ideal) .add [2] S4x256 src 0x00000000#32 h hφ hacc (ix2 b r) = ∑ j : Fin 512, src (ix3 b r j) := by
  refine (Ideal.multiReduction_add_single src 0x00000000#32 h hφ hacc (ix2 b r)).trans ?_
  exact Finset.sum_congr rfl fun j _ => congrArg src (lift_lane h b r j)

/-- The lane maximum of a row is the maximum of its 512 entries folded from −∞. -/
theorem rowMax_apply (src : FVec Ideal S4x256x512 .f32) (h : S4x256x512.Reduces [2] S4x256) (hφ : FKind.Formats .f32)
    (hacc : (0xFF800000#32 : BitVec 32) = FKind.maximumf.neutral .f32 hφ) (b : Fin 4) (r : Fin 256) :
    multiReduction (F := Ideal) .maximumf [2] S4x256 src 0xFF800000#32 h hφ hacc (ix2 b r)
      = (Finset.univ : Finset (Fin 512)).fold max Attn.negInf (fun j => src (ix3 b r j)) := by
  have hl : (src ∘ h.lift (ix2 b r) : Fin 512 → EReal) = fun j => src (ix3 b r j) :=
    funext fun j => congrArg src (lift_lane h b r j)
  exact (Ideal.multiReduction_maximumf_single src 0xFF800000#32 h hφ hacc (ix2 b r)).trans
    (congrArg (fun f : Fin 512 → EReal => (Finset.univ : Finset (Fin 512)).fold max Attn.negInf f) hl)

/-! ## The three matrix products, read at an entry

Each has the batch axis 0 and one contracted axis; the operand indices at an output index and a contraction index are
read off axis by axis. -/

/-! ### Scores: [4, 256, 64] against [4, 512, 64], contracting the 64 features -/

theorem qk_lhs_0 (i : S4x256x512.Idx) (q : dot_S4x256x64_S4x512x64_S4x256x512_2_2_1_1_0_0.contr.Idx) :
    (dot_S4x256x64_S4x512x64_S4x256x512_2_2_1_1_0_0.lhsIdx i q 0).val = (i 0).val := by
  unfold DotDims.lhsIdx
  rw [dif_pos (show (0 : Fin S4x256x64.rank) ∈ dot_S4x256x64_S4x512x64_S4x256x512_2_2_1_1_0_0.lhsBatch by decide)]
  rfl
theorem qk_lhs_1 (i : S4x256x512.Idx) (q : dot_S4x256x64_S4x512x64_S4x256x512_2_2_1_1_0_0.contr.Idx) :
    (dot_S4x256x64_S4x512x64_S4x256x512_2_2_1_1_0_0.lhsIdx i q 1).val = (i 1).val := by
  unfold DotDims.lhsIdx
  rw [dif_neg (show ¬(1 : Fin S4x256x64.rank) ∈ dot_S4x256x64_S4x512x64_S4x256x512_2_2_1_1_0_0.lhsBatch by decide), dif_pos (show (1 : Fin S4x256x64.rank) ∈ dot_S4x256x64_S4x512x64_S4x256x512_2_2_1_1_0_0.lhsNonContracting by decide)]
  rfl
theorem qk_lhs_2 (i : S4x256x512.Idx) (q : dot_S4x256x64_S4x512x64_S4x256x512_2_2_1_1_0_0.contr.Idx) :
    (dot_S4x256x64_S4x512x64_S4x256x512_2_2_1_1_0_0.lhsIdx i q 2).val = (q ⟨0, by decide⟩).val :=
  dot_S4x256x64_S4x512x64_S4x256x512_2_2_1_1_0_0.lhsIdx_val_of_single rfl i q
theorem qk_rhs_0 (i : S4x256x512.Idx) (q : dot_S4x256x64_S4x512x64_S4x256x512_2_2_1_1_0_0.contr.Idx) :
    (dot_S4x256x64_S4x512x64_S4x256x512_2_2_1_1_0_0.rhsIdx i q 0).val = (i 0).val := by
  unfold DotDims.rhsIdx
  rw [dif_pos (show (0 : Fin S4x512x64.rank) ∈ dot_S4x256x64_S4x512x64_S4x256x512_2_2_1_1_0_0.rhsBatch by decide)]
  rfl
theorem qk_rhs_1 (i : S4x256x512.Idx) (q : dot_S4x256x64_S4x512x64_S4x256x512_2_2_1_1_0_0.contr.Idx) :
    (dot_S4x256x64_S4x512x64_S4x256x512_2_2_1_1_0_0.rhsIdx i q 1).val = (i 2).val := by
  unfold DotDims.rhsIdx
  rw [dif_neg (show ¬(1 : Fin S4x512x64.rank) ∈ dot_S4x256x64_S4x512x64_S4x256x512_2_2_1_1_0_0.rhsBatch by decide), dif_pos (show (1 : Fin S4x512x64.rank) ∈ dot_S4x256x64_S4x512x64_S4x256x512_2_2_1_1_0_0.rhsNonContracting by decide)]
  rfl
theorem qk_rhs_2 (i : S4x256x512.Idx) (q : dot_S4x256x64_S4x512x64_S4x256x512_2_2_1_1_0_0.contr.Idx) :
    (dot_S4x256x64_S4x512x64_S4x256x512_2_2_1_1_0_0.rhsIdx i q 2).val = (q ⟨0, by decide⟩).val :=
  dot_S4x256x64_S4x512x64_S4x256x512_2_2_1_1_0_0.rhsIdx_val_of_single rfl i q

/-- Entry (b, r, j) of the product of the rows of `lhs` with the rows of `rhs`: the sum over the 64 features. -/
theorem qk_apply (lhs : FVec Ideal S4x256x64 .bf16) (rhs : FVec Ideal S4x512x64 .bf16) (b : Fin 4) (r : Fin 256) (j : Fin 512) :
    matmul (F := Ideal) dot_S4x256x64_S4x512x64_S4x256x512_2_2_1_1_0_0 none lhs rhs (constant (F := Ideal) S4x256x512 .f32 0x00000000#32) (ix3 b r j)
      = ∑ e : Fin 64, lhs (ix3 b r e) * rhs (ix3 b j e) := by
  refine (Ideal.matmul_constant_zero_apply dot_S4x256x64_S4x512x64_S4x256x512_2_2_1_1_0_0 none lhs rhs (ix3 b r j)).trans ?_
  rw [← Equiv.sum_comp (ValueIdx.contrEquiv1 dot_S4x256x64_S4x512x64_S4x256x512_2_2_1_1_0_0 64 rfl rfl).symm]
  refine Finset.sum_congr rfl fun e _ => ?_
  have hk := ValueIdx.contrEquiv1_symm_val dot_S4x256x64_S4x512x64_S4x256x512_2_2_1_1_0_0 64 rfl rfl e
  have el : dot_S4x256x64_S4x512x64_S4x256x512_2_2_1_1_0_0.lhsIdx (ix3 b r j) ((ValueIdx.contrEquiv1 dot_S4x256x64_S4x512x64_S4x256x512_2_2_1_1_0_0 64 rfl rfl).symm e) = ix3 b r e := funext fun a => Fin.ext (by
    match a with
    | ⟨0, _⟩ => exact qk_lhs_0 _ _
    | ⟨1, _⟩ => exact qk_lhs_1 _ _
    | ⟨2, _⟩ => exact (qk_lhs_2 _ _).trans hk)
  have er : dot_S4x256x64_S4x512x64_S4x256x512_2_2_1_1_0_0.rhsIdx (ix3 b r j) ((ValueIdx.contrEquiv1 dot_S4x256x64_S4x512x64_S4x256x512_2_2_1_1_0_0 64 rfl rfl).symm e) = ix3 b j e := funext fun a => Fin.ext (by
    match a with
    | ⟨0, _⟩ => exact qk_rhs_0 _ _
    | ⟨1, _⟩ => exact qk_rhs_1 _ _
    | ⟨2, _⟩ => exact (qk_rhs_2 _ _).trans hk)
  rw [el, er]

/-! ### Weighted values: [4, 256, 512] times [4, 512, 64], contracting the 512 rows of the block -/

theorem pv_lhs_0 (i : S4x256x64.Idx) (q : dot_S4x256x512_S4x512x64_S4x256x64_2_1_1_2_0_0.contr.Idx) :
    (dot_S4x256x512_S4x512x64_S4x256x64_2_1_1_2_0_0.lhsIdx i q 0).val = (i 0).val := by
  unfold DotDims.lhsIdx
  rw [dif_pos (show (0 : Fin S4x256x512.rank) ∈ dot_S4x256x512_S4x512x64_S4x256x64_2_1_1_2_0_0.lhsBatch by decide)]
  rfl
theorem pv_lhs_1 (i : S4x256x64.Idx) (q : dot_S4x256x512_S4x512x64_S4x256x64_2_1_1_2_0_0.contr.Idx) :
    (dot_S4x256x512_S4x512x64_S4x256x64_2_1_1_2_0_0.lhsIdx i q 1).val = (i 1).val := by
  unfold DotDims.lhsIdx
  rw [dif_neg (show ¬(1 : Fin S4x256x512.rank) ∈ dot_S4x256x512_S4x512x64_S4x256x64_2_1_1_2_0_0.lhsBatch by decide), dif_pos (show (1 : Fin S4x256x512.rank) ∈ dot_S4x256x512_S4x512x64_S4x256x64_2_1_1_2_0_0.lhsNonContracting by decide)]
  rfl
theorem pv_lhs_2 (i : S4x256x64.Idx) (q : dot_S4x256x512_S4x512x64_S4x256x64_2_1_1_2_0_0.contr.Idx) :
    (dot_S4x256x512_S4x512x64_S4x256x64_2_1_1_2_0_0.lhsIdx i q 2).val = (q ⟨0, by decide⟩).val :=
  dot_S4x256x512_S4x512x64_S4x256x64_2_1_1_2_0_0.lhsIdx_val_of_single rfl i q
theorem pv_rhs_0 (i : S4x256x64.Idx) (q : dot_S4x256x512_S4x512x64_S4x256x64_2_1_1_2_0_0.contr.Idx) :
    (dot_S4x256x512_S4x512x64_S4x256x64_2_1_1_2_0_0.rhsIdx i q 0).val = (i 0).val := by
  unfold DotDims.rhsIdx
  rw [dif_pos (show (0 : Fin S4x512x64.rank) ∈ dot_S4x256x512_S4x512x64_S4x256x64_2_1_1_2_0_0.rhsBatch by decide)]
  rfl
theorem pv_rhs_1 (i : S4x256x64.Idx) (q : dot_S4x256x512_S4x512x64_S4x256x64_2_1_1_2_0_0.contr.Idx) :
    (dot_S4x256x512_S4x512x64_S4x256x64_2_1_1_2_0_0.rhsIdx i q 1).val = (q ⟨0, by decide⟩).val :=
  dot_S4x256x512_S4x512x64_S4x256x64_2_1_1_2_0_0.rhsIdx_val_of_single rfl i q
theorem pv_rhs_2 (i : S4x256x64.Idx) (q : dot_S4x256x512_S4x512x64_S4x256x64_2_1_1_2_0_0.contr.Idx) :
    (dot_S4x256x512_S4x512x64_S4x256x64_2_1_1_2_0_0.rhsIdx i q 2).val = (i 2).val := by
  unfold DotDims.rhsIdx
  rw [dif_neg (show ¬(2 : Fin S4x512x64.rank) ∈ dot_S4x256x512_S4x512x64_S4x256x64_2_1_1_2_0_0.rhsBatch by decide), dif_pos (show (2 : Fin S4x512x64.rank) ∈ dot_S4x256x512_S4x512x64_S4x256x64_2_1_1_2_0_0.rhsNonContracting by decide)]
  rfl

/-- Entry (b, r, d) of the product of `lhs` with `rhs`: the sum over the 512 rows of the block. -/
theorem pv_apply (lhs : FVec Ideal S4x256x512 .bf16) (rhs : FVec Ideal S4x512x64 .bf16) (b : Fin 4) (r : Fin 256) (d : Fin 64) :
    matmul (F := Ideal) dot_S4x256x512_S4x512x64_S4x256x64_2_1_1_2_0_0 none lhs rhs (constant (F := Ideal) S4x256x64 .f32 0x00000000#32) (ix3 b r d)
      = ∑ j : Fin 512, lhs (ix3 b r j) * rhs (ix3 b j d) := by
  refine (Ideal.matmul_constant_zero_apply dot_S4x256x512_S4x512x64_S4x256x64_2_1_1_2_0_0 none lhs rhs (ix3 b r d)).trans ?_
  rw [← Equiv.sum_comp (ValueIdx.contrEquiv1 dot_S4x256x512_S4x512x64_S4x256x64_2_1_1_2_0_0 512 rfl rfl).symm]
  refine Finset.sum_congr rfl fun j _ => ?_
  have hk := ValueIdx.contrEquiv1_symm_val dot_S4x256x512_S4x512x64_S4x256x64_2_1_1_2_0_0 512 rfl rfl j
  have el : dot_S4x256x512_S4x512x64_S4x256x64_2_1_1_2_0_0.lhsIdx (ix3 b r d) ((ValueIdx.contrEquiv1 dot_S4x256x512_S4x512x64_S4x256x64_2_1_1_2_0_0 512 rfl rfl).symm j) = ix3 b r j := funext fun a => Fin.ext (by
    match a with
    | ⟨0, _⟩ => exact pv_lhs_0 _ _
    | ⟨1, _⟩ => exact pv_lhs_1 _ _
    | ⟨2, _⟩ => exact (pv_lhs_2 _ _).trans hk)
  have er : dot_S4x256x512_S4x512x64_S4x256x64_2_1_1_2_0_0.rhsIdx (ix3 b r d) ((ValueIdx.contrEquiv1 dot_S4x256x512_S4x512x64_S4x256x64_2_1_1_2_0_0 512 rfl rfl).symm j) = ix3 b j d := funext fun a => Fin.ext (by
    match a with
    | ⟨0, _⟩ => exact pv_rhs_0 _ _
    | ⟨1, _⟩ => exact (pv_rhs_1 _ _).trans hk
    | ⟨2, _⟩ => exact pv_rhs_2 _ _)
  rw [el, er]

/-! ### The projection: [4, 256, 1024] times [4, 1024, 64], contracting the 1024 input features -/

theorem xw_lhs_0 (i : S4x256x64.Idx) (q : dot_S4x256x1024_S4x1024x64_S4x256x64_2_1_1_2_0_0.contr.Idx) :
    (dot_S4x256x1024_S4x1024x64_S4x256x64_2_1_1_2_0_0.lhsIdx i q 0).val = (i 0).val := by
  unfold DotDims.lhsIdx
  rw [dif_pos (show (0 : Fin S4x256x1024.rank) ∈ dot_S4x256x1024_S4x1024x64_S4x256x64_2_1_1_2_0_0.lhsBatch by decide)]
  rfl
theorem xw_lhs_1 (i : S4x256x64.Idx) (q : dot_S4x256x1024_S4x1024x64_S4x256x64_2_1_1_2_0_0.contr.Idx) :
    (dot_S4x256x1024_S4x1024x64_S4x256x64_2_1_1_2_0_0.lhsIdx i q 1).val = (i 1).val := by
  unfold DotDims.lhsIdx
  rw [dif_neg (show ¬(1 : Fin S4x256x1024.rank) ∈ dot_S4x256x1024_S4x1024x64_S4x256x64_2_1_1_2_0_0.lhsBatch by decide), dif_pos (show (1 : Fin S4x256x1024.rank) ∈ dot_S4x256x1024_S4x1024x64_S4x256x64_2_1_1_2_0_0.lhsNonContracting by decide)]
  rfl
theorem xw_lhs_2 (i : S4x256x64.Idx) (q : dot_S4x256x1024_S4x1024x64_S4x256x64_2_1_1_2_0_0.contr.Idx) :
    (dot_S4x256x1024_S4x1024x64_S4x256x64_2_1_1_2_0_0.lhsIdx i q 2).val = (q ⟨0, by decide⟩).val :=
  dot_S4x256x1024_S4x1024x64_S4x256x64_2_1_1_2_0_0.lhsIdx_val_of_single rfl i q
theorem xw_rhs_0 (i : S4x256x64.Idx) (q : dot_S4x256x1024_S4x1024x64_S4x256x64_2_1_1_2_0_0.contr.Idx) :
    (dot_S4x256x1024_S4x1024x64_S4x256x64_2_1_1_2_0_0.rhsIdx i q 0).val = (i 0).val := by
  unfold DotDims.rhsIdx
  rw [dif_pos (show (0 : Fin S4x1024x64.rank) ∈ dot_S4x256x1024_S4x1024x64_S4x256x64_2_1_1_2_0_0.rhsBatch by decide)]
  rfl
theorem xw_rhs_1 (i : S4x256x64.Idx) (q : dot_S4x256x1024_S4x1024x64_S4x256x64_2_1_1_2_0_0.contr.Idx) :
    (dot_S4x256x1024_S4x1024x64_S4x256x64_2_1_1_2_0_0.rhsIdx i q 1).val = (q ⟨0, by decide⟩).val :=
  dot_S4x256x1024_S4x1024x64_S4x256x64_2_1_1_2_0_0.rhsIdx_val_of_single rfl i q
theorem xw_rhs_2 (i : S4x256x64.Idx) (q : dot_S4x256x1024_S4x1024x64_S4x256x64_2_1_1_2_0_0.contr.Idx) :
    (dot_S4x256x1024_S4x1024x64_S4x256x64_2_1_1_2_0_0.rhsIdx i q 2).val = (i 2).val := by
  unfold DotDims.rhsIdx
  rw [dif_neg (show ¬(2 : Fin S4x1024x64.rank) ∈ dot_S4x256x1024_S4x1024x64_S4x256x64_2_1_1_2_0_0.rhsBatch by decide), dif_pos (show (2 : Fin S4x1024x64.rank) ∈ dot_S4x256x1024_S4x1024x64_S4x256x64_2_1_1_2_0_0.rhsNonContracting by decide)]
  rfl

/-- Entry (b, r, e) of the product of `lhs` with `rhs`: the sum over the 1024 input features. -/
theorem xw_apply (lhs : FVec Ideal S4x256x1024 .bf16) (rhs : FVec Ideal S4x1024x64 .bf16) (b : Fin 4) (r : Fin 256) (e : Fin 64) :
    matmul (F := Ideal) dot_S4x256x1024_S4x1024x64_S4x256x64_2_1_1_2_0_0 none lhs rhs (constant (F := Ideal) S4x256x64 .f32 0x00000000#32) (ix3 b r e)
      = ∑ j : Fin 1024, lhs (ix3 b r j) * rhs (ix3 b j e) := by
  refine (Ideal.matmul_constant_zero_apply dot_S4x256x1024_S4x1024x64_S4x256x64_2_1_1_2_0_0 none lhs rhs (ix3 b r e)).trans ?_
  rw [← Equiv.sum_comp (ValueIdx.contrEquiv1 dot_S4x256x1024_S4x1024x64_S4x256x64_2_1_1_2_0_0 1024 rfl rfl).symm]
  refine Finset.sum_congr rfl fun j _ => ?_
  have hk := ValueIdx.contrEquiv1_symm_val dot_S4x256x1024_S4x1024x64_S4x256x64_2_1_1_2_0_0 1024 rfl rfl j
  have el : dot_S4x256x1024_S4x1024x64_S4x256x64_2_1_1_2_0_0.lhsIdx (ix3 b r e) ((ValueIdx.contrEquiv1 dot_S4x256x1024_S4x1024x64_S4x256x64_2_1_1_2_0_0 1024 rfl rfl).symm j) = ix3 b r j := funext fun a => Fin.ext (by
    match a with
    | ⟨0, _⟩ => exact xw_lhs_0 _ _
    | ⟨1, _⟩ => exact xw_lhs_1 _ _
    | ⟨2, _⟩ => exact (xw_lhs_2 _ _).trans hk)
  have er : dot_S4x256x1024_S4x1024x64_S4x256x64_2_1_1_2_0_0.rhsIdx (ix3 b r e) ((ValueIdx.contrEquiv1 dot_S4x256x1024_S4x1024x64_S4x256x64_2_1_1_2_0_0 1024 rfl rfl).symm j) = ix3 b j e := funext fun a => Fin.ext (by
    match a with
    | ⟨0, _⟩ => exact xw_rhs_0 _ _
    | ⟨1, _⟩ => exact (xw_rhs_1 _ _).trans hk
    | ⟨2, _⟩ => exact xw_rhs_2 _ _)
  rw [el, er]

/-- The weight matrix, rounded, given a leading unit axis and spread over the 4 batches, read at (b, j, e), is its entry (j, e). -/
theorem weight_apply (x1 : FVec Ideal S1024x64 .f32) (b : Fin 4) (j : Fin 1024) (e : Fin 64) :
    broadcastTo S4x1024x64 (shapeCast S1x1024x64 (shapeCast S1x1024x64 (truncf (F := Ideal) (φ := .f32) .bf16 x1 bitsLt_bf16_f32)
      shapeCasts_S1024x64_S1x1024x64) shapeCasts_S1x1024x64_S1x1024x64) broadcasts_S1x1024x64_S4x1024x64 (ix3 b j e)
      = x1 (ix2 j e) :=
  (broadcastTo_1bc_abc_apply _ _ b j e).trans
    ((congrFun (shapeCast_self _ _) _).trans (shapeCast_ab_1ab_apply _ _ (0 : Fin 1) j e))

/-- The bias, given two leading unit axes and spread over the tile, read at (b, r, e), is its entry e. -/
theorem bias_apply (x2 : FVec Ideal S64 .f32) (b : Fin 4) (r : Fin 256) (e : Fin 64) :
    broadcastTo S4x256x64 (shapeCast S1x1x64 x2 shapeCasts_S64_S1x1x64) broadcasts_S1x1x64_S4x256x64 (ix3 b r e) = x2 (ix1 e) :=
  (broadcastTo_11c_abc_apply _ _ b r e).trans (shapeCast_a_11a_apply _ _ (0 : Fin 1) (0 : Fin 1) e)

/-! ## The body's pieces -/

/-- Row 512 k + j of a [4, 4096, 64] array is row j of the block trip k reads. -/
theorem ld_kvRect (x : Vec Ideal S4x4096x64 .bf16) (k : Fin k1_t1_loop.trips) (hk : k.val < 8) (b : Fin 4) (j : Fin 512) (e : Fin 64) :
    View.ld x (kvRect k) (ix3 b j e) = x (ix3 b (⟨512 * k.val + j.val, by omega⟩ : Fin 4096) e) := by
  -- the block starts at (0, 512 k, 0) and is read with unit strides
  have h0 : k1_off1 k 0 = 0 := congrFun (k1_off1_eq k) 0
  have h1 : k1_off1 k 1 = 512 * k.val := congrFun (k1_off1_eq k) 1
  have h2 : k1_off1 k 2 = 0 := congrFun (k1_off1_eq k) 2
  show x ((kvRect k).idx (ix3 b j e)) = _
  refine congrArg x (funext fun a => Fin.ext ?_)
  match a with
  | ⟨0, _⟩ => show k1_off1 k 0 + 1 * b.val = b.val; omega
  | ⟨1, _⟩ => show k1_off1 k 1 + 1 * j.val = 512 * k.val + j.val; omega
  | ⟨2, _⟩ => show k1_off1 k 2 + 1 * e.val = e.val; omega

/-- The scaled query: the projected query row times 1/8. -/
theorem pay10_apply (x0 : Vec Ideal S4x256x1024 .f32) (x1 : Vec Ideal S1024x64 .f32) (x2 : Vec Ideal S64 .f32)
    (b : Fin 4) (r : Fin 256) (e : Fin 64) :
    k1_pay10 (F := Ideal) x0 x1 x2 (ix3 b r e)
      = Attn.proj (fun j => x0 (ix3 b r j)) (fun j e' => x1 (ix2 j e')) (fun e' => x2 (ix1 e')) e * Attn.eighth := by
  unfold k1_pay10 Attn.proj
  -- (product + bias) · 1/8; the roundings are the identity
  refine congrArg₂ (fun s t : EReal => (s + t) * Attn.eighth) ((xw_apply _ _ b r e).trans ?_) (bias_apply x2 b r e)
  exact Finset.sum_congr rfl fun j _ => congrArg (fun t : EReal => x0 (ix3 b r j) * t) (weight_apply x1 b j e)

/-- The three resets: −∞, 0, 0. -/
theorem pay11_apply (i : S4x256x1.Idx) : k1_pay11 (F := Ideal) i = Attn.negInf := by
  unfold k1_pay11
  exact congrFun (shapeCast_self _ _) i
theorem pay12_apply (i : S4x256x1.Idx) : k1_pay12 (F := Ideal) i = Attn.zero32 := by
  unfold k1_pay12
  exact congrFun (shapeCast_self _ _) i
theorem pay13_apply (i : S4x256x64.Idx) : k1_pay13 (F := Ideal) i = Attn.zero32 := by
  unfold k1_pay13
  exact congrFun (shapeCast_self _ _) i

/-- The value block is passed on as it is; the new maximum is stored as it is; the rounded weights are the weights. -/
theorem pay2_eq (W : Vec Ideal S4x512x64 .bf16) : k1_pay2 (F := Ideal) W = W := by
  unfold k1_pay2
  exact shapeCast_self _ _
theorem pay15_eq (m : FVec Ideal S4x256x1 .f32) : k1_pay15 (F := Ideal) m = m := by
  unfold k1_pay15
  exact shapeCast_self _ _
theorem pay7_eq (q : FVec Ideal S4x256x64 .bf16) (K : Vec Ideal S4x512x64 .bf16) (m : Vec Ideal S4x256x1 .f32) :
    k1_pay7 (F := Ideal) q K m = k1_pay6 (F := Ideal) q K m := by
  unfold k1_pay7
  rfl

/-- A score: query row (b, r) against key row (b, j) of the block. -/
theorem pay3_apply (q : FVec Ideal S4x256x64 .bf16) (K : Vec Ideal S4x512x64 .bf16) (b : Fin 4) (r : Fin 256) (j : Fin 512) :
    k1_pay3 (F := Ideal) q K (ix3 b r j) = ∑ e : Fin 64, q (ix3 b r e) * K (ix3 b j e) := by
  unfold k1_pay3
  refine (qk_apply q _ b r j).trans ?_
  rw [shapeCast_self]

/-- The new maximum of row (b, r): the old one against the block's scores folded from −∞. -/
theorem pay4_apply (q : FVec Ideal S4x256x64 .bf16) (K : Vec Ideal S4x512x64 .bf16) (m : Vec Ideal S4x256x1 .f32)
    (b : Fin 4) (r : Fin 256) (z : Fin 1) :
    k1_pay4 (F := Ideal) q K m (ix3 b r z)
      = max (m (ix3 b r z)) ((Finset.univ : Finset (Fin 512)).fold max Attn.negInf (fun j => k1_pay3 (F := Ideal) q K (ix3 b r j))) := by
  unfold k1_pay4
  exact congrArg (fun t : EReal => max (m (ix3 b r z)) t)
    ((shapeCast_ab_ab1_apply _ _ b r z).trans (rowMax_apply _ _ _ _ b r))

/-- The rescaling factor of row (b, r): exp (old maximum − new maximum). -/
theorem pay5_apply (q : FVec Ideal S4x256x64 .bf16) (K : Vec Ideal S4x512x64 .bf16) (m m' : Vec Ideal S4x256x1 .f32)
    (b : Fin 4) (r : Fin 256) (z : Fin 1) :
    k1_pay5 (F := Ideal) q K m m' (ix3 b r z) = Ideal.exp (m' (ix3 b r z) - k1_pay4 (F := Ideal) q K m (ix3 b r z)) := by
  unfold k1_pay5
  rfl

/-- A weight: exp (score − new maximum). -/
theorem pay6_apply (q : FVec Ideal S4x256x64 .bf16) (K : Vec Ideal S4x512x64 .bf16) (m : Vec Ideal S4x256x1 .f32)
    (b : Fin 4) (r : Fin 256) (j : Fin 512) :
    k1_pay6 (F := Ideal) q K m (ix3 b r j)
      = Ideal.exp (k1_pay3 (F := Ideal) q K (ix3 b r j) - k1_pay4 (F := Ideal) q K m (ix3 b r (0 : Fin 1))) := by
  unfold k1_pay6
  exact congrArg (fun t : EReal => Ideal.exp (k1_pay3 (F := Ideal) q K (ix3 b r j) - t)) (broadcastTo_ab1_abc_apply _ _ b r j)

/-- The new sum of row (b, r): the old one rescaled plus the block's weights. -/
theorem pay8_apply (q : FVec Ideal S4x256x64 .bf16) (K : Vec Ideal S4x512x64 .bf16) (m m' l : Vec Ideal S4x256x1 .f32)
    (b : Fin 4) (r : Fin 256) (z : Fin 1) :
    k1_pay8 (F := Ideal) q K m m' l (ix3 b r z)
      = k1_pay5 (F := Ideal) q K m m' (ix3 b r z) * l (ix3 b r z) + ∑ j : Fin 512, k1_pay6 (F := Ideal) q K m (ix3 b r j) := by
  unfold k1_pay8
  refine (congrFun (shapeCast_self _ _) (ix3 b r z)).trans ?_
  exact congrArg (fun t : EReal => k1_pay5 (F := Ideal) q K m m' (ix3 b r z) * l (ix3 b r z) + t)
    ((shapeCast_ab_ab1_apply _ _ b r z).trans (rowSum_apply _ _ _ _ b r))

/-- The rescaling factor spread along the 64 columns. -/
theorem pay9_apply (q : FVec Ideal S4x256x64 .bf16) (K : Vec Ideal S4x512x64 .bf16) (m m' : Vec Ideal S4x256x1 .f32)
    (b : Fin 4) (r : Fin 256) (d : Fin 64) :
    k1_pay9 (F := Ideal) q K m m' (ix3 b r d) = k1_pay5 (F := Ideal) q K m m' (ix3 b r (0 : Fin 1)) := by
  unfold k1_pay9
  exact broadcastTo_ab1_abc_apply _ _ b r d

/-- The new weighted sum at (b, r, d): the old one rescaled plus the block's weights times column d of its value rows. -/
theorem pay14_apply (W : FVec Ideal S4x512x64 .bf16) (p : FVec Ideal S4x256x512 .bf16) (acc : Vec Ideal S4x256x64 .f32)
    (a : FVec Ideal S4x256x64 .f32) (b : Fin 4) (r : Fin 256) (d : Fin 64) :
    k1_pay14 (F := Ideal) W p acc a (ix3 b r d)
      = a (ix3 b r d) * acc (ix3 b r d) + ∑ j : Fin 512, p (ix3 b r j) * W (ix3 b j d) := by
  unfold k1_pay14
  refine (congrFun (shapeCast_self _ _) (ix3 b r d)).trans ?_
  exact congrArg (fun t : EReal => a (ix3 b r d) * acc (ix3 b r d) + t) (pv_apply p W b r d)

/-- The output at (b, r, d): the weighted sum over the sum of the row. -/
theorem pay1_apply (acc : Vec Ideal S4x256x64 .f32) (l : Vec Ideal S4x256x1 .f32) (b : Fin 4) (r : Fin 256) (d : Fin 64) :
    k1_pay1 (F := Ideal) acc l (ix3 b r d) = Ideal.div (acc (ix3 b r d)) (l (ix3 b r (0 : Fin 1))) := by
  unfold k1_pay1
  exact congrArg (fun t : EReal => Ideal.div (acc (ix3 b r d)) t) (broadcastTo_ab1_abc_apply _ _ b r d)

end Cert.KernelIdeal.Flash

end
-- ==== Proof.Row1.lean ====
/-
  The tile function read at one entry, over the extended reals.

  Entry (b, r, d) of a tile's output depends on query row (b, r) of the tile, on every key row of batch b and on
  column d of the value rows of batch b: it is the block-by-block attention `Attn.onl` of that row, with the query
  row projected and scaled inside the score. A change of float format is the identity; a matrix product into a
  zero accumulator is the sum over the contracted index; a lane reduction is a sum, or a maximum folded from −∞.
-/
import proofs.«411045_j90666759618654_3_alg».proof.Proof.BlockFn
import proofs.«411045_j90666759618654_3_alg».proof.Proof.Pay1
import proofs.«411045_j90666759618654_3_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Flash

open Idealize.ShloMosaic Idealize.ShloMosaic.TcCoe Idealize.ShloMosaic.ValueIdx Idealize.SL.Sem
open Cert.KernelIdeal Cert.KernelIdeal.Gen

/-! ### The two recursions, one step at a time -/

/-- The 8 trips: the bounds are 0 and 0 + 8 and the step is 1. -/
theorem row_trips_eq : k1_t1_loop.trips = 8 := by
  decide

/-- Below the last trip the state after trip n is one step from the state before it. -/
theorem row_stAt_succ (q : FVec Ideal S4x256x64 .bf16) (x3 x4 : Vec Ideal S4x4096x64 .bf16) (n : ℕ)
    (h : n < k1_t1_loop.trips) :
    stAt (F := Ideal) q x3 x4 (n + 1) = step (F := Ideal) q x3 x4 ⟨n, h⟩ (stAt (F := Ideal) q x3 x4 n) := by
  rw [stAt.eq_2]
  exact dif_pos h

/-- Below the last block the row's state after block n is one step from the state before it. -/
theorem row_stRow_succ (s v : Fin 4096 → EReal) (n : ℕ) (h : n < 8) :
    Attn.stRow s v (n + 1) = Attn.stepRow s v ⟨n, h⟩ (Attn.stRow s v n) := by
  rw [Attn.stRow.eq_2]
  exact dif_pos h

/-! ### One trip at one row

  Fix the scaled query q, the keys x3 and the values x4, a batch b and a query row r, and let s n be the
  contraction of query row (b, r) with key row (b, n) over the 64 features. Trip k reads key rows
  512 k … 512 k + 511, so its scores are s at the indices of block k. -/

/-- A score of trip k: query row (b, r) against row j of the block is s at key 512 k + j. -/
theorem row_pay3 (q : FVec Ideal S4x256x64 .bf16) (x3 : Vec Ideal S4x4096x64 .bf16) (b : Fin 4) (r : Fin 256)
    (s : Fin 4096 → EReal) (hs : ∀ n : Fin 4096, ∑ e : Fin 64, q (ix3 b r e) * x3 (ix3 b n e) = s n)
    (k : Fin k1_t1_loop.trips) (hk : k.val < 8) (j : Fin 512) :
    k1_pay3 (F := Ideal) q (View.ld x3 (kvRect k)) (ix3 b r j) = s (Attn.blkIdx ⟨k.val, hk⟩ j) := by
  rw [pay3_apply, ← hs (Attn.blkIdx ⟨k.val, hk⟩ j)]
  refine Finset.sum_congr rfl fun e _ => ?_
  rw [ld_kvRect x3 k hk b j e]
  rfl

/-- The new maximum of row (b, r) after trip k: the old one against the maximum of block k's scores. -/
theorem row_pay4 (q : FVec Ideal S4x256x64 .bf16) (x3 : Vec Ideal S4x4096x64 .bf16) (b : Fin 4) (r : Fin 256)
    (s : Fin 4096 → EReal) (hs : ∀ n : Fin 4096, ∑ e : Fin 64, q (ix3 b r e) * x3 (ix3 b n e) = s n)
    (k : Fin k1_t1_loop.trips) (hk : k.val < 8) (m : Vec Ideal S4x256x1 .f32) (z : Fin 1) :
    k1_pay4 (F := Ideal) q (View.ld x3 (kvRect k)) m (ix3 b r z)
      = max (m (ix3 b r z)) (Attn.blkMax s ⟨k.val, hk⟩) := by
  have hf : (fun j : Fin 512 => k1_pay3 (F := Ideal) q (View.ld x3 (kvRect k)) (ix3 b r j))
      = fun j : Fin 512 => s (Attn.blkIdx ⟨k.val, hk⟩ j) :=
    funext fun j => row_pay3 q x3 b r s hs k hk j
  rw [pay4_apply, hf]
  rfl

/-- The rescaling factor of row (b, r) at trip k: exp (old maximum − new maximum). -/
theorem row_pay5 (q : FVec Ideal S4x256x64 .bf16) (x3 : Vec Ideal S4x4096x64 .bf16) (b : Fin 4) (r : Fin 256)
    (s : Fin 4096 → EReal) (hs : ∀ n : Fin 4096, ∑ e : Fin 64, q (ix3 b r e) * x3 (ix3 b n e) = s n)
    (k : Fin k1_t1_loop.trips) (hk : k.val < 8) (m : Vec Ideal S4x256x1 .f32) (z : Fin 1) :
    k1_pay5 (F := Ideal) q (View.ld x3 (kvRect k)) m m (ix3 b r z)
      = Ideal.exp (m (ix3 b r z) - max (m (ix3 b r z)) (Attn.blkMax s ⟨k.val, hk⟩)) := by
  rw [pay5_apply, row_pay4 q x3 b r s hs k hk m z]

/-- A weight of trip k: exp (score − new maximum). -/
theorem row_pay6 (q : FVec Ideal S4x256x64 .bf16) (x3 : Vec Ideal S4x4096x64 .bf16) (b : Fin 4) (r : Fin 256)
    (s : Fin 4096 → EReal) (hs : ∀ n : Fin 4096, ∑ e : Fin 64, q (ix3 b r e) * x3 (ix3 b n e) = s n)
    (k : Fin k1_t1_loop.trips) (hk : k.val < 8) (m : Vec Ideal S4x256x1 .f32) (j : Fin 512) :
    k1_pay6 (F := Ideal) q (View.ld x3 (kvRect k)) m (ix3 b r j)
      = Ideal.exp (s (Attn.blkIdx ⟨k.val, hk⟩ j)
          - max (m (ix3 b r (0 : Fin 1))) (Attn.blkMax s ⟨k.val, hk⟩)) := by
  rw [pay6_apply, row_pay3 q x3 b r s hs k hk j, row_pay4 q x3 b r s hs k hk m (0 : Fin 1)]

/-- The maximum trip k leaves at row (b, r). -/
theorem row_step_fst (q : FVec Ideal S4x256x64 .bf16) (x3 x4 : Vec Ideal S4x4096x64 .bf16) (b : Fin 4) (r : Fin 256)
    (s : Fin 4096 → EReal) (hs : ∀ n : Fin 4096, ∑ e : Fin 64, q (ix3 b r e) * x3 (ix3 b n e) = s n)
    (k : Fin k1_t1_loop.trips) (hk : k.val < 8) (st : St Ideal) :
    (step (F := Ideal) q x3 x4 k st).1 (ix3 b r (0 : Fin 1))
      = max (st.1 (ix3 b r (0 : Fin 1))) (Attn.blkMax s ⟨k.val, hk⟩) := by
  show k1_pay15 (F := Ideal) (k1_pay4 (F := Ideal) q (View.ld x3 (kvRect k)) st.1) (ix3 b r (0 : Fin 1)) = _
  rw [pay15_eq, row_pay4 q x3 b r s hs k hk st.1 (0 : Fin 1)]

/-- The sum trip k leaves at row (b, r): the old sum rescaled plus the block's weights. -/
theorem row_step_snd (q : FVec Ideal S4x256x64 .bf16) (x3 x4 : Vec Ideal S4x4096x64 .bf16) (b : Fin 4) (r : Fin 256)
    (s : Fin 4096 → EReal) (hs : ∀ n : Fin 4096, ∑ e : Fin 64, q (ix3 b r e) * x3 (ix3 b n e) = s n)
    (k : Fin k1_t1_loop.trips) (hk : k.val < 8) (st : St Ideal) :
    (step (F := Ideal) q x3 x4 k st).2.1 (ix3 b r (0 : Fin 1))
      = Ideal.exp (st.1 (ix3 b r (0 : Fin 1))
            - max (st.1 (ix3 b r (0 : Fin 1))) (Attn.blkMax s ⟨k.val, hk⟩)) * st.2.1 (ix3 b r (0 : Fin 1))
        + ∑ j : Fin 512, Ideal.exp (s (Attn.blkIdx ⟨k.val, hk⟩ j)
            - max (st.1 (ix3 b r (0 : Fin 1))) (Attn.blkMax s ⟨k.val, hk⟩)) := by
  show k1_pay8 (F := Ideal) q (View.ld x3 (kvRect k)) st.1 st.1 st.2.1 (ix3 b r (0 : Fin 1)) = _
  have hsum : ∑ j : Fin 512, k1_pay6 (F := Ideal) q (View.ld x3 (kvRect k)) st.1 (ix3 b r j)
      = ∑ j : Fin 512, Ideal.exp (s (Attn.blkIdx ⟨k.val, hk⟩ j)
          - max (st.1 (ix3 b r (0 : Fin 1))) (Attn.blkMax s ⟨k.val, hk⟩)) :=
    Finset.sum_congr rfl fun j _ => row_pay6 q x3 b r s hs k hk st.1 j
  rw [pay8_apply, row_pay5 q x3 b r s hs k hk st.1 (0 : Fin 1), hsum]

/-- The weighted sum trip k leaves at (b, r, d): the old one rescaled plus the block's weights times column d of the
    value rows 512 k … 512 k + 511. -/
theorem row_step_thd (q : FVec Ideal S4x256x64 .bf16) (x3 x4 : Vec Ideal S4x4096x64 .bf16) (b : Fin 4) (r : Fin 256)
    (d : Fin 64) (s : Fin 4096 → EReal) (hs : ∀ n : Fin 4096, ∑ e : Fin 64, q (ix3 b r e) * x3 (ix3 b n e) = s n)
    (k : Fin k1_t1_loop.trips) (hk : k.val < 8) (st : St Ideal) :
    (step (F := Ideal) q x3 x4 k st).2.2 (ix3 b r d)
      = Ideal.exp (st.1 (ix3 b r (0 : Fin 1))
            - max (st.1 (ix3 b r (0 : Fin 1))) (Attn.blkMax s ⟨k.val, hk⟩)) * st.2.2 (ix3 b r d)
        + ∑ j : Fin 512, Ideal.exp (s (Attn.blkIdx ⟨k.val, hk⟩ j)
            - max (st.1 (ix3 b r (0 : Fin 1))) (Attn.blkMax s ⟨k.val, hk⟩))
            * x4 (ix3 b (Attn.blkIdx ⟨k.val, hk⟩ j) d) := by
  show k1_pay14 (F := Ideal) (k1_pay2 (F := Ideal) (View.ld x4 (kvRect k)))
      (k1_pay7 (F := Ideal) q (View.ld x3 (kvRect k)) st.1) st.2.2
      (k1_pay9 (F := Ideal) q (View.ld x3 (kvRect k)) st.1 st.1) (ix3 b r d) = _
  have hsum : ∑ j : Fin 512, k1_pay6 (F := Ideal) q (View.ld x3 (kvRect k)) st.1 (ix3 b r j)
        * View.ld x4 (kvRect k) (ix3 b j d)
      = ∑ j : Fin 512, Ideal.exp (s (Attn.blkIdx ⟨k.val, hk⟩ j)
          - max (st.1 (ix3 b r (0 : Fin 1))) (Attn.blkMax s ⟨k.val, hk⟩))
          * x4 (ix3 b (Attn.blkIdx ⟨k.val, hk⟩ j) d) :=
    Finset.sum_congr rfl fun j _ => by
      rw [row_pay6 q x3 b r s hs k hk st.1 j, ld_kvRect x4 k hk b j d]
      rfl
  rw [pay2_eq, pay7_eq, pay14_apply, pay9_apply, row_pay5 q x3 b r s hs k hk st.1 (0 : Fin 1), hsum]

/-- One trip at row (b, r) and column d is one block of the row's recursion. -/
theorem row_step (q : FVec Ideal S4x256x64 .bf16) (x3 x4 : Vec Ideal S4x4096x64 .bf16) (b : Fin 4) (r : Fin 256)
    (d : Fin 64) (s : Fin 4096 → EReal) (hs : ∀ n : Fin 4096, ∑ e : Fin 64, q (ix3 b r e) * x3 (ix3 b n e) = s n)
    (k : Fin k1_t1_loop.trips) (hk : k.val < 8) (st : St Ideal) :
    ((step (F := Ideal) q x3 x4 k st).1 (ix3 b r (0 : Fin 1)),
     (step (F := Ideal) q x3 x4 k st).2.1 (ix3 b r (0 : Fin 1)),
     (step (F := Ideal) q x3 x4 k st).2.2 (ix3 b r d))
      = Attn.stepRow s (fun n => x4 (ix3 b n d)) ⟨k.val, hk⟩
          (st.1 (ix3 b r (0 : Fin 1)), st.2.1 (ix3 b r (0 : Fin 1)), st.2.2 (ix3 b r d)) := by
  rw [row_step_fst q x3 x4 b r s hs k hk st, row_step_snd q x3 x4 b r s hs k hk st,
    row_step_thd q x3 x4 b r d s hs k hk st]
  rfl

/-! ### The trips against the blocks -/

/-- Before trip n (n ≤ 8) the state at row (b, r) and column d is the row's state before block n. -/
theorem row_stAt (q : FVec Ideal S4x256x64 .bf16) (x3 x4 : Vec Ideal S4x4096x64 .bf16) (b : Fin 4) (r : Fin 256)
    (d : Fin 64) (s : Fin 4096 → EReal) (hs : ∀ n : Fin 4096, ∑ e : Fin 64, q (ix3 b r e) * x3 (ix3 b n e) = s n)
    (n : ℕ) (hn : n ≤ 8) :
    ((stAt (F := Ideal) q x3 x4 n).1 (ix3 b r (0 : Fin 1)),
     (stAt (F := Ideal) q x3 x4 n).2.1 (ix3 b r (0 : Fin 1)),
     (stAt (F := Ideal) q x3 x4 n).2.2 (ix3 b r d))
      = Attn.stRow s (fun i => x4 (ix3 b i d)) n := by
  induction n with
  | zero =>
      show (k1_pay11 (F := Ideal) (ix3 b r (0 : Fin 1)), k1_pay12 (F := Ideal) (ix3 b r (0 : Fin 1)),
          k1_pay13 (F := Ideal) (ix3 b r d)) = (Attn.negInf, Attn.zero32, Attn.zero32)
      rw [pay11_apply, pay12_apply, pay13_apply]
  | succ n ih =>
      have hlt : n < 8 := by omega
      have hlt' : n < k1_t1_loop.trips := by rw [row_trips_eq]; exact hlt
      rw [row_stAt_succ q x3 x4 n hlt', row_stRow_succ s _ n hlt, ← ih (by omega)]
      exact row_step q x3 x4 b r d s hs ⟨n, hlt'⟩ hlt (stAt (F := Ideal) q x3 x4 n)

/-- Entry (b, r, d) of the tile's output is the block-by-block attention of query row (b, r). -/
theorem blockFn_apply (x0 : Vec Ideal S4x256x1024 .f32) (x1 : Vec Ideal S1024x64 .f32) (x2 : Vec Ideal S64 .f32)
    (x3 x4 : Vec Ideal S4x4096x64 .bf16) (b : Fin 4) (r : Fin 256) (d : Fin 64) :
    blockFn (F := Ideal) x0 x1 x2 x3 x4 (ix3 b r d)
      = Attn.onl
          (fun n => Attn.scoreK
            (Attn.proj (fun j => x0 (ix3 b r j)) (fun j e => x1 (ix2 j e)) (fun e => x2 (ix1 e)))
            (fun e => x3 (ix3 b n e)))
          (fun n => x4 (ix3 b n d)) := by
  -- the contraction of the scaled query row with a key row is the score with the 1/8 inside
  have hs : ∀ n : Fin 4096, ∑ e : Fin 64, k1_pay10 (F := Ideal) x0 x1 x2 (ix3 b r e) * x3 (ix3 b n e)
      = (fun n : Fin 4096 => Attn.scoreK
          (Attn.proj (fun j => x0 (ix3 b r j)) (fun j e => x1 (ix2 j e)) (fun e => x2 (ix1 e)))
          (fun e => x3 (ix3 b n e))) n := by
    intro n
    show _ = ∑ e : Fin 64, (Attn.proj (fun j => x0 (ix3 b r j)) (fun j e => x1 (ix2 j e))
      (fun e => x2 (ix1 e)) e * Attn.eighth) * x3 (ix3 b n e)
    exact Finset.sum_congr rfl fun e _ => by rw [pay10_apply]
  -- after the 8 trips the state at the row is the row's state after the 8 blocks
  have h := row_stAt (k1_pay10 (F := Ideal) x0 x1 x2) x3 x4 b r d _ hs 8 le_rfl
  -- the output is the weighted sum over the sum
  unfold blockFn Attn.onl
  rw [pay1_apply, row_trips_eq, ← h]

end Cert.KernelIdeal.Flash

end
-- ==== Proof.Region1.lean ====
/-
  The second launch: the result as a whole array.

  Tile t reads rows 256 t … 256 t + 255 of every batch of the query, all of the projected keys and values, and
  writes the same rows of the result. The tiles cover the array, so entry (b, s, d) of the result is the
  block-by-block attention of query row (b, s) against the keys and values the launch finds.
-/
import proofs.«411045_j90666759618654_3_alg».proof.Proof.Gen.KernelIdeal.Frame
import proofs.«411045_j90666759618654_3_alg».proof.Proof.Body1
import proofs.«411045_j90666759618654_3_alg».proof.Proof.Row1
import proofs.«411045_j90666759618654_3_alg».proof.Proof.Spec
import Idealize.ShloMosaic.Lib.ValueIdx
import Idealize.ShloMosaic.Lib.Pipeline.Value

set_option maxRecDepth 16384

noncomputable section

namespace Cert.KernelIdeal.Flash

open Idealize.ShloMosaic Idealize.ShloMosaic.TcCoe Idealize.ShloMosaic.ValueIdx Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

/-! ## The result as one function of its index -/

/-- Block-by-block attention of one query row `x`, projected by `W` and `bias`, against the key rows `K` and one
    column `v` of the value rows. -/
def attnOf (x : Fin 1024 → EReal) (W : Fin 1024 → Fin 64 → EReal) (bias : Fin 64 → EReal)
    (K : Fin 4096 → Fin 64 → EReal) (v : Fin 4096 → EReal) : EReal :=
  Attn.onl (fun n => Attn.scoreK (Attn.proj x W bias) (K n)) v

/-- Entry (b, s, d) of the attention of the query against the projected keys and values as the launch finds them. -/
def attnRow (c : Dev nD) (b : Fin 4) (s : Fin 4096) (d : Fin 64) : EReal :=
  attnOf (fun j => V c main_arg0 (ix3 b s j)) (fun j e => V c main_arg3 (ix2 j e)) (fun e => V c main_arg4 (ix1 e))
    (fun n e => V c main_v0_0 (ix3 b n e)) (fun n => V c main_v0_1 (ix3 b n d))

/-- The whole result array: at each index, the attention entry its three coordinates name. -/
def resultArr (c : Dev nD) : S4x4096x64.Idx → EReal := fun i =>
  attnRow V c ⟨(i 0).val, (i 0).isLt⟩ ⟨(i 1).val, (i 1).isLt⟩ ⟨(i 2).val, (i 2).isLt⟩

/-- The array at an index whose coordinates are b, s, d. -/
theorem resultArr_apply (c : Dev nD) (i : S4x4096x64.Idx) (b : Fin 4) (s : Fin 4096) (d : Fin 64)
    (hb : (i 0).val = b.val) (hs : (i 1).val = s.val) (hd : (i 2).val = d.val) :
    resultArr V c i = attnRow V c b s d := by
  have e0 : (⟨(i 0).val, (i 0).isLt⟩ : Fin 4) = b := Fin.ext hb
  have e1 : (⟨(i 1).val, (i 1).isLt⟩ : Fin 4096) = s := Fin.ext hs
  have e2 : (⟨(i 2).val, (i 2).isLt⟩ : Fin 64) = d := Fin.ext hd
  show attnRow V c ⟨(i 0).val, (i 0).isLt⟩ ⟨(i 1).val, (i 1).isLt⟩ ⟨(i 2).val, (i 2).isLt⟩ = attnRow V c b s d
  rw [e0, e1, e2]

/-! ## Where each window's block sits at tile `t` -/

/-- The block index of every window at tile `t`, decided over the 16 tiles: the query and the result move with the
    tile along the row axis; the weight, the bias, the keys and the values stay at the origin. -/
theorem tile_index : ∀ t : Fin cfg1.N,
    win1_0.index t (0 : Fin 3) = 0 ∧ win1_0.index t (1 : Fin 3) = t.val ∧ win1_0.index t (2 : Fin 3) = 0
    ∧ win1_1.index t (0 : Fin 2) = 0 ∧ win1_1.index t (1 : Fin 2) = 0
    ∧ win1_2.index t (0 : Fin 1) = 0
    ∧ win1_3.index t (0 : Fin 3) = 0 ∧ win1_3.index t (1 : Fin 3) = 0 ∧ win1_3.index t (2 : Fin 3) = 0
    ∧ win1_4.index t (0 : Fin 3) = 0 ∧ win1_4.index t (1 : Fin 3) = 0 ∧ win1_4.index t (2 : Fin 3) = 0
    ∧ win1_5.index t (0 : Fin 3) = 0 ∧ win1_5.index t (1 : Fin 3) = t.val ∧ win1_5.index t (2 : Fin 3) = 0 :=
  (by decide +kernel : ∀ t : Fin grid1.N, _)

/-! ## Each input block read back to the array it is a block of

A block's entry at coordinate y sits in the array, on each axis, at block index × block size + y. -/

/-- Tile `t`'s query block holds rows 256 t … 256 t + 255 of every batch of the query. -/
theorem query_block (c : Dev nD) (t : Fin cfg1.N) (b : Fin 4) (r : Fin 256) (j : Fin 1024) (s : Fin 4096)
    (hs : s.val = 256 * t.val + r.val) :
    (iblk1 V c 0 t : Vec Ideal S4x256x1024 .f32) (ix3 b r j) = V c main_arg0 (ix3 b s j) := by
  obtain ⟨q0, q1, q2, -⟩ := tile_index t
  show V c main_arg0 (((cfg1.win 0).blk t).view.emb (ix3 b r j)) = V c main_arg0 (ix3 b s j)
  refine congrArg (V c main_arg0) ?_
  funext a
  apply Fin.ext
  match a with
  | ⟨0, _⟩ => show win1_0.index t (0 : Fin 3) * 4 + 1 * b.val = b.val; omega
  | ⟨1, _⟩ => show win1_0.index t (1 : Fin 3) * 256 + 1 * r.val = s.val; omega
  | ⟨2, _⟩ => show win1_0.index t (2 : Fin 3) * 1024 + 1 * j.val = j.val; omega

/-- The query weight's block is the whole weight matrix. -/
theorem weight_block (c : Dev nD) (t : Fin cfg1.N) (j : Fin 1024) (e : Fin 64) :
    (iblk1 V c 1 t : Vec Ideal S1024x64 .f32) (ix2 j e) = V c main_arg3 (ix2 j e) := by
  obtain ⟨-, -, -, w0, w1, -⟩ := tile_index t
  show V c main_arg3 (((cfg1.win 1).blk t).view.emb (ix2 j e)) = V c main_arg3 (ix2 j e)
  refine congrArg (V c main_arg3) ?_
  funext a
  apply Fin.ext
  match a with
  | ⟨0, _⟩ => show win1_1.index t (0 : Fin 2) * 1024 + 1 * j.val = j.val; omega
  | ⟨1, _⟩ => show win1_1.index t (1 : Fin 2) * 64 + 1 * e.val = e.val; omega

/-- The query bias's block is the whole bias. -/
theorem bias_block (c : Dev nD) (t : Fin cfg1.N) (e : Fin 64) :
    (iblk1 V c 2 t : Vec Ideal S64 .f32) (ix1 e) = V c main_arg4 (ix1 e) := by
  obtain ⟨-, -, -, -, -, b0, -⟩ := tile_index t
  show V c main_arg4 (((cfg1.win 2).blk t).view.emb (ix1 e)) = V c main_arg4 (ix1 e)
  refine congrArg (V c main_arg4) ?_
  funext a
  apply Fin.ext
  match a with
  | ⟨0, _⟩ => show win1_2.index t (0 : Fin 1) * 64 + 1 * e.val = e.val; omega

/-- The keys' block is the whole array of projected keys. -/
theorem keys_block (c : Dev nD) (t : Fin cfg1.N) (b : Fin 4) (n : Fin 4096) (e : Fin 64) :
    (iblk1 V c 3 t : Vec Ideal S4x4096x64 .bf16) (ix3 b n e) = V c main_v0_0 (ix3 b n e) := by
  obtain ⟨-, -, -, -, -, -, k0, k1, k2, -⟩ := tile_index t
  show V c main_v0_0 (((cfg1.win 3).blk t).view.emb (ix3 b n e)) = V c main_v0_0 (ix3 b n e)
  refine congrArg (V c main_v0_0) ?_
  funext a
  apply Fin.ext
  match a with
  | ⟨0, _⟩ => show win1_3.index t (0 : Fin 3) * 4 + 1 * b.val = b.val; omega
  | ⟨1, _⟩ => show win1_3.index t (1 : Fin 3) * 4096 + 1 * n.val = n.val; omega
  | ⟨2, _⟩ => show win1_3.index t (2 : Fin 3) * 64 + 1 * e.val = e.val; omega

/-- The values' block is the whole array of projected values. -/
theorem values_block (c : Dev nD) (t : Fin cfg1.N) (b : Fin 4) (n : Fin 4096) (e : Fin 64) :
    (iblk1 V c 4 t : Vec Ideal S4x4096x64 .bf16) (ix3 b n e) = V c main_v0_1 (ix3 b n e) := by
  obtain ⟨-, -, -, -, -, -, -, -, -, v0, v1, v2, -⟩ := tile_index t
  show V c main_v0_1 (((cfg1.win 4).blk t).view.emb (ix3 b n e)) = V c main_v0_1 (ix3 b n e)
  refine congrArg (V c main_v0_1) ?_
  funext a
  apply Fin.ext
  match a with
  | ⟨0, _⟩ => show win1_4.index t (0 : Fin 3) * 4 + 1 * b.val = b.val; omega
  | ⟨1, _⟩ => show win1_4.index t (1 : Fin 3) * 4096 + 1 * n.val = n.val; omega
  | ⟨2, _⟩ => show win1_4.index t (2 : Fin 3) * 64 + 1 * e.val = e.val; omega

/-! ## One entry of a tile's output -/

/-- The tile function at entry (b, r, d), when the tile's query row (b, r) is row (b, s) of the query and the other
    four blocks are the arrays themselves: the attention entry (b, s, d). -/
theorem tile_entry (c : Dev nD) (x0 : Vec Ideal S4x256x1024 .f32) (x1 : Vec Ideal S1024x64 .f32) (x2 : Vec Ideal S64 .f32)
    (x3 x4 : Vec Ideal S4x4096x64 .bf16) (b : Fin 4) (r : Fin 256) (d : Fin 64) (s : Fin 4096)
    (h0 : ∀ j : Fin 1024, x0 (ix3 b r j) = V c main_arg0 (ix3 b s j))
    (h1 : ∀ (j : Fin 1024) (e : Fin 64), x1 (ix2 j e) = V c main_arg3 (ix2 j e))
    (h2 : ∀ e : Fin 64, x2 (ix1 e) = V c main_arg4 (ix1 e))
    (h3 : ∀ (n : Fin 4096) (e : Fin 64), x3 (ix3 b n e) = V c main_v0_0 (ix3 b n e))
    (h4 : ∀ n : Fin 4096, x4 (ix3 b n d) = V c main_v0_1 (ix3 b n d)) :
    blockFn (F := Ideal) x0 x1 x2 x3 x4 (ix3 b r d) = attnRow V c b s d := by
  have e0 : (fun j : Fin 1024 => x0 (ix3 b r j)) = (fun j => V c main_arg0 (ix3 b s j)) := funext h0
  have e1 : (fun (j : Fin 1024) (e : Fin 64) => x1 (ix2 j e)) = (fun j e => V c main_arg3 (ix2 j e)) :=
    funext fun j => funext (h1 j)
  have e2 : (fun e : Fin 64 => x2 (ix1 e)) = (fun e => V c main_arg4 (ix1 e)) := funext h2
  have e3 : (fun (n : Fin 4096) (e : Fin 64) => x3 (ix3 b n e)) = (fun n e => V c main_v0_0 (ix3 b n e)) :=
    funext fun n => funext (h3 n)
  have e4 : (fun n : Fin 4096 => x4 (ix3 b n d)) = (fun n => V c main_v0_1 (ix3 b n d)) := funext h4
  refine (blockFn_apply x0 x1 x2 x3 x4 b r d).trans ?_
  show attnOf (fun j : Fin 1024 => x0 (ix3 b r j)) (fun (j : Fin 1024) (e : Fin 64) => x1 (ix2 j e)) (fun e : Fin 64 => x2 (ix1 e))
      (fun (n : Fin 4096) (e : Fin 64) => x3 (ix3 b n e)) (fun n : Fin 4096 => x4 (ix3 b n d))
    = attnOf (fun j => V c main_arg0 (ix3 b s j)) (fun j e => V c main_arg3 (ix2 j e)) (fun e => V c main_arg4 (ix1 e))
      (fun n e => V c main_v0_0 (ix3 b n e)) (fun n => V c main_v0_1 (ix3 b n d))
  rw [e0, e1, e2, e3, e4]

/-- What a write-back moves of a tile's output, at a block coordinate y, is the output at (y 0, y 1, y 2). -/
theorem cut_entry {α : Type} (X : S4x256x64.Idx → α) (t : Fin cfg1.N) (y : ((cfg1.win 5).xblock (grid1.coords t)).Idx)
    (b : Fin 4) (r : Fin 256) (d : Fin 64) (hb : b.val = (y 0).val) (hr : r.val = (y 1).val) (hd : d.val = (y 2).val) :
    (cfg1.win 5).cut (grid1.coords t) X y = X (ix3 b r d) := by
  show X ((cfg1.win 5).xinj (grid1.coords t) y) = X (ix3 b r d)
  refine congrArg X ?_
  funext a
  apply Fin.ext
  match a with
  | ⟨0, _⟩ => exact hb.symm
  | ⟨1, _⟩ => exact hr.symm
  | ⟨2, _⟩ => exact hd.symm

/-! ## What tile `t` writes back -/

/-- Tile `t` writes back block `t` of the result array: its entry (b, r, d) is the attention entry (b, 256 t + r, d). -/
theorem flushed_tile (c : Dev nD) (t : Fin cfg1.N) :
    (dat1 V c).flushed 5 t = ((cfg1.win 5).blk t).view.read (Elt Ideal) (resultArr V c) := by
  have hN : grid1.N = 16 := N_1
  have htN : t.val < grid1.N := t.isLt
  obtain ⟨q0, q1, q2, w0, w1, b0, k0, k1, k2, v0, v1, v2, o0, o1, o2⟩ := tile_index t
  show (cfg1.win 5).cut (grid1.coords t) ((dat1 V c).after 5 t) = _
  rw [after1_5, outsAt1_eq]
  funext y
  have hb : (y 0).val < 4 := (y 0).isLt
  have hr : (y 1).val < 256 := (y 1).isLt
  have hd : (y 2).val < 64 := (y 2).isLt
  have hrow : 256 * t.val + (y 1).val < 4096 := by omega
  refine (cut_entry (blockFn (F := Ideal) (iblk1 V c 0 t) (iblk1 V c 1 t) (iblk1 V c 2 t) (iblk1 V c 3 t) (iblk1 V c 4 t))
    t y ⟨(y 0).val, hb⟩ ⟨(y 1).val, hr⟩ ⟨(y 2).val, hd⟩ rfl rfl rfl).trans ?_
  refine (tile_entry V c (iblk1 V c 0 t) (iblk1 V c 1 t) (iblk1 V c 2 t) (iblk1 V c 3 t) (iblk1 V c 4 t)
    ⟨(y 0).val, hb⟩ ⟨(y 1).val, hr⟩ ⟨(y 2).val, hd⟩ ⟨256 * t.val + (y 1).val, hrow⟩
    (fun j => query_block V c t ⟨(y 0).val, hb⟩ ⟨(y 1).val, hr⟩ j ⟨256 * t.val + (y 1).val, hrow⟩ rfl)
    (fun j e => weight_block V c t j e) (fun e => bias_block V c t e)
    (fun n e => keys_block V c t ⟨(y 0).val, hb⟩ n e)
    (fun n => values_block V c t ⟨(y 0).val, hb⟩ n ⟨(y 2).val, hd⟩)).trans ?_
  show attnRow V c ⟨(y 0).val, hb⟩ ⟨256 * t.val + (y 1).val, hrow⟩ ⟨(y 2).val, hd⟩
    = resultArr V c (((cfg1.win 5).blk t).view.emb y)
  refine Eq.symm (resultArr_apply V c (((cfg1.win 5).blk t).view.emb y) _ _ _ ?_ ?_ ?_)
  · show win1_5.index t (0 : Fin 3) * 4 + 1 * (y 0).val = (y 0).val; omega
  · show win1_5.index t (1 : Fin 3) * 256 + 1 * (y 1).val = 256 * t.val + (y 1).val; omega
  · show win1_5.index t (2 : Fin 3) * 64 + 1 * (y 2).val = (y 2).val; omega

/-! ## The tiles cover the array -/

/-- An index of the result array lies in tile `t`'s block iff each coordinate is in the block's range on its axis. -/
theorem mem_tile (t : Fin cfg1.N) (i : S4x4096x64.Idx) :
    i ∈ ((cfg1.win 5).blk t).view.set ↔
      ∀ a : Fin 3, win1_5.index t a * S4x256x64.size a ≤ (i a).val
        ∧ (i a).val < win1_5.index t a * S4x256x64.size a + S4x256x64.size a := by
  show i ∈ ((View.whole main_v1).slice (win1_5.rect t)).set ↔ _
  rw [View.set_slice_whole, Rect.mem_set_unit]
  exact Iff.rfl

/-- Row s of the result lies in the block of tile s / 256, which writes its block back. -/
theorem tiles_cover (i : S4x4096x64.Idx) :
    ∃ t : Fin cfg1.N, (cfg1.win 5).flush t = true ∧ i ∈ ((cfg1.win 5).blk t).view.set := by
  have hN : grid1.N = 16 := N_1
  have h0 : (i 0).val < 4 := (i 0).isLt
  have h1 : (i 1).val < 4096 := (i 1).isLt
  have h2 : (i 2).val < 64 := (i 2).isLt
  obtain ⟨t, ht⟩ : ∃ t : Fin cfg1.N, t.val = (i 1).val / 256 :=
    ⟨⟨(i 1).val / 256, by show (i 1).val / 256 < grid1.N; omega⟩, rfl⟩
  obtain ⟨q0, q1, q2, w0, w1, b0, k0, k1, k2, v0, v1, v2, o0, o1, o2⟩ := tile_index t
  refine ⟨t, flush1_5 t, ?_⟩
  rw [mem_tile]
  intro a
  match a with
  | ⟨0, _⟩ =>
    show win1_5.index t (0 : Fin 3) * 4 ≤ (i 0).val ∧ (i 0).val < win1_5.index t (0 : Fin 3) * 4 + 4
    omega
  | ⟨1, _⟩ =>
    show win1_5.index t (1 : Fin 3) * 256 ≤ (i 1).val ∧ (i 1).val < win1_5.index t (1 : Fin 3) * 256 + 256
    omega
  | ⟨2, _⟩ =>
    show win1_5.index t (2 : Fin 3) * 64 ≤ (i 2).val ∧ (i 2).val < win1_5.index t (2 : Fin 3) * 64 + 64
    omega

/-! ## The array after the launch -/

/-- Every tile writes its block of one array and the blocks cover it, so the result ends holding that array. -/
theorem result_array (c : Dev nD) : (dat1 V c).arrAt 5 cfg1.N = resultArr V c :=
  (dat1 V c).arrAt_eq_of_cover 5 (resultArr V c) (fun t _ => flushed_tile V c t) (fun i => tiles_cover i)

/-- Entry (b, s, d) of the result after the second launch. -/
theorem attn_at (c : Dev nD) (b : Fin 4) (s : Fin 4096) (d : Fin 64) :
    (dat1 V c).arrAt 5 cfg1.N (ix3 b s d)
      = Attn.onl
          (fun n => Attn.scoreK
            (Attn.proj (fun j => V c main_arg0 (ix3 b s j)) (fun j e => V c main_arg3 (ix2 j e)) (fun e => V c main_arg4 (ix1 e)))
            (fun e => V c main_v0_0 (ix3 b n e)))
          (fun n => V c main_v0_1 (ix3 b n d)) :=
  (congrFun (result_array V c) (ix3 b s d)).trans
    ((resultArr_apply V c (ix3 b s d) b s d rfl rfl rfl).trans rfl)

end Cert.KernelIdeal.Flash

end
-- ==== Proof.KernelAt.lean ====
/-
  The kernel's result at one entry, as a function of the nine inputs.

  The result buffer at the end is the second launch's output array. Entry (b, s, d) of it is the block-by-block
  attention of query row (b, s) against the keys and values the second launch finds; those are the first
  launch's output arrays, whose rows are the projections of the key and value rows; and every input is read as
  launched. Put together, the entry is `Attn.outK` of the inputs.
-/
import proofs.«411045_j90666759618654_3_alg».proof.Proof.RunValue
import proofs.«411045_j90666759618654_3_alg».proof.Proof.Region0
import proofs.«411045_j90666759618654_3_alg».proof.Proof.Region1
import proofs.«411045_j90666759618654_3_alg».proof.Proof.Spec
import Idealize.ShloMosaic.Lib.ValueIdx

set_option maxRecDepth 16384

noncomputable section

namespace Cert.KernelIdeal.Flash

open Idealize.ShloMosaic Idealize.ShloMosaic.TcCoe Idealize.ShloMosaic.ValueIdx Idealize.SL.Sem
open Cert.KernelIdeal Cert.KernelIdeal.Gen Cert.KernelIdeal.RunValue

variable (m : (ℓ : Loc nD τ sig) → Buf (Elt Ideal) ℓ) (ρ : Dev nD → PrngReg)

/-- Row (b, n) of the projected keys the second launch finds is the projection of key row (b, n). -/
theorem keys_at (c : Dev nD) (b : Fin 4) (n : Fin 4096) (e : Fin 64) :
    V1 m ρ c main_v0_0 (ix3 b n e)
      = Attn.proj (fun j => m ((c : Thread nD τ).loc main_arg1) (ix3 b n j)) (fun j e' => m ((c : Thread nD τ).loc main_arg5) (ix2 j e')) (fun e' => m ((c : Thread nD τ).loc main_arg6) (ix1 e')) e := by
  rw [V1_main_v0_0 m ρ c]
  exact kproj_at (V0 m ρ) c b n e

/-- Row (b, n) of the projected values the second launch finds is the projection of value row (b, n). -/
theorem values_at (c : Dev nD) (b : Fin 4) (n : Fin 4096) (e : Fin 64) :
    V1 m ρ c main_v0_1 (ix3 b n e)
      = Attn.proj (fun j => m ((c : Thread nD τ).loc main_arg2) (ix3 b n j)) (fun j e' => m ((c : Thread nD τ).loc main_arg7) (ix2 j e')) (fun e' => m ((c : Thread nD τ).loc main_arg8) (ix1 e')) e := by
  rw [V1_main_v0_1 m ρ c]
  exact vproj_at (V0 m ρ) c b n e

/-- Entry (b, s, d) of the result buffer at the end. -/
theorem kernel_at (c : Dev nD) (b : Fin 4) (s : Fin 4096) (d : Fin 64) :
    W2 m ρ c (Proc.devRef .tc main_v1) (ix3 b s d)
      = Attn.outK (fun b s j => m ((c : Thread nD τ).loc main_arg0) (ix3 b s j)) (fun b s j => m ((c : Thread nD τ).loc main_arg1) (ix3 b s j)) (fun b s j => m ((c : Thread nD τ).loc main_arg2) (ix3 b s j))
          (fun j e => m ((c : Thread nD τ).loc main_arg3) (ix2 j e)) (fun e => m ((c : Thread nD τ).loc main_arg4) (ix1 e)) (fun j e => m ((c : Thread nD τ).loc main_arg5) (ix2 j e)) (fun e => m ((c : Thread nD τ).loc main_arg6) (ix1 e))
          (fun j e => m ((c : Thread nD τ).loc main_arg7) (ix2 j e)) (fun e => m ((c : Thread nD τ).loc main_arg8) (ix1 e)) b s d := by
  rw [result_eq m ρ c, attn_at (V1 m ρ) c b s d]
  unfold Attn.outK
  simp only [keys_at m ρ c, values_at m ρ c, V1_main_arg0 m ρ c, V1_main_arg3 m ρ c, V1_main_arg4 m ρ c]

end Cert.KernelIdeal.Flash

end
-- ==== Proof.RefValue.lean ====
/-
  The reference's result read at one entry: the textbook attention of the projected rows.

  Entry (b, s, d) is the sum over the 4096 keys n of the softmax weight of key n times entry d of the projected
  value row n. The weight is exp (score − M) over the sum of those exponentials, M the maximum of the row's scores
  (folded from −∞, and compared once more with −∞); the score is the contraction of the projected query row with
  the projected key row over the 64 features, divided by the square root of 64.
-/
import proofs.«411045_j90666759618654_3_alg».proof.Proof.Gen.ReferenceIdeal.Read
import proofs.«411045_j90666759618654_3_alg».proof.Proof.Spec
import Idealize.ShloMosaic.Lib.ValueIdx
import Idealize.ShloMosaic.Lib.IdealHost

noncomputable section

namespace Cert.ReferenceIdeal.RefValue

open Idealize.ShloMosaic Idealize.ShloMosaic.TcCoe Idealize.ShloMosaic.ValueIdx Idealize.SL.Sem
open Cert.ReferenceIdeal Cert.ReferenceIdeal.Gen Cert.ReferenceIdeal.Read

/-! ### The three projections: a row of an input times its weight matrix, plus the bias -/

/-- The projected query: row (b, s) of the first input times the first matrix, plus the first bias. -/
theorem proj_q (x0 : (⟨S4x4096x1024, .f32⟩ : BufTy).Contents (Elt Ideal)) (x3 : (⟨S1024x64, .f32⟩ : BufTy).Contents (Elt Ideal)) (x4 : (⟨S64, .f32⟩ : BufTy).Contents (Elt Ideal))
    (b : Fin 4) (s : Fin 4096) (e : Fin 64) :
    val_main_v3 (F := Ideal) x0 x3 x4 (ix3 b s e)
      = Attn.proj (fun j => x0 (ix3 b s j)) (fun j e => x3 (ix2 j e)) (fun e => x4 (ix1 e)) e := by
  have e1 : ∀ k : Fin 1024, lidx_main_v0 (ix3 b s e) k = ix3 b s k := fun k =>
    funext fun a => Fin.ext (by match a with | ⟨0, _⟩ => rfl | ⟨1, _⟩ => rfl | ⟨2, _⟩ => rfl)
  have e2 : ∀ k : Fin 1024, ridx_main_v0 (ix3 b s e) k = ix2 k e := fun k =>
    funext fun a => Fin.ext (by match a with | ⟨0, _⟩ => rfl | ⟨1, _⟩ => rfl)
  have e3 : idx_main_v1 (idx_main_v2 (ix3 b s e)) = ix1 e :=
    funext fun a => Fin.ext (by match a with | ⟨0, _⟩ => rfl)
  rw [val_main_v3_apply, val_main_v0_apply, val_main_v2_apply, val_main_v1_apply, Ideal.addf_def, e3]
  unfold Attn.proj
  refine congrArg (· + x4 (ix1 e)) (Finset.sum_congr rfl fun k _ => ?_)
  rw [e1 k, e2 k]

/-- The projected key: row (b, s) of the second input times the second matrix, plus the second bias. -/
theorem proj_k (x1 : (⟨S4x4096x1024, .f32⟩ : BufTy).Contents (Elt Ideal)) (x5 : (⟨S1024x64, .f32⟩ : BufTy).Contents (Elt Ideal)) (x6 : (⟨S64, .f32⟩ : BufTy).Contents (Elt Ideal))
    (b : Fin 4) (s : Fin 4096) (e : Fin 64) :
    val_main_v7 (F := Ideal) x1 x5 x6 (ix3 b s e)
      = Attn.proj (fun j => x1 (ix3 b s j)) (fun j e => x5 (ix2 j e)) (fun e => x6 (ix1 e)) e := by
  have e1 : ∀ k : Fin 1024, lidx_main_v4 (ix3 b s e) k = ix3 b s k := fun k =>
    funext fun a => Fin.ext (by match a with | ⟨0, _⟩ => rfl | ⟨1, _⟩ => rfl | ⟨2, _⟩ => rfl)
  have e2 : ∀ k : Fin 1024, ridx_main_v4 (ix3 b s e) k = ix2 k e := fun k =>
    funext fun a => Fin.ext (by match a with | ⟨0, _⟩ => rfl | ⟨1, _⟩ => rfl)
  have e3 : idx_main_v5 (idx_main_v6 (ix3 b s e)) = ix1 e :=
    funext fun a => Fin.ext (by match a with | ⟨0, _⟩ => rfl)
  rw [val_main_v7_apply, val_main_v4_apply, val_main_v6_apply, val_main_v5_apply, Ideal.addf_def, e3]
  unfold Attn.proj
  refine congrArg (· + x6 (ix1 e)) (Finset.sum_congr rfl fun k _ => ?_)
  rw [e1 k, e2 k]

/-- The projected value: row (b, s) of the third input times the third matrix, plus the third bias. -/
theorem proj_v (x2 : (⟨S4x4096x1024, .f32⟩ : BufTy).Contents (Elt Ideal)) (x7 : (⟨S1024x64, .f32⟩ : BufTy).Contents (Elt Ideal)) (x8 : (⟨S64, .f32⟩ : BufTy).Contents (Elt Ideal))
    (b : Fin 4) (s : Fin 4096) (e : Fin 64) :
    val_main_v11 (F := Ideal) x2 x7 x8 (ix3 b s e)
      = Attn.proj (fun j => x2 (ix3 b s j)) (fun j e => x7 (ix2 j e)) (fun e => x8 (ix1 e)) e := by
  have e1 : ∀ k : Fin 1024, lidx_main_v8 (ix3 b s e) k = ix3 b s k := fun k =>
    funext fun a => Fin.ext (by match a with | ⟨0, _⟩ => rfl | ⟨1, _⟩ => rfl | ⟨2, _⟩ => rfl)
  have e2 : ∀ k : Fin 1024, ridx_main_v8 (ix3 b s e) k = ix2 k e := fun k =>
    funext fun a => Fin.ext (by match a with | ⟨0, _⟩ => rfl | ⟨1, _⟩ => rfl)
  have e3 : idx_main_v9 (idx_main_v10 (ix3 b s e)) = ix1 e :=
    funext fun a => Fin.ext (by match a with | ⟨0, _⟩ => rfl)
  rw [val_main_v11_apply, val_main_v8_apply, val_main_v10_apply, val_main_v9_apply, Ideal.addf_def, e3]
  unfold Attn.proj
  refine congrArg (· + x8 (ix1 e)) (Finset.sum_congr rfl fun k _ => ?_)
  rw [e1 k, e2 k]

/-! ### The score: the contraction over the 64 features, divided by √64 -/

/-- The score of query row (b, s) against key row n. -/
theorem score_at (x0 x1 : (⟨S4x4096x1024, .f32⟩ : BufTy).Contents (Elt Ideal)) (x3 : (⟨S1024x64, .f32⟩ : BufTy).Contents (Elt Ideal))
    (x4 : (⟨S64, .f32⟩ : BufTy).Contents (Elt Ideal)) (x5 : (⟨S1024x64, .f32⟩ : BufTy).Contents (Elt Ideal)) (x6 : (⟨S64, .f32⟩ : BufTy).Contents (Elt Ideal))
    (b : Fin 4) (s n : Fin 4096) :
    val_main_v15 (F := Ideal) x0 x1 x3 x4 x5 x6 (ix3 b s n)
      = Attn.scoreR (Attn.proj (fun j => x0 (ix3 b s j)) (fun j e => x3 (ix2 j e)) (fun e => x4 (ix1 e)))
        (Attn.proj (fun j => x1 (ix3 b n j)) (fun j e => x5 (ix2 j e)) (fun e => x6 (ix1 e))) := by
  have e1 : ∀ e : Fin 64, lidx_main_v12 (ix3 b s n) e = ix3 b s e := fun e =>
    funext fun a => Fin.ext (by match a with | ⟨0, _⟩ => rfl | ⟨1, _⟩ => rfl | ⟨2, _⟩ => rfl)
  have e2 : ∀ e : Fin 64, ridx_main_v12 (ix3 b s n) e = ix3 b n e := fun e =>
    funext fun a => Fin.ext (by match a with | ⟨0, _⟩ => rfl | ⟨1, _⟩ => rfl | ⟨2, _⟩ => rfl)
  rw [val_main_v15_apply, val_main_v12_apply, val_main_v14_apply, val_main_v13_apply, val_main_cst_apply,
    Ideal.hostDivf_def, Ideal.hostUnary_sqrt_def, Ideal.ofBits_def]
  unfold Attn.scoreR
  refine congrArg (fun z => Ideal.div z (Ideal.sqrt Attn.sixtyFour)) (Finset.sum_congr rfl fun e _ => ?_)
  rw [e1 e, e2 e, proj_q x0 x3 x4 b s e, proj_k x1 x5 x6 b n e]

/-- The scores of query row (b, s) against all keys, as one function of the key. -/
theorem score_fun (x0 x1 : (⟨S4x4096x1024, .f32⟩ : BufTy).Contents (Elt Ideal)) (x3 : (⟨S1024x64, .f32⟩ : BufTy).Contents (Elt Ideal))
    (x4 : (⟨S64, .f32⟩ : BufTy).Contents (Elt Ideal)) (x5 : (⟨S1024x64, .f32⟩ : BufTy).Contents (Elt Ideal)) (x6 : (⟨S64, .f32⟩ : BufTy).Contents (Elt Ideal))
    (b : Fin 4) (s : Fin 4096) :
    (fun i : Fin 4096 => val_main_v15 (F := Ideal) x0 x1 x3 x4 x5 x6 (ix3 b s i))
      = (fun i : Fin 4096 => Attn.scoreR (Attn.proj (fun j => x0 (ix3 b s j)) (fun j e => x3 (ix2 j e)) (fun e => x4 (ix1 e)))
        (Attn.proj (fun j => x1 (ix3 b i j)) (fun j e => x5 (ix2 j e)) (fun e => x6 (ix1 e)))) :=
  funext fun i => score_at x0 x1 x3 x4 x5 x6 b s i

/-! ### The row maximum: the fold of max from −∞ over the 4096 keys, compared once more with −∞ -/

/-- The shape relation of the reductions over the key axis, in the form that names the inserted coordinate. -/
theorem red2 : S4x4096x4096.Reduces [2] S4x4096 := by decide

/-- Result index (b, s) with key n inserted on the reduced axis is (b, s, n). -/
theorem lift_eq (b : Fin 4) (s n : Fin 4096) : red2.lift (ix2 b s) n = ix3 b s n :=
  funext fun a => Fin.ext (by match a with | ⟨0, _⟩ => rfl | ⟨1, _⟩ => rfl | ⟨2, _⟩ => rfl)

/-- The ideal maximum is max of the extended reals, also under a fold. -/
theorem fold_maximumf_eq {n : Nat} (init : EReal) (f : Fin n → EReal) :
    (Finset.univ : Finset (Fin n)).fold (FloatOps.maximumf (F := Ideal) (φ := .f32)) init f
      = (Finset.univ : Finset (Fin n)).fold max init f := rfl

/-- The maximum of row (b, s) of any score array, as the reference takes it. -/
theorem rowmax_of (y : (⟨S4x4096x4096, .f32⟩ : BufTy).Contents (Elt Ideal)) (b : Fin 4) (s : Fin 4096) :
    Host.reduce (FloatOps.maximumf (F := Ideal) (φ := .f32)) y (val_main_cst_0 (F := Ideal))
        reducesTo_S4x4096x4096_S4x4096_d2 h_S_ (ix2 b s)
      = (Finset.univ : Finset (Fin 4096)).fold max Attn.negInf (fun n => y (ix3 b s n)) := by
  have hl : (y ∘ red2.lift (ix2 b s)) = fun n : Fin 4096 => y (ix3 b s n) :=
    funext fun n => congrArg y (lift_eq b s n)
  rw [Host.reduce_eq_fold_single (FloatOps.maximumf (F := Ideal) (φ := .f32)) y (val_main_cst_0 (F := Ideal))
      reducesTo_S4x4096x4096_S4x4096_d2 red2 h_S_ (ix2 b s), hl, val_main_cst_0_apply, Ideal.ofBits_def]
  exact fold_maximumf_eq _ _

/-- The maximum of row (b, s) of the scores. -/
theorem rowmax_at (x0 x1 : (⟨S4x4096x1024, .f32⟩ : BufTy).Contents (Elt Ideal)) (x3 : (⟨S1024x64, .f32⟩ : BufTy).Contents (Elt Ideal))
    (x4 : (⟨S64, .f32⟩ : BufTy).Contents (Elt Ideal)) (x5 : (⟨S1024x64, .f32⟩ : BufTy).Contents (Elt Ideal)) (x6 : (⟨S64, .f32⟩ : BufTy).Contents (Elt Ideal))
    (b : Fin 4) (s : Fin 4096) :
    val_main_v18 (F := Ideal) x0 x1 x3 x4 x5 x6 (ix2 b s)
      = Attn.allMax (fun i : Fin 4096 => Attn.scoreR (Attn.proj (fun j => x0 (ix3 b s j)) (fun j e => x3 (ix2 j e)) (fun e => x4 (ix1 e)))
        (Attn.proj (fun j => x1 (ix3 b i j)) (fun j e => x5 (ix2 j e)) (fun e => x6 (ix1 e)))) := by
  rw [val_main_v18_apply, val_main_v17_apply, val_main_cst_1_apply, Ideal.maximumf_def, Ideal.ofBits_def]
  unfold Attn.allMax
  refine congrArg (max Attn.negInf) ?_
  unfold val_main_v16
  rw [rowmax_of, score_fun x0 x1 x3 x4 x5 x6 b s]

/-! ### The exponentials, their sum, and the weights -/

/-- exp (score − row maximum) at (b, s, n). -/
theorem exp_at (x0 x1 : (⟨S4x4096x1024, .f32⟩ : BufTy).Contents (Elt Ideal)) (x3 : (⟨S1024x64, .f32⟩ : BufTy).Contents (Elt Ideal))
    (x4 : (⟨S64, .f32⟩ : BufTy).Contents (Elt Ideal)) (x5 : (⟨S1024x64, .f32⟩ : BufTy).Contents (Elt Ideal)) (x6 : (⟨S64, .f32⟩ : BufTy).Contents (Elt Ideal))
    (b : Fin 4) (s n : Fin 4096) :
    val_main_v22 (F := Ideal) x0 x1 x3 x4 x5 x6 (ix3 b s n)
      = Ideal.exp (Attn.scoreR (Attn.proj (fun j => x0 (ix3 b s j)) (fun j e => x3 (ix2 j e)) (fun e => x4 (ix1 e)))
        (Attn.proj (fun j => x1 (ix3 b n j)) (fun j e => x5 (ix2 j e)) (fun e => x6 (ix1 e)))
        - Attn.allMax (fun i : Fin 4096 => Attn.scoreR (Attn.proj (fun j => x0 (ix3 b s j)) (fun j e => x3 (ix2 j e)) (fun e => x4 (ix1 e)))
        (Attn.proj (fun j => x1 (ix3 b i j)) (fun j e => x5 (ix2 j e)) (fun e => x6 (ix1 e))))) := by
  have e1 : idx_main_v19 (idx_main_v20 (ix3 b s n)) = ix2 b s :=
    funext fun a => Fin.ext (by match a with | ⟨0, _⟩ => rfl | ⟨1, _⟩ => rfl)
  rw [val_main_v22_apply, val_main_v21_apply, val_main_v20_apply, val_main_v19_apply, e1,
    rowmax_at x0 x1 x3 x4 x5 x6 b s, score_at x0 x1 x3 x4 x5 x6 b s n, Ideal.hostUnary_exp_def, Ideal.subf_def]

/-- The sum of row (b, s)'s exponentials, from 0. -/
theorem denom_at (x0 x1 : (⟨S4x4096x1024, .f32⟩ : BufTy).Contents (Elt Ideal)) (x3 : (⟨S1024x64, .f32⟩ : BufTy).Contents (Elt Ideal))
    (x4 : (⟨S64, .f32⟩ : BufTy).Contents (Elt Ideal)) (x5 : (⟨S1024x64, .f32⟩ : BufTy).Contents (Elt Ideal)) (x6 : (⟨S64, .f32⟩ : BufTy).Contents (Elt Ideal))
    (b : Fin 4) (s : Fin 4096) :
    val_main_v23 (F := Ideal) x0 x1 x3 x4 x5 x6 (ix2 b s)
      = (Attn.zero32 + ∑ k : Fin 4096, Ideal.exp (Attn.scoreR (Attn.proj (fun j => x0 (ix3 b s j)) (fun j e => x3 (ix2 j e)) (fun e => x4 (ix1 e)))
        (Attn.proj (fun j => x1 (ix3 b k j)) (fun j e => x5 (ix2 j e)) (fun e => x6 (ix1 e)))
        - Attn.allMax (fun i : Fin 4096 => Attn.scoreR (Attn.proj (fun j => x0 (ix3 b s j)) (fun j e => x3 (ix2 j e)) (fun e => x4 (ix1 e)))
        (Attn.proj (fun j => x1 (ix3 b i j)) (fun j e => x5 (ix2 j e)) (fun e => x6 (ix1 e)))))) := by
  have e1 : ∀ k : Fin 4096, idx_main_v23 (ix2 b s) k = ix3 b s k := fun k =>
    funext fun a => Fin.ext (by match a with | ⟨0, _⟩ => rfl | ⟨1, _⟩ => rfl | ⟨2, _⟩ => rfl)
  rw [val_main_v23_apply, val_main_cst_2_apply, Ideal.ofBits_def]
  refine congrArg (Attn.zero32 + ·) (Finset.sum_congr rfl fun k _ => ?_)
  rw [e1 k, exp_at x0 x1 x3 x4 x5 x6 b s k]

/-- The softmax weight of key n in row (b, s). -/
theorem weight_at (x0 x1 : (⟨S4x4096x1024, .f32⟩ : BufTy).Contents (Elt Ideal)) (x3 : (⟨S1024x64, .f32⟩ : BufTy).Contents (Elt Ideal))
    (x4 : (⟨S64, .f32⟩ : BufTy).Contents (Elt Ideal)) (x5 : (⟨S1024x64, .f32⟩ : BufTy).Contents (Elt Ideal)) (x6 : (⟨S64, .f32⟩ : BufTy).Contents (Elt Ideal))
    (b : Fin 4) (s n : Fin 4096) :
    val_main_v26 (F := Ideal) x0 x1 x3 x4 x5 x6 (ix3 b s n)
      = Ideal.div (Ideal.exp (Attn.scoreR (Attn.proj (fun j => x0 (ix3 b s j)) (fun j e => x3 (ix2 j e)) (fun e => x4 (ix1 e)))
        (Attn.proj (fun j => x1 (ix3 b n j)) (fun j e => x5 (ix2 j e)) (fun e => x6 (ix1 e)))
        - Attn.allMax (fun i : Fin 4096 => Attn.scoreR (Attn.proj (fun j => x0 (ix3 b s j)) (fun j e => x3 (ix2 j e)) (fun e => x4 (ix1 e)))
        (Attn.proj (fun j => x1 (ix3 b i j)) (fun j e => x5 (ix2 j e)) (fun e => x6 (ix1 e))))))
          (Attn.zero32 + ∑ k : Fin 4096, Ideal.exp (Attn.scoreR (Attn.proj (fun j => x0 (ix3 b s j)) (fun j e => x3 (ix2 j e)) (fun e => x4 (ix1 e)))
        (Attn.proj (fun j => x1 (ix3 b k j)) (fun j e => x5 (ix2 j e)) (fun e => x6 (ix1 e)))
        - Attn.allMax (fun i : Fin 4096 => Attn.scoreR (Attn.proj (fun j => x0 (ix3 b s j)) (fun j e => x3 (ix2 j e)) (fun e => x4 (ix1 e)))
        (Attn.proj (fun j => x1 (ix3 b i j)) (fun j e => x5 (ix2 j e)) (fun e => x6 (ix1 e)))))) := by
  have e1 : idx_main_v24 (idx_main_v25 (ix3 b s n)) = ix2 b s :=
    funext fun a => Fin.ext (by match a with | ⟨0, _⟩ => rfl | ⟨1, _⟩ => rfl)
  rw [val_main_v26_apply, val_main_v25_apply, val_main_v24_apply, e1, Ideal.hostDivf_def,
    exp_at x0 x1 x3 x4 x5 x6 b s n, denom_at x0 x1 x3 x4 x5 x6 b s]

/-! ### The result -/

/-- Entry (b, s, d) of the reference's result is the textbook form over the nine inputs. -/
theorem ref_at (x0 x1 x2 : (⟨S4x4096x1024, .f32⟩ : BufTy).Contents (Elt Ideal)) (x3 : (⟨S1024x64, .f32⟩ : BufTy).Contents (Elt Ideal))
    (x4 : (⟨S64, .f32⟩ : BufTy).Contents (Elt Ideal)) (x5 : (⟨S1024x64, .f32⟩ : BufTy).Contents (Elt Ideal))
    (x6 : (⟨S64, .f32⟩ : BufTy).Contents (Elt Ideal)) (x7 : (⟨S1024x64, .f32⟩ : BufTy).Contents (Elt Ideal))
    (x8 : (⟨S64, .f32⟩ : BufTy).Contents (Elt Ideal)) (b : Fin 4) (s : Fin 4096) (d : Fin 64) :
    val_main_v27 (F := Ideal) x0 x1 x2 x3 x4 x5 x6 x7 x8 (ix3 b s d)
      = Attn.outR (fun b s j => x0 (ix3 b s j)) (fun b s j => x1 (ix3 b s j)) (fun b s j => x2 (ix3 b s j))
          (fun j e => x3 (ix2 j e)) (fun e => x4 (ix1 e)) (fun j e => x5 (ix2 j e)) (fun e => x6 (ix1 e))
          (fun j e => x7 (ix2 j e)) (fun e => x8 (ix1 e)) b s d := by
  have e1 : ∀ n : Fin 4096, lidx_main_v27 (ix3 b s d) n = ix3 b s n := fun n =>
    funext fun a => Fin.ext (by match a with | ⟨0, _⟩ => rfl | ⟨1, _⟩ => rfl | ⟨2, _⟩ => rfl)
  have e2 : ∀ n : Fin 4096, ridx_main_v27 (ix3 b s d) n = ix3 b n d := fun n =>
    funext fun a => Fin.ext (by match a with | ⟨0, _⟩ => rfl | ⟨1, _⟩ => rfl | ⟨2, _⟩ => rfl)
  rw [val_main_v27_apply]
  unfold Attn.outR Attn.softmaxRow
  refine Finset.sum_congr rfl fun n _ => ?_
  rw [e1 n, e2 n, weight_at x0 x1 x3 x4 x5 x6 b s n, proj_v x2 x7 x8 b n d]

end Cert.ReferenceIdeal.RefValue

end
-- ==== Proof.Finite.lean ====
/-
  The precondition read: every entry of every input is a real number.

  The precondition is the conjunction, over the nine inputs, of "every entry's absolute value is below +∞". An
  extended real whose absolute value max x (−x) is below +∞ is neither +∞ nor −∞.

  The steps: a conjunction of one-bit words is 1 only when both words are 1, so each of the nine conjuncts is 1;
  a conjunct is the "and" of an array of one-bit words over all its axes, so every word of that array is 1; the
  word at an entry x is the comparison max x (−x) < c, where c is the single-precision pattern of +∞, which denotes
  the top of the extended reals; and max x (−x) < +∞ fails at x = −∞ (there −x = +∞) and at x = +∞.
-/
import proofs.«411045_j90666759618654_3_alg».proof.Pre_finite_inputs
import proofs.«411045_j90666759618654_3_alg».proof.Proof.Gen.Pre_finite_inputs
import proofs.«411045_j90666759618654_3_alg».proof.Proof.Spec
import Idealize.ShloMosaic.Lib.ReduceAll
import Idealize.ShloMosaic.PureOps.Ideal.Laws

noncomputable section

namespace Cert.Pre_finite_inputs.Finite

open Idealize.ShloMosaic Idealize.SL.Sem
open Cert.Pre_finite_inputs Cert.Pre_finite_inputs.Gen

/-- The shape with no axes has one index only: two indices agree on every axis, there being none. -/
instance subsingleton_idx : Subsingleton S_.Idx := ⟨fun a b => funext fun d => d.elim0⟩

/-- The one-bit word of a truth value is 1 only when the truth value is true. -/
theorem eq_true_of_ofBool_eq_one {c : Bool} (h : BitVec.ofBool c = 1#1) : c = true := by
  cases c with
  | false => exact absurd h (by decide)
  | true => rfl

/-- The ordered "less than" of two extended reals answers 1 only when the first is below the second. -/
theorem lt_of_cmp_olt {a b : EReal} (h : Ideal.cmp .olt a b = 1#1) : a < b :=
  @of_decide_eq_true _ _ (eq_true_of_ofBool_eq_one h)

/-- An extended real whose absolute value max x (−x) is below +∞ is a real number: at −∞ the negation is +∞, at
    +∞ the value itself is, and in both cases the larger of the two is +∞, which is not below itself. -/
theorem isReal_of_abs_lt_top (x : EReal) (h : max x (-x) < ⊤) : Attn.IsReal x := by
  induction x using EReal.rec with
  | bot =>
    have h2 : -(⊥ : EReal) < ⊤ := lt_of_le_of_lt (le_max_right _ _) h
    rw [EReal.neg_bot] at h2
    exact absurd h2 (lt_irrefl _)
  | coe r =>
    show ∃ r' : ℝ, ((r : ℝ) : EReal) = (r' : EReal)
    exact ⟨r, rfl⟩
  | top => exact absurd (lt_of_le_of_lt (le_max_left _ _) h) (lt_irrefl _)

/-- One conjunct of the precondition, over an input of any shape: if the "and", over all entries, of
    "the absolute value is below the constant +∞" is 1, every entry of the input is real. -/
theorem isReal_of_all {s : Shape} {axes : List (Fin s.rank)} (x : FVec Ideal s .f32)
    (hb : S_.BroadcastsInDim s (![] : Fin 0 → Fin s.rank)) (hr : s.ReducesTo axes S_) (hu : 0 < S_.numel)
    (j : S_.Idx)
    (e : Host.reduce IntOp.andi
          (cmpf (F := Ideal) .olt (Host.absf (F := Ideal) x)
            (broadcastInDim s ![] hb (constant (F := Ideal) S_ .f32 0x7F800000#32)))
          (constantI S_ 1 1#1) hr hu j = 1#1)
    (i : s.Idx) : Attn.IsReal (x i) := by
  -- the "and" over all entries is 1, so the compared word at entry i is 1
  have h1 : cmpf (F := Ideal) .olt (Host.absf (F := Ideal) x)
      (broadcastInDim s ![] hb (constant (F := Ideal) S_ .f32 0x7F800000#32)) i = 1#1 :=
    Host.reduce_andi_all _ _ hr hu j e i
  -- that word compares max (x i) (−x i) with the value the constant's pattern denotes
  have h2 : Ideal.cmp .olt (max (x i : EReal) (-(x i : EReal))) (Ideal.ofBits .f32 0x7F800000#32) = 1#1 := h1
  -- the pattern is that of +∞
  have htop : Ideal.ofBits .f32 0x7F800000#32 = (⊤ : EReal) := by simp [Ideal.ofBits, Ideal.ieee]
  rw [htop] at h2
  exact isReal_of_abs_lt_top (x i) (lt_of_cmp_olt h2)

/-- If the precondition's value is all ones, every entry of each of the nine inputs is real. -/
theorem isReal_of_fn (a0 a1 a2 : FVec Ideal S4x4096x1024 .f32) (a3 : FVec Ideal S1024x64 .f32) (a4 : FVec Ideal S64 .f32)
    (a5 : FVec Ideal S1024x64 .f32) (a6 : FVec Ideal S64 .f32) (a7 : FVec Ideal S1024x64 .f32) (a8 : FVec Ideal S64 .f32)
    (h : fn (F := Ideal) a0 a1 a2 a3 a4 a5 a6 a7 a8 = (fun _ => 1#1)) :
    (∀ i, Attn.IsReal (a0 i)) ∧ (∀ i, Attn.IsReal (a1 i)) ∧ (∀ i, Attn.IsReal (a2 i)) ∧ (∀ i, Attn.IsReal (a3 i))
      ∧ (∀ i, Attn.IsReal (a4 i)) ∧ (∀ i, Attn.IsReal (a5 i)) ∧ (∀ i, Attn.IsReal (a6 i)) ∧ (∀ i, Attn.IsReal (a7 i))
      ∧ (∀ i, Attn.IsReal (a8 i)) := by
  -- the result has no axes: read the equation at its one index
  have h0 := congrFun h (fun d => d.elim0)
  dsimp only [fn, fn_part1, fn_part2, Idealize.ShloMosaic.andi] at h0
  -- the nine conjuncts are joined from the left: ((((((((c0 ∧ c1) ∧ c2) ∧ c3) ∧ c4) ∧ c5) ∧ c6) ∧ c7) ∧ c8)
  obtain ⟨h07, h8⟩ := IntOp.andi_eq_one.1 h0
  obtain ⟨h06, h7⟩ := IntOp.andi_eq_one.1 h07
  obtain ⟨h05, h6⟩ := IntOp.andi_eq_one.1 h06
  obtain ⟨h04, h5⟩ := IntOp.andi_eq_one.1 h05
  obtain ⟨h03, h4⟩ := IntOp.andi_eq_one.1 h04
  obtain ⟨h02, h3⟩ := IntOp.andi_eq_one.1 h03
  obtain ⟨h01, h2⟩ := IntOp.andi_eq_one.1 h02
  obtain ⟨h00, h1⟩ := IntOp.andi_eq_one.1 h01
  exact ⟨isReal_of_all a0 _ _ _ _ h00, isReal_of_all a1 _ _ _ _ h1, isReal_of_all a2 _ _ _ _ h2,
    isReal_of_all a3 _ _ _ _ h3, isReal_of_all a4 _ _ _ _ h4, isReal_of_all a5 _ _ _ _ h5,
    isReal_of_all a6 _ _ _ _ h6, isReal_of_all a7 _ _ _ _ h7, isReal_of_all a8 _ _ _ _ h8⟩

end Cert.Pre_finite_inputs.Finite

end
-- ==== Proof.lean ====
/-
  Flash attention against textbook attention, over the extended reals.

  The kernel projects the keys and values in a first launch, and in a second launch, for each tile of 256 query
  rows, projects and scales the query by 1/8 and visits the 4096 keys in 8 blocks of 512, carrying per row the
  running maximum m of the scores, the running sum l of exp (score − m) and the running sum of exp (score − m)
  times the value rows; a block replaces m by the larger m', rescales both sums by exp (m − m') and adds its own
  terms at m'; the tile's result is the last weighted sum over the last sum. The reference projects all three,
  divides the scores by √64, and takes the softmax-weighted sum of the value rows.

  On real inputs both are one function: √64 = 8 and a real factor moves across a finite sum, so the scores agree;
  after j blocks the carried sums are the sums over the keys seen so far at their maximum, because
  exp (m − m') · exp (s − m) = exp (s − m'); and (Σ e_n v_n) / L = Σ (e_n / L) v_n for a real L > 0. The precondition
  says every input entry is real, and this is where it is used. A change of float format is the identity over the
  extended reals, which is all the one rewrite of the idealization asks.
-/
import proofs.«411045_j90666759618654_3_alg».proof.Defs
import proofs.«411045_j90666759618654_3_alg».proof.Proof.Gen.Kernel
import proofs.«411045_j90666759618654_3_alg».proof.Proof.Gen.Kernel.Frame
import proofs.«411045_j90666759618654_3_alg».proof.Proof.Gen.KernelIdeal
import proofs.«411045_j90666759618654_3_alg».proof.Proof.Gen.KernelIdeal.Frame
import proofs.«411045_j90666759618654_3_alg».proof.Proof.Gen.ReferenceIdeal
import proofs.«411045_j90666759618654_3_alg».proof.Proof.Gen.ReferenceIdeal.Run
import proofs.«411045_j90666759618654_3_alg».proof.Proof.Gen.ReferenceIdeal.Read
import proofs.«411045_j90666759618654_3_alg».proof.Proof.Gen.Pre_finite_inputs
import proofs.«411045_j90666759618654_3_alg».proof.Proof.Spec
import proofs.«411045_j90666759618654_3_alg».proof.Proof.SpecLaws
import proofs.«411045_j90666759618654_3_alg».proof.Proof.RunValue
import proofs.«411045_j90666759618654_3_alg».proof.Proof.KernelAt
import proofs.«411045_j90666759618654_3_alg».proof.Proof.RefValue
import proofs.«411045_j90666759618654_3_alg».proof.Proof.Finite
import Idealize.ShloMosaic.Adequacy
import Idealize.ShloMosaic.Init

noncomputable section

namespace Cert.Proof

open Idealize.ShloMosaic Idealize.ShloMosaic.TcCoe Idealize.ShloMosaic.ValueIdx Idealize.SL.Sem

/-- The three frames: the two kernel programs by their generated frame certificates, the reference by its run
    with the result dropped. -/
theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- The idealization's one rewrite: widening a narrowed value back is the identity over the extended reals. -/
theorem preserves : Cert.preserves_Kernel_KernelIdeal :=
  IdealRules.truncf_extf.statement Cert.KernelIdeal.S4x256x512 .f32 .bf16

/-- Entry by entry the kernel's result is `Attn.outK` of the inputs and the reference's `Attn.outR` of the same
    inputs; on real inputs the two agree. -/
theorem algebraic : Cert.algebraic_KernelIdeal_ReferenceIdeal := by
  intro m ρ m' ρ' hpre hagree
  refine ⟨fun c => Cert.KernelIdeal.Gen.W2 m ρ c (Proc.devRef .tc Cert.KernelIdeal.main_v1),
    Cert.KernelIdeal.RunValue.run_value (F := Ideal) m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8⟩ := hagree c
  obtain ⟨r0, r1, r2, r3, r4, r5, r6, r7, r8⟩ :=
    Cert.Pre_finite_inputs.Finite.isReal_of_fn (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (hpre c)
  rw [Cert.ReferenceIdeal.Read.val_main_v27_eq, h0, h1, h2, h3, h4, h5, h6, h7, h8]
  funext i
  obtain ⟨b, s, d, rfl⟩ : ∃ (b : Fin 4) (s : Fin 4096) (d : Fin 64), i = ix3 b s d := ⟨i 0, i 1, i 2, eq_ix3 i⟩
  rw [Cert.ReferenceIdeal.RefValue.ref_at]
  show _ = Cert.KernelIdeal.Gen.W2 m ρ c (Proc.devRef .tc Cert.KernelIdeal.main_v1) (ix3 b s d)
  rw [Cert.KernelIdeal.Flash.kernel_at m ρ c b s d]
  exact (Cert.Attn.outK_eq_outR (fun b s j => r0 _) (fun b s j => r1 _) (fun b s j => r2 _) (fun j e => r3 _) (fun e => r4 _)
    (fun j e => r5 _) (fun e => r6 _) (fun j e => r7 _) (fun e => r8 _) b s d).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
